-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192 : Shape := ⟨2, ![32, 8192]⟩
abbrev S8192x64 : Shape := ⟨2, ![8192, 64]⟩
abbrev S64x8192 : Shape := ⟨2, ![64, 8192]⟩
abbrev S8192 : Shape := ⟨1, ![8192]⟩
abbrev S8192x8192 : Shape := ⟨2, ![8192, 8192]⟩
abbrev S_ : Shape := ⟨0, ![]⟩

class Facts : Prop where
  bcast_S_S32x8192 : S_.BroadcastsInDim S32x8192 (![] : Fin 0 → Fin S32x8192.rank)
  reducesTo_S32x8192_S_d0_1 : S32x8192.ReducesTo [0, 1] S_
  h_S_ : 0 < S_.numel
  bcast_S_S8192x64 : S_.BroadcastsInDim S8192x64 (![] : Fin 0 → Fin S8192x64.rank)
  reducesTo_S8192x64_S_d0_1 : S8192x64.ReducesTo [0, 1] S_
  bcast_S_S64x8192 : S_.BroadcastsInDim S64x8192 (![] : Fin 0 → Fin S64x8192.rank)
  reducesTo_S64x8192_S_d0_1 : S64x8192.ReducesTo [0, 1] S_
  bcast_S_S8192 : S_.BroadcastsInDim S8192 (![] : Fin 0 → Fin S8192.rank)
  reducesTo_S8192_S_d0 : S8192.ReducesTo [0] S_
  bcast_S_S8192x8192 : S_.BroadcastsInDim S8192x8192 (![] : Fin 0 → Fin S8192x8192.rank)
  reducesTo_S8192x8192_S_d0_1 : S8192x8192.ReducesTo [0, 1] S_

variable [Facts]

def fn_part2 {F : FTy → Type} [FloatOps F] (main_arg7 : FVec F S8192 .f32) (main_arg8 : FVec F S8192x8192 .f32) (main_arg9 : FVec F S8192 .f32) (main_v33 : IVec S_ 1) : IVec S_ 1 :=
  let main_v34 : FVec F S8192 .f32 := Host.absf main_arg7
  let main_cst_12 : FVec F S_ .f32 := constant S_ .f32 0x7F800000#32
  let main_v35 : FVec F S8192 .f32 := broadcastInDim S8192 ![] bcast_S_S8192 main_cst_12
  let main_v36 : IVec S8192 1 := cmpf .olt main_v34 main_v35
  let main_c_13 : IVec S_ 1 := constantI S_ 1 1#1
  let main_v37 : IVec S_ 1 := (fun x v => Host.reduce IntOp.andi x v reducesTo_S8192_S_d0 h_S_) main_v36 main_c_13
  let main_v38 : IVec S_ 1 := andi main_v33 main_v37
  let main_v39 : FVec F S8192x8192 .f32 := Host.absf main_arg8
  let main_cst_14 : FVec F S_ .f32 := constant S_ .f32 0x7F800000#32
  let main_v40 : FVec F S8192x8192 .f32 := broadcastInDim S8192x8192 ![] bcast_S_S8192x8192 main_cst_14
  let main_v41 : IVec S8192x8192 1 := cmpf .olt main_v39 main_v40
  let main_c_15 : IVec S_ 1 := constantI S_ 1 1#1
  let main_v42 : IVec S_ 1 := (fun x v => Host.reduce IntOp.andi x v reducesTo_S8192x8192_S_d0_1 h_S_) main_v41 main_c_15
  let main_v43 : IVec S_ 1 := andi main_v38 main_v42
  let main_v44 : FVec F S8192 .f32 := Host.absf main_arg9
  let main_cst_16 : FVec F S_ .f32 := constant S_ .f32 0x7F800000#32
  let main_v45 : FVec F S8192 .f32 := broadcastInDim S8192 ![] bcast_S_S8192 main_cst_16
  let main_v46 : IVec S8192 1 := cmpf .olt main_v44 main_v45
  let main_c_17 : IVec S_ 1 := constantI S_ 1 1#1
  let main_v47 : IVec S_ 1 := (fun x v => Host.reduce IntOp.andi x v reducesTo_S8192_S_d0 h_S_) main_v46 main_c_17
  let main_v48 : IVec S_ 1 := andi main_v43 main_v47
  main_v48

def fn_part1 {F : FTy → Type} [FloatOps F] (main_arg4 : FVec F S64x8192 .f32) (main_arg5 : FVec F S8192 .f32) (main_arg6 : FVec F S8192x8192 .f32) (main_arg7 : FVec F S8192 .f32) (main_arg8 : FVec F S8192x8192 .f32) (main_arg9 : FVec F S8192 .f32) (main_v13 : IVec S_ 1) (main_v16 : IVec S8192x64 1) : IVec S_ 1 :=
  let main_c_5 : IVec S_ 1 := constantI S_ 1 1#1
  let main_v17 : IVec S_ 1 := (fun x v => Host.reduce IntOp.andi x v reducesTo_S8192x64_S_d0_1 h_S_) main_v16 main_c_5
  let main_v18 : IVec S_ 1 := andi main_v13 main_v17
  let main_v19 : FVec F S64x8192 .f32 := Host.absf main_arg4
  let main_cst_6 : FVec F S_ .f32 := constant S_ .f32 0x7F800000#32
  let main_v20 : FVec F S64x8192 .f32 := broadcastInDim S64x8192 ![] bcast_S_S64x8192 main_cst_6
  let main_v21 : IVec S64x8192 1 := cmpf .olt main_v19 main_v20
  let main_c_7 : IVec S_ 1 := constantI S_ 1 1#1
  let main_v22 : IVec S_ 1 := (fun x v => Host.reduce IntOp.andi x v reducesTo_S64x8192_S_d0_1 h_S_) main_v21 main_c_7
  let main_v23 : IVec S_ 1 := andi main_v18 main_v22
  let main_v24 : FVec F S8192 .f32 := Host.absf main_arg5
  let main_cst_8 : FVec F S_ .f32 := constant S_ .f32 0x7F800000#32
  let main_v25 : FVec F S8192 .f32 := broadcastInDim S8192 ![] bcast_S_S8192 main_cst_8
  let main_v26 : IVec S8192 1 := cmpf .olt main_v24 main_v25
  let main_c_9 : IVec S_ 1 := constantI S_ 1 1#1
  let main_v27 : IVec S_ 1 := (fun x v => Host.reduce IntOp.andi x v reducesTo_S8192_S_d0 h_S_) main_v26 main_c_9
  let main_v28 : IVec S_ 1 := andi main_v23 main_v27
  let main_v29 : FVec F S8192x8192 .f32 := Host.absf main_arg6
  let main_cst_10 : FVec F S_ .f32 := constant S_ .f32 0x7F800000#32
  let main_v30 : FVec F S8192x8192 .f32 := broadcastInDim S8192x8192 ![] bcast_S_S8192x8192 main_cst_10
  let main_v31 : IVec S8192x8192 1 := cmpf .olt main_v29 main_v30
  let main_c_11 : IVec S_ 1 := constantI S_ 1 1#1
  let main_v32 : IVec S_ 1 := (fun x v => Host.reduce IntOp.andi x v reducesTo_S8192x8192_S_d0_1 h_S_) main_v31 main_c_11
  let main_v33 : IVec S_ 1 := andi main_v28 main_v32
  fn_part2 (F := F) main_arg7 main_arg8 main_arg9 main_v33

def fn {F : FTy → Type} [FloatOps F] (main_arg0 : FVec F S32x8192 .f32) (main_arg1 : FVec F S8192x64 .f32) (main_arg2 : FVec F S8192x64 .f32) (main_arg3 : FVec F S8192x64 .f32) (main_arg4 : FVec F S64x8192 .f32) (main_arg5 : FVec F S8192 .f32) (main_arg6 : FVec F S8192x8192 .f32) (main_arg7 : FVec F S8192 .f32) (main_arg8 : FVec F S8192x8192 .f32) (main_arg9 : FVec F S8192 .f32) : IVec S_ 1 :=
  let main_v0 : FVec F S32x8192 .f32 := Host.absf main_arg0
  let main_cst : FVec F S_ .f32 := constant S_ .f32 0x7F800000#32
  let main_v1 : FVec F S32x8192 .f32 := broadcastInDim S32x8192 ![] bcast_S_S32x8192 main_cst
  let main_v2 : IVec S32x8192 1 := cmpf .olt main_v0 main_v1
  let main_c : IVec S_ 1 := constantI S_ 1 1#1
  let main_v3 : IVec S_ 1 := (fun x v => Host.reduce IntOp.andi x v reducesTo_S32x8192_S_d0_1 h_S_) main_v2 main_c
  let main_v4 : FVec F S8192x64 .f32 := Host.absf main_arg1
  let main_cst_0 : FVec F S_ .f32 := constant S_ .f32 0x7F800000#32
  let main_v5 : FVec F S8192x64 .f32 := broadcastInDim S8192x64 ![] bcast_S_S8192x64 main_cst_0
  let main_v6 : IVec S8192x64 1 := cmpf .olt main_v4 main_v5
  let main_c_1 : IVec S_ 1 := constantI S_ 1 1#1
  let main_v7 : IVec S_ 1 := (fun x v => Host.reduce IntOp.andi x v reducesTo_S8192x64_S_d0_1 h_S_) main_v6 main_c_1
  let main_v8 : IVec S_ 1 := andi main_v3 main_v7
  let main_v9 : FVec F S8192x64 .f32 := Host.absf main_arg2
  let main_cst_2 : FVec F S_ .f32 := constant S_ .f32 0x7F800000#32
  let main_v10 : FVec F S8192x64 .f32 := broadcastInDim S8192x64 ![] bcast_S_S8192x64 main_cst_2
  let main_v11 : IVec S8192x64 1 := cmpf .olt main_v9 main_v10
  let main_c_3 : IVec S_ 1 := constantI S_ 1 1#1
  let main_v12 : IVec S_ 1 := (fun x v => Host.reduce IntOp.andi x v reducesTo_S8192x64_S_d0_1 h_S_) main_v11 main_c_3
  let main_v13 : IVec S_ 1 := andi main_v8 main_v12
  let main_v14 : FVec F S8192x64 .f32 := Host.absf main_arg3
  let main_cst_4 : FVec F S_ .f32 := constant S_ .f32 0x7F800000#32
  let main_v15 : FVec F S8192x64 .f32 := broadcastInDim S8192x64 ![] bcast_S_S8192x64 main_cst_4
  let main_v16 : IVec S8192x64 1 := cmpf .olt main_v14 main_v15
  fn_part1 (F := F) main_arg4 main_arg5 main_arg6 main_arg7 main_arg8 main_arg9 main_v13 main_v16
-- ==== Kernel.lean ====
abbrev S32x8192 : Shape := ⟨2, ![32, 8192]⟩
abbrev S8192x64 : Shape := ⟨2, ![8192, 64]⟩
abbrev S64x8192 : Shape := ⟨2, ![64, 8192]⟩
abbrev S8192 : Shape := ⟨1, ![8192]⟩
abbrev S8192x8192 : Shape := ⟨2, ![8192, 8192]⟩
abbrev S32x64 : Shape := ⟨2, ![32, 64]⟩
abbrev S64x32 : Shape := ⟨2, ![64, 32]⟩
abbrev S32x32 : Shape := ⟨2, ![32, 32]⟩
abbrev S32 : Shape := ⟨1, ![32]⟩
abbrev S32x1 : Shape := ⟨2, ![32, 1]⟩
abbrev S1x8192 : Shape := ⟨2, ![1, 8192]⟩
abbrev S32x1024 : Shape := ⟨2, ![32, 1024]⟩
abbrev S1024x1024 : Shape := ⟨2, ![1024, 1024]⟩
abbrev S1024 : Shape := ⟨1, ![1024]⟩
abbrev S1x1024 : Shape := ⟨2, ![1, 1024]⟩
abbrev S_ : Shape := ⟨0, ![]⟩

abbrev nBuf : Space → Nat
  | .hbm => 52
  | .vmem => 25
  | .smem => 0
  | _ => 0

abbrev bufTy : (tb : Table) → Fin (tcTables nBuf tb) → BufTy
  | .hbm, ⟨0, _⟩ => ⟨S32x8192, .f32⟩
  | .hbm, ⟨1, _⟩ => ⟨S8192x64, .f32⟩
  | .hbm, ⟨2, _⟩ => ⟨S8192x64, .f32⟩
  | .hbm, ⟨3, _⟩ => ⟨S8192x64, .f32⟩
  | .hbm, ⟨4, _⟩ => ⟨S64x8192, .f32⟩
  | .hbm, ⟨5, _⟩ => ⟨S8192, .f32⟩
  | .hbm, ⟨6, _⟩ => ⟨S8192x8192, .f32⟩
  | .hbm, ⟨7, _⟩ => ⟨S8192, .f32⟩
  | .hbm, ⟨8, _⟩ => ⟨S8192x8192, .f32⟩
  | .hbm, ⟨9, _⟩ => ⟨S8192, .f32⟩
  | .hbm, ⟨10, _⟩ => ⟨S32x8192, .f32⟩
  | .hbm, ⟨11, _⟩ => ⟨S32x8192, .f32⟩
  | .hbm, ⟨12, _⟩ => ⟨S32x8192, .f32⟩
  | .hbm, ⟨13, _⟩ => ⟨S32x8192, .f32⟩
  | .hbm, ⟨14, _⟩ => ⟨S_, .f32⟩
  | .hbm, ⟨15, _⟩ => ⟨S32, .f32⟩
  | .hbm, ⟨16, _⟩ => ⟨S32x1, .f32⟩
  | .hbm, ⟨17, _⟩ => ⟨S_, .f32⟩
  | .hbm, ⟨18, _⟩ => ⟨S32x1, .f32⟩
  | .hbm, ⟨19, _⟩ => ⟨S32x1, .f32⟩
  | .hbm, ⟨20, _⟩ => ⟨S_, .i32⟩
  | .hbm, ⟨21, _⟩ => ⟨S_, .f32⟩
  | .hbm, ⟨22, _⟩ => ⟨S32, .f32⟩
  | .hbm, ⟨23, _⟩ => ⟨S32x1, .f32⟩
  | .hbm, ⟨24, _⟩ => ⟨S_, .f32⟩
  | .hbm, ⟨25, _⟩ => ⟨S32x1, .f32⟩
  | .hbm, ⟨26, _⟩ => ⟨S32x1, .f32⟩
  | .hbm, ⟨27, _⟩ => ⟨S32x8192, .f32⟩
  | .hbm, ⟨28, _⟩ => ⟨S32x8192, .f32⟩
  | .hbm, ⟨29, _⟩ => ⟨S32x8192, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S32, .f32⟩
  | .hbm, ⟨35, _⟩ => ⟨S32x1, .f32⟩
  | .hbm, ⟨36, _⟩ => ⟨S32x1, .f32⟩
  | .hbm, ⟨37, _⟩ => ⟨S32x1, .f32⟩
  | .hbm, ⟨38, _⟩ => ⟨S_, .f32⟩
  | .hbm, ⟨39, _⟩ => ⟨S_, .i1⟩
  | .hbm, ⟨40, _⟩ => ⟨S_, .f32⟩
  | .hbm, ⟨41, _⟩ => ⟨S_, .f32⟩
  | .hbm, ⟨42, _⟩ => ⟨S32x1, .f32⟩
  | .hbm, ⟨43, _⟩ => ⟨S32x1, .f32⟩
  | .hbm, ⟨44, _⟩ => ⟨S32x8192, .f32⟩
  | .hbm, ⟨45, _⟩ => ⟨S32x8192, .f32⟩
  | .hbm, ⟨46, _⟩ => ⟨S_, .f32⟩
  | .hbm, ⟨47, _⟩ => ⟨S32x1, .f32⟩
  | .hbm, ⟨48, _⟩ => ⟨S32x1, .f32⟩
  | .hbm, ⟨49, _⟩ => ⟨S32x1, .f32⟩
  | .hbm, ⟨50, _⟩ => ⟨S32x8192, .f32⟩
  | .hbm, ⟨51, _⟩ => ⟨S32x8192, .f32⟩
  | .local _ .vmem, ⟨0, _⟩ => ⟨S32x8192, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x8192, .f32⟩
  | .local _ .vmem, ⟨5, _⟩ => ⟨S8192, .f32⟩
  | .local _ .vmem, ⟨6, _⟩ => ⟨S32x8192, .f32⟩
  | .local _ .vmem, ⟨7, _⟩ => ⟨S32x1024, .f32⟩
  | .local _ .vmem, ⟨8, _⟩ => ⟨S32x1024, .f32⟩
  | .local _ .vmem, ⟨9, _⟩ => ⟨S1024x1024, .f32⟩
  | .local _ .vmem, ⟨10, _⟩ => ⟨S1024x1024, .f32⟩
  | .local _ .vmem, ⟨11, _⟩ => ⟨S1024, .f32⟩
  | .local _ .vmem, ⟨12, _⟩ => ⟨S1024, .f32⟩
  | .local _ .vmem, ⟨13, _⟩ => ⟨S32x1024, .f32⟩
  | .local _ .vmem, ⟨14, _⟩ => ⟨S32x1024, .f32⟩
  | .local _ .vmem, ⟨15, _⟩ => ⟨S32x1024, .f32⟩
  | .local _ .vmem, ⟨16, _⟩ => ⟨S32x1024, .f32⟩
  | .local _ .vmem, ⟨17, _⟩ => ⟨S32x1024, .f32⟩
  | .local _ .vmem, ⟨18, _⟩ => ⟨S1024x1024, .f32⟩
  | .local _ .vmem, ⟨19, _⟩ => ⟨S1024x1024, .f32⟩
  | .local _ .vmem, ⟨20, _⟩ => ⟨S1024, .f32⟩
  | .local _ .vmem, ⟨21, _⟩ => ⟨S1024, .f32⟩
  | .local _ .vmem, ⟨22, _⟩ => ⟨S32x1024, .f32⟩
  | .local _ .vmem, ⟨23, _⟩ => ⟨S32x1024, .f32⟩
  | .local _ .vmem, ⟨24, _⟩ => ⟨S32x1024, .f32⟩
  | _, _ => ⟨S32x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_v12 : Ref sig .tc := ⟨.hbm, 37, rfl⟩
abbrev main_call0_cst_3 : Ref sig .tc := ⟨.hbm, 38, rfl⟩
abbrev main_call0_v13 : Ref sig .tc := ⟨.hbm, 39, rfl⟩
abbrev main_call0_cst_4 : Ref sig .tc := ⟨.hbm, 40, rfl⟩
abbrev main_call0_call0_v0 : Ref sig .tc := ⟨.hbm, 41, rfl⟩
abbrev main_call0_call0_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_cst_1 : Ref sig .tc := ⟨.hbm, 46, rfl⟩
abbrev main_v11 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_scratch0 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_stg3_0 : Ref sig .tc := ⟨.vmem, 22, rfl⟩
abbrev cc2_stg3_1 : Ref sig .tc := ⟨.vmem, 23, rfl⟩
abbrev cc2_scratch0 : Ref sig .tc := ⟨.vmem, 24, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc2_sem3_0 : DmaSem sig := 21
abbrev cc2_sem3_1 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8192x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  ![arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S32x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S32x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![8, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 1 → Nat :=
  let arg0 : BitVec 32 := BitVec.ofNat 32 (i 0).val
  let arg1 : BitVec 32 := BitVec.ofNat 32 (i 1).val
  let c0_i32 : BitVec 32 := 0#32
  ![arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S32x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S32x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

class Facts₀ : Prop where
  inb_S32x8192_S32x8192_0_0 : ∀ a, (![0, 0] : Fin 2 → Nat) a + S32x8192.size a ≤ S32x8192.size a
  h_S32x8192 : 0 < S32x8192.numel
  bitsLt_bf16_f32 : FTy.bits .bf16 < FTy.bits .f32
  inb_S8192x64_S8192x64_0_0 : ∀ a, (![0, 0] : Fin 2 → Nat) a + S8192x64.size a ≤ S8192x64.size a
  h_S8192x64 : 0 < S8192x64.numel
  transposes_S32x64_p1_0_S64x32 : S32x64.Transposes [1, 0] S64x32
  iota_S32x32_d0_w32 : S32x32.Iotas .tc 32 [0]
  iota_S32x32_d1_w32 : S32x32.Iotas .tc 32 [1]
  reduces_S32x32_S32 : S32x32.Reduces [1] S32
  shapeCasts_S32_S32x1 : S32.ShapeCasts S32x1
  broadcasts_S32x1_S32x32 : S32x1.Broadcasts S32x32
  inb_S64x8192_S64x8192_0_0 : ∀ a, (![0, 0] : Fin 2 → Nat) a + S64x8192.size a ≤ S64x8192.size a
  h_S64x8192 : 0 < S64x8192.numel
  inb_S8192_S8192_0 : ∀ a, (![0] : Fin 1 → Nat) a + S8192.size a ≤ S8192.size a
  h_S8192 : 0 < S8192.numel
  shapeCasts_S8192_S1x8192 : S8192.ShapeCasts S1x8192
  broadcasts_S1x8192_S32x8192 : S1x8192.Broadcasts S32x8192
  reduces_S32x8192_S32 : S32x8192.Reduces [1] S32
  broadcasts_S32x1_S32x8192 : S32x1.Broadcasts S32x8192
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  reducesTo_S32x8192_S32_d1 : S32x8192.ReducesTo [1] S32
  h_S_ : 0 < S_.numel
  bcast_S32_S32x1_0 : S32.BroadcastsInDim S32x1 (![0] : Fin 1 → Fin S32x1.rank)
  bcast_S_S32x1 : S_.BroadcastsInDim S32x1 (![] : Fin 0 → Fin S32x1.rank)
  bcast_S32x1_S32x8192_0_1 : S32x1.BroadcastsInDim S32x8192 (![0, 1] : Fin 2 → Fin S32x8192.rank)
  dot_S32x8192_S8192x64_S32x64_1_0_0_1_n_n_wf : DotDims.WF S32x8192 S8192x64 S32x64 [1] [0] [0] [1] [] []
  dot_S32x64_S64x32_S32x32_1_0_0_1_n_n_wf : DotDims.WF S32x64 S64x32 S32x32 [1] [0] [0] [1] [] []
  dot_S32x32_S32x64_S32x64_1_0_0_1_n_n_wf : DotDims.WF S32x32 S32x64 S32x64 [1] [0] [0] [1] [] []
  dot_S32x64_S64x8192_S32x8192_1_0_0_1_n_n_wf : DotDims.WF S32x64 S64x8192 S32x8192 [1] [0] [0] [1] [] []
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x8192.size a ≤ S32x8192.size a
  hwx0_0 : ∀ i : grid0.Coords, EltTy.bits .f32 = 32 ∨ (Rect.block (s := S32x8192) S32x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S8192x64.size a
  hwx0_1 : ∀ i : grid0.Coords, EltTy.bits .f32 = 32 ∨ (Rect.block (s := S8192x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x64.size a ≤ S8192x64.size a
  hwx0_2 : ∀ i : grid0.Coords, EltTy.bits .f32 = 32 ∨ (Rect.block (s := S8192x64) S8192x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x64.size a ≤ S8192x64.size a
  hwx0_3 : ∀ i : grid0.Coords, EltTy.bits .f32 = 32 ∨ (Rect.block (s := S8192x64) S8192x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S64x8192.size a
  hwx0_4 : ∀ i : grid0.Coords, EltTy.bits .f32 = 32 ∨ (Rect.block (s := S64x8192) S64x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S8192.size a ≤ S8192.size a
  hwx0_5 : ∀ i : grid0.Coords, EltTy.bits .f32 = 32 ∨ (Rect.block (s := S8192) S8192.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x8192.size a ≤ S32x8192.size a
  hwx0_6 : ∀ i : grid0.Coords, EltTy.bits .f32 = 32 ∨ (Rect.block (s := S32x8192) S32x8192.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x8192.size a
  hwx1_0 : ∀ i : grid1.Coords, EltTy.bits .f32 = 32 ∨ (Rect.block (s := S32x8192) S32x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S8192x8192.size a
  hwx1_1 : ∀ i : grid1.Coords, EltTy.bits .f32 = 32 ∨ (Rect.block (s := S8192x8192) S1024x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S8192.size a
  hwx1_2 : ∀ i : grid1.Coords, EltTy.bits .f32 = 32 ∨ (Rect.block (s := S8192) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S32x1024.size a ≤ S32x8192.size a
  hwx1_3 : ∀ i : grid1.Coords, EltTy.bits .f32 = 32 ∨ (Rect.block (s := S32x8192) S32x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S32x1024.size a ≤ S32x8192.size a
  hwx2_0 : ∀ i : grid2.Coords, EltTy.bits .f32 = 32 ∨ (Rect.block (s := S32x8192) S32x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S8192x8192.size a
  hwx2_1 : ∀ i : grid2.Coords, EltTy.bits .f32 = 32 ∨ (Rect.block (s := S8192x8192) S1024x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S8192.size a
  hwx2_2 : ∀ i : grid2.Coords, EltTy.bits .f32 = 32 ∨ (Rect.block (s := S8192) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S32x1024.size a ≤ S32x8192.size a
  hwx2_3 : ∀ i : grid2.Coords, EltTy.bits .f32 = 32 ∨ (Rect.block (s := S32x8192) S32x1024.size (cc2_transform_3 i) (hinb2_3 i)).WholeWords (EltTy.packing .f32)

variable [Facts₀]

def dot_S32x8192_S8192x64_S32x64_1_0_0_1_n_n : DotDims S32x8192 S8192x64 S32x64 where
  lhsContracting := [1]
  rhsContracting := [0]
  lhsNonContracting := [0]
  rhsNonContracting := [1]
  lhsBatch := []
  rhsBatch := []
  wf := dot_S32x8192_S8192x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x64_S32x64_1_0_0_1_n_n : DotDims S32x32 S32x64 S32x64 where
  lhsContracting := [1]
  rhsContracting := [0]
  lhsNonContracting := [0]
  rhsNonContracting := [1]
  lhsBatch := []
  rhsBatch := []
  wf := dot_S32x32_S32x64_S32x64_1_0_0_1_n_n_wf
def dot_S32x64_S64x8192_S32x8192_1_0_0_1_n_n : DotDims S32x64 S64x8192 S32x8192 where
  lhsContracting := [1]
  rhsContracting := [0]
  lhsNonContracting := [0]
  rhsNonContracting := [1]
  lhsBatch := []
  rhsBatch := []
  wf := dot_S32x64_S64x8192_S32x8192_1_0_0_1_n_n_wf
def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S8192x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0) S32x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0) S32x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S32x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S32x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v2) S32x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S32x8192 : Shape := ⟨2, ![32, 8192]⟩
abbrev S8192x64 : Shape := ⟨2, ![8192, 64]⟩
abbrev S64x8192 : Shape := ⟨2, ![64, 8192]⟩
abbrev S8192 : Shape := ⟨1, ![8192]⟩
abbrev S8192x8192 : Shape := ⟨2, ![8192, 8192]⟩
abbrev S_ : Shape := ⟨0, ![]⟩
abbrev S32x32 : Shape := ⟨2, ![32, 32]⟩
abbrev S32x64 : Shape := ⟨2, ![32, 64]⟩
abbrev S64x32 : Shape := ⟨2, ![64, 32]⟩
abbrev S32 : Shape := ⟨1, ![32]⟩
abbrev S32x1 : Shape := ⟨2, ![32, 1]⟩
abbrev S1x8192 : Shape := ⟨2, ![1, 8192]⟩

abbrev nBuf : Space → Nat
  | .hbm => 141
  | .vmem => 0
  | .smem => 0
  | _ => 0

abbrev hbmTy0_0 (i : Nat) : BufTy := match i % 128 with
  | 0 => ⟨S32x8192, .f32⟩
  | 1 => ⟨S8192x64, .f32⟩
  | 2 => ⟨S8192x64, .f32⟩
  | 3 => ⟨S8192x64, .f32⟩
  | 4 => ⟨S64x8192, .f32⟩
  | 5 => ⟨S8192, .f32⟩
  | 6 => ⟨S8192x8192, .f32⟩
  | 7 => ⟨S8192, .f32⟩
  | 8 => ⟨S8192x8192, .f32⟩
  | 9 => ⟨S8192, .f32⟩
  | 10 => ⟨S_, .f32⟩
  | 11 => ⟨S32x32, .f32⟩
  | 12 => ⟨S32x32, .i32⟩
  | 13 => ⟨S_, .i32⟩
  | 14 => ⟨S32x32, .i32⟩
  | 15 => ⟨S32x32, .i32⟩
  | 16 => ⟨S32x32, .i32⟩
  | 17 => ⟨S32x32, .i1⟩
  | 18 => ⟨S_, .f32⟩
  | 19 => ⟨S32x32, .f32⟩
  | 20 => ⟨S32x32, .f32⟩
  | 21 => ⟨S_, .f32⟩
  | 22 => ⟨S32x32, .f32⟩
  | 23 => ⟨S32x32, .f32⟩
  | 24 => ⟨S_, .f32⟩
  | 25 => ⟨S32x32, .f32⟩
  | 26 => ⟨S32x32, .f32⟩
  | 27 => ⟨S32x64, .f32⟩
  | 28 => ⟨S32x64, .f32⟩
  | 29 => ⟨S32x64, .f32⟩
  | 30 => ⟨S64x32, .f32⟩
  | 31 => ⟨S32x32, .f32⟩
  | 32 => ⟨S32x32, .f32⟩
  | 33 => ⟨S_, .f32⟩
  | 34 => ⟨S32, .f32⟩
  | 35 => ⟨S_, .f32⟩
  | 36 => ⟨S32, .f32⟩
  | 37 => ⟨S32, .f32⟩
  | 38 => ⟨S32x1, .f32⟩
  | 39 => ⟨S32x32, .f32⟩
  | 40 => ⟨S32x32, .f32⟩
  | 41 => ⟨S32x32, .f32⟩
  | 42 => ⟨S_, .f32⟩
  | 43 => ⟨S32, .f32⟩
  | 44 => ⟨S32x1, .f32⟩
  | 45 => ⟨S32x32, .f32⟩
  | 46 => ⟨S32x32, .f32⟩
  | 47 => ⟨S32x64, .f32⟩
  | 48 => ⟨S32x8192, .f32⟩
  | 49 => ⟨S1x8192, .f32⟩
  | 50 => ⟨S32x8192, .f32⟩
  | 51 => ⟨S32x8192, .f32⟩
  | 52 => ⟨S32x8192, .f32⟩
  | 53 => ⟨S_, .f32⟩
  | 54 => ⟨S32, .f32⟩
  | 55 => ⟨S32x1, .f32⟩
  | 56 => ⟨S_, .f32⟩
  | 57 => ⟨S32x1, .f32⟩
  | 58 => ⟨S32x1, .f32⟩
  | 59 => ⟨S_, .i32⟩
  | 60 => ⟨S_, .f32⟩
  | 61 => ⟨S32, .f32⟩
  | 62 => ⟨S32x1, .f32⟩
  | 63 => ⟨S_, .f32⟩
  | 64 => ⟨S32x1, .f32⟩
  | 65 => ⟨S32x1, .f32⟩
  | 66 => ⟨S32x8192, .f32⟩
  | 67 => ⟨S32x8192, .f32⟩
  | 68 => ⟨S32x8192, .f32⟩
  | 69 => ⟨S_, .f32⟩
  | 70 => ⟨S_, .f32⟩
  | 71 => ⟨S_, .f32⟩
  | 72 => ⟨S_, .f32⟩
  | 73 => ⟨S32, .f32⟩
  | 74 => ⟨S32x1, .f32⟩
  | 75 => ⟨S32x1, .f32⟩
  | 76 => ⟨S32x1, .f32⟩
  | 77 => ⟨S_, .f32⟩
  | 78 => ⟨S_, .i1⟩
  | 79 => ⟨S_, .f32⟩
  | 80 => ⟨S_, .f32⟩
  | 81 => ⟨S32x1, .f32⟩
  | 82 => ⟨S32x1, .f32⟩
  | 83 => ⟨S32x8192, .f32⟩
  | 84 => ⟨S32x8192, .f32⟩
  | 85 => ⟨S_, .f32⟩
  | 86 => ⟨S32x1, .f32⟩
  | 87 => ⟨S32x1, .f32⟩
  | 88 => ⟨S32x1, .f32⟩
  | 89 => ⟨S32x8192, .f32⟩
  | 90 => ⟨S32x8192, .f32⟩
  | 91 => ⟨S32x8192, .f32⟩
  | 92 => ⟨S1x8192, .f32⟩
  | 93 => ⟨S32x8192, .f32⟩
  | 94 => ⟨S32x8192, .f32⟩
  | 95 => ⟨S_, .f32⟩
  | 96 => ⟨S32x8192, .f32⟩
  | 97 => ⟨S32x8192, .f32⟩
  | 98 => ⟨S32x8192, .f32⟩
  | 99 => ⟨S1x8192, .f32⟩
  | 100 => ⟨S32x8192, .f32⟩
  | 101 => ⟨S32x8192, .f32⟩
  | 102 => ⟨S32x8192, .f32⟩
  | 103 => ⟨S_, .f32⟩
  | 104 => ⟨S32, .f32⟩
  | 105 => ⟨S32x1, .f32⟩
  | 106 => ⟨S_, .f32⟩
  | 107 => ⟨S32x1, .f32⟩
  | 108 => ⟨S32x1, .f32⟩
  | 109 => ⟨S_, .i32⟩
  | 110 => ⟨S_, .f32⟩
  | 111 => ⟨S32, .f32⟩
  | 112 => ⟨S32x1, .f32⟩
  | 113 => ⟨S_, .f32⟩
  | 114 => ⟨S32x1, .f32⟩
  | 115 => ⟨S32x1, .f32⟩
  | 116 => ⟨S32x8192, .f32⟩
  | 117 => ⟨S32x8192, .f32⟩
  | 118 => ⟨S32x8192, .f32⟩
  | 119 => ⟨S_, .f32⟩
  | 120 => ⟨S_, .f32⟩
  | 121 => ⟨S_, .f32⟩
  | 122 => ⟨S_, .f32⟩
  | 123 => ⟨S32, .f32⟩
  | 124 => ⟨S32x1, .f32⟩
  | 125 => ⟨S32x1, .f32⟩
  | 126 => ⟨S32x1, .f32⟩
  | 127 => ⟨S_, .f32⟩
  | _ => ⟨S32x8192, .f32⟩

abbrev hbmTy0_1 (i : Nat) : BufTy := match i % 128 with
  | 0 => ⟨S_, .i1⟩
  | 1 => ⟨S_, .f32⟩
  | 2 => ⟨S_, .f32⟩
  | 3 => ⟨S32x1, .f32⟩
  | 4 => ⟨S32x1, .f32⟩
  | 5 => ⟨S32x8192, .f32⟩
  | 6 => ⟨S32x8192, .f32⟩
  | 7 => ⟨S_, .f32⟩
  | 8 => ⟨S32x1, .f32⟩
  | 9 => ⟨S32x1, .f32⟩
  | 10 => ⟨S32x1, .f32⟩
  | 11 => ⟨S32x8192, .f32⟩
  | 12 => ⟨S32x8192, .f32⟩
  | _ => ⟨S32x8192, .f32⟩

abbrev hbmTy (i : Nat) : BufTy := match i / 128 with
  | 0 => hbmTy0_0 i
  | 1 => hbmTy0_1 i
  | _ => ⟨S32x8192, .f32⟩

abbrev bufTy : (tb : Table) → Fin (tcTables nBuf tb) → BufTy
  | .hbm, ⟨i, _⟩ => hbmTy i
  | _, _ => ⟨S32x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_call0_v0 : Ref sig .tc := ⟨.hbm, 12, rfl⟩
abbrev main_call0_c : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_cst : Ref sig .tc := ⟨.hbm, 18, rfl⟩
abbrev main_call0_v5 : Ref sig .tc := ⟨.hbm, 19, rfl⟩
abbrev main_v1 : Ref sig .tc := ⟨.hbm, 20, rfl⟩
abbrev main_cst_0 : Ref sig .tc := ⟨.hbm, 21, rfl⟩
abbrev main_v2 : Ref sig .tc := ⟨.hbm, 22, rfl⟩
abbrev main_v3 : Ref sig .tc := ⟨.hbm, 23, rfl⟩
abbrev main_cst_1 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_cst_3 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_cst_4 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_5 : Ref sig .tc := ⟨.hbm, 53, rfl⟩
abbrev main_v29 : Ref sig .tc := ⟨.hbm, 54, rfl⟩
abbrev main_v30 : Ref sig .tc := ⟨.hbm, 55, rfl⟩
abbrev main_cst_6 : Ref sig .tc := ⟨.hbm, 56, rfl⟩
abbrev main_v31 : Ref sig .tc := ⟨.hbm, 57, rfl⟩
abbrev main_v32 : Ref sig .tc := ⟨.hbm, 58, rfl⟩
abbrev main_c : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_cst_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_v6 : Ref sig .tc := ⟨.hbm, 68, rfl⟩
abbrev main_call1_v7 : Ref sig .tc := ⟨.hbm, 69, rfl⟩
abbrev main_call1_cst_1 : Ref sig .tc := ⟨.hbm, 70, rfl⟩
abbrev main_call1_v8 : Ref sig .tc := ⟨.hbm, 71, rfl⟩
abbrev main_call1_cst_2 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_v12 : Ref sig .tc := ⟨.hbm, 76, rfl⟩
abbrev main_call1_cst_3 : Ref sig .tc := ⟨.hbm, 77, rfl⟩
abbrev main_call1_v13 : Ref sig .tc := ⟨.hbm, 78, rfl⟩
abbrev main_call1_cst_4 : Ref sig .tc := ⟨.hbm, 79, rfl⟩
abbrev main_call1_call0_v0 : Ref sig .tc := ⟨.hbm, 80, rfl⟩
abbrev main_call1_call0_v1 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_cst_7 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_call2_cst : Ref sig .tc := ⟨.hbm, 95, rfl⟩
abbrev main_call2_v0 : Ref sig .tc := ⟨.hbm, 96, rfl⟩
abbrev main_v45 : Ref sig .tc := ⟨.hbm, 97, rfl⟩
abbrev main_v46 : Ref sig .tc := ⟨.hbm, 98, rfl⟩
abbrev main_v47 : Ref sig .tc := ⟨.hbm, 99, rfl⟩
abbrev main_v48 : Ref sig .tc := ⟨.hbm, 100, rfl⟩
abbrev main_v49 : Ref sig .tc := ⟨.hbm, 101, rfl⟩
abbrev main_v50 : Ref sig .tc := ⟨.hbm, 102, rfl⟩
abbrev main_cst_8 : Ref sig .tc := ⟨.hbm, 103, rfl⟩
abbrev main_v51 : Ref sig .tc := ⟨.hbm, 104, rfl⟩
abbrev main_v52 : Ref sig .tc := ⟨.hbm, 105, rfl⟩
abbrev main_cst_9 : Ref sig .tc := ⟨.hbm, 106, rfl⟩
abbrev main_v53 : Ref sig .tc := ⟨.hbm, 107, rfl⟩
abbrev main_v54 : Ref sig .tc := ⟨.hbm, 108, rfl⟩
abbrev main_c_10 : Ref sig .tc := ⟨.hbm, 109, rfl⟩
abbrev main_call3_cst : Ref sig .tc := ⟨.hbm, 110, rfl⟩
abbrev main_call3_v0 : Ref sig .tc := ⟨.hbm, 111, rfl⟩
abbrev main_call3_v1 : Ref sig .tc := ⟨.hbm, 112, rfl⟩
abbrev main_call3_cst_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_v6 : Ref sig .tc := ⟨.hbm, 118, rfl⟩
abbrev main_call3_v7 : Ref sig .tc := ⟨.hbm, 119, rfl⟩
abbrev main_call3_cst_1 : Ref sig .tc := ⟨.hbm, 120, rfl⟩
abbrev main_call3_v8 : Ref sig .tc := ⟨.hbm, 121, rfl⟩
abbrev main_call3_cst_2 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_v12 : Ref sig .tc := ⟨.hbm, 126, rfl⟩
abbrev main_call3_cst_3 : Ref sig .tc := ⟨.hbm, 127, rfl⟩
abbrev main_call3_v13 : Ref sig .tc := ⟨.hbm, 128, rfl⟩
abbrev main_call3_cst_4 : Ref sig .tc := ⟨.hbm, 129, rfl⟩
abbrev main_call3_call0_v0 : Ref sig .tc := ⟨.hbm, 130, rfl⟩
abbrev main_call3_call0_v1 : Ref sig .tc := ⟨.hbm, 131, rfl⟩
abbrev main_v55 : Ref sig .tc := ⟨.hbm, 132, rfl⟩
abbrev main_v56 : Ref sig .tc := ⟨.hbm, 133, rfl⟩
abbrev main_v57 : Ref sig .tc := ⟨.hbm, 134, rfl⟩
abbrev main_cst_11 : Ref sig .tc := ⟨.hbm, 135, rfl⟩
abbrev main_v58 : Ref sig .tc := ⟨.hbm, 136, rfl⟩
abbrev main_v59 : Ref sig .tc := ⟨.hbm, 137, rfl⟩
abbrev main_v60 : Ref sig .tc := ⟨.hbm, 138, rfl⟩
abbrev main_v61 : Ref sig .tc := ⟨.hbm, 139, rfl⟩
abbrev main_v62 : Ref sig .tc := ⟨.hbm, 140, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  transposes_S32x64_S64x32_1_0 : S32x64.Transposes [1, 0] S64x32
  reducesTo_S32x32_S32_d1 : S32x32.ReducesTo [1] S32
  h_S_ : 0 < S_.numel
  bcast_S_S32 : S_.BroadcastsInDim S32 (![] : Fin 0 → Fin S32.rank)
  bcast_S32_S32x1_0 : S32.BroadcastsInDim S32x1 (![0] : Fin 1 → Fin S32x1.rank)
  bcast_S32x1_S32x32_0_1 : S32x1.BroadcastsInDim S32x32 (![0, 1] : Fin 2 → Fin S32x32.rank)
  bcast_S8192_S1x8192_1 : S8192.BroadcastsInDim S1x8192 (![1] : Fin 1 → Fin S1x8192.rank)
  bcast_S1x8192_S32x8192_0_1 : S1x8192.BroadcastsInDim S32x8192 (![0, 1] : Fin 2 → Fin S32x8192.rank)
  reducesTo_S32x8192_S32_d1 : S32x8192.ReducesTo [1] S32
  bcast_S_S32x1 : S_.BroadcastsInDim S32x1 (![] : Fin 0 → Fin S32x1.rank)
  bcast_S32x1_S32x8192_0_1 : S32x1.BroadcastsInDim S32x8192 (![0, 1] : Fin 2 → Fin S32x8192.rank)
  bcast_S_S32x8192 : S_.BroadcastsInDim S32x8192 (![] : Fin 0 → Fin S32x8192.rank)
  dot_S32x8192_S8192x64_S32x64_1_0_0_1_n_n_wf : DotDims.WF S32x8192 S8192x64 S32x64 [1] [0] [0] [1] [] []
  dot_S32x64_S64x32_S32x32_1_0_0_1_n_n_wf : DotDims.WF S32x64 S64x32 S32x32 [1] [0] [0] [1] [] []
  dot_S32x32_S32x64_S32x64_1_0_0_1_n_n_wf : DotDims.WF S32x32 S32x64 S32x64 [1] [0] [0] [1] [] []
  dot_S32x64_S64x8192_S32x8192_1_0_0_1_n_n_wf : DotDims.WF S32x64 S64x8192 S32x8192 [1] [0] [0] [1] [] []
  dot_S32x8192_S8192x8192_S32x8192_1_0_0_1_n_n_wf : DotDims.WF S32x8192 S8192x8192 S32x8192 [1] [0] [0] [1] [] []

variable [Facts₀]

def dot_S32x8192_S8192x64_S32x64_1_0_0_1_n_n : DotDims S32x8192 S8192x64 S32x64 where
  lhsContracting := [1]
  rhsContracting := [0]
  lhsNonContracting := [0]
  rhsNonContracting := [1]
  lhsBatch := []
  rhsBatch := []
  wf := dot_S32x8192_S8192x64_S32x64_1_0_0_1_n_n_wf
def dot_S32x64_S64x32_S32x32_1_0_0_1_n_n : DotDims S32x64 S64x32 S32x32 where
  lhsContracting := [1]
  rhsContracting := [0]
  lhsNonContracting := [0]
  rhsNonContracting := [1]
  lhsBatch := []
  rhsBatch := []
  wf := dot_S32x64_S64x32_S32x32_1_0_0_1_n_n_wf
def dot_S32x32_S32x64_S32x64_1_0_0_1_n_n : DotDims S32x32 S32x64 S32x64 where
  lhsContracting := [1]
  rhsContracting := [0]
  lhsNonContracting := [0]
  rhsNonContracting := [1]
  lhsBatch := []
  rhsBatch := []
  wf := dot_S32x32_S32x64_S32x64_1_0_0_1_n_n_wf
def dot_S32x64_S64x8192_S32x8192_1_0_0_1_n_n : DotDims S32x64 S64x8192 S32x8192 where
  lhsContracting := [1]
  rhsContracting := [0]
  lhsNonContracting := [0]
  rhsNonContracting := [1]
  lhsBatch := []
  rhsBatch := []
  wf := dot_S32x64_S64x8192_S32x8192_1_0_0_1_n_n_wf
def dot_S32x8192_S8192x8192_S32x8192_1_0_0_1_n_n : DotDims S32x8192 S8192x8192 S32x8192 where
  lhsContracting := [1]
  rhsContracting := [0]
  lhsNonContracting := [0]
  rhsNonContracting := [1]
  lhsBatch := []
  rhsBatch := []
  wf := dot_S32x8192_S8192x8192_S32x8192_1_0_0_1_n_n_wf

class Facts : Prop extends Facts₀ where

variable [Facts]
-- ==== Proof.K.Attn.lean ====
import proofs.«129914_j85323820303106_1_alg».proof.Proof.Gen.Kernel.Launch
import proofs.«129914_j85323820303106_1_alg».proof.Proof.Gen.Kernel.Skeleton
import proofs.«129914_j85323820303106_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the attention block, on one grid point

The first kernel region of the forward pass runs on a grid of a single point: each of its six input
windows (the activations `x`, the three projection matrices, the output projection and its bias) and
its one output window is the whole array. The body loads all six inputs, computes causal
attention, the projection and the layer normalisation, and stores the whole output block once.

This module states, at ANY contents `V` of the core's buffers when the region is entered, what the
body leaves in the output's staging buffer (`attnOut`, a function of the six input blocks) and proves
the body's triple and the pipeline's body obligation for the proof data `dat0`.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block

An input window is never idle and never clipped, and the body leaves its block in place; so whatever
proof data agree with `V` on the window's array find, in the window's current staging buffer, the
block of the array at the point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every access of the body is through the whole-shape rectangle at zero offsets of its buffer. -/

abbrev rX : Rect S32x8192 := Rect.unit (s := S32x8192) ![0, 0] S32x8192.size inb_S32x8192_S32x8192_0_0
abbrev rW : Rect S8192x64 := Rect.unit (s := S8192x64) ![0, 0] S8192x64.size inb_S8192x64_S8192x64_0_0
abbrev rP : Rect S64x8192 := Rect.unit (s := S64x8192) ![0, 0] S64x8192.size inb_S64x8192_S64x8192_0_0
abbrev rB : Rect S8192 := Rect.unit (s := S8192) ![0] S8192.size inb_S8192_S8192_0

theorem rX_zero : (![0, 0] : Fin S32x8192.rank → ℕ) = fun _ => 0 := by
  funext a; fin_cases a <;> rfl
theorem rW_zero : (![0, 0] : Fin S8192x64.rank → ℕ) = fun _ => 0 := by
  funext a; fin_cases a <;> rfl
theorem rP_zero : (![0, 0] : Fin S64x8192.rank → ℕ) = fun _ => 0 := by
  funext a; fin_cases a <;> rfl
theorem rB_zero : (![0] : Fin S8192.rank → ℕ) = fun _ => 0 := by
  funext a; fin_cases a; rfl

/-! ## What the body leaves in the output window's buffer -/

/-- The output's staging buffer after the body, from the six input blocks: its one store, of the
    layer-normalised sum of the activations and the projected attention, as a piece over the whole block. -/
def attnOut (x0 : Vec F S32x8192 .f32) (x1 x2 x3 : Vec F S8192x64 .f32) (x4 : Vec F S64x8192 .f32) (x5 : Vec F S8192 .f32) :
    Vec F S32x8192 .f32 :=
  View.canon [⟨rX, k0_pay1 (View.ld x0 rX) (k0_pay2 (View.ld x0 rX) (View.ld x1 rW) (View.ld x2 rW) (View.ld x3 rW))
    (k0_pay3 (View.ld x4 rP)) (View.ld x5 rB)⟩]

/-- The one piece covers the block and every load reads its whole block: the output is the payload of the blocks. -/
theorem attnOut_eq (x0 : Vec F S32x8192 .f32) (x1 x2 x3 : Vec F S8192x64 .f32) (x4 : Vec F S64x8192 .f32) (x5 : Vec F S8192 .f32) :
    attnOut x0 x1 x2 x3 x4 x5 = Gen.k0_pay1 x0 (Gen.k0_pay2 x0 x1 x2 x3) (Gen.k0_pay3 x4) x5 := by
  unfold attnOut
  rw [View.canon_unit_zero rX_zero]
  simp only [View.ld_unit_zero (S := S32x8192) rX_zero, View.ld_unit_zero (S := S8192x64) rW_zero,
    View.ld_unit_zero (S := S64x8192) rP_zero, View.ld_unit_zero (S := S8192) rB_zero]

/-- The one store covers the block. -/
theorem cover0_6 (p0 : Vec F S32x8192 .f32) (y : S32x8192.Idx) :
    ∃ pc ∈ ([⟨rX, p0⟩] : List (View.Piece (Elt F) S32x8192 .f32)), y ∈ pc.1.set :=
  ⟨_, List.mem_singleton_self _, View.mem_set_unit_zero rX_zero inb_S32x8192_S32x8192_0_0 y⟩

/-! ## The body's triple -/

set_option maxHeartbeats 1000000 in
/-- The kernel body on whole staging memrefs, the six inputs' at read contents `x0 … x5` and the output's at
    anything, runs to the continuation holding the inputs' as they were and the output's at `attnOut` of the
    inputs'. The body reads the output's buffer once (at whatever it holds) and then overwrites all of it. -/
theorem sound_kernel0 (c : Dev nD) (E : Set ℕ) (i : grid0.Coords)
    (arg1 : Memref sig .tc .vmem S32x8192 .f32) (harg1 : arg1.IsWhole)
    (arg2 : Memref sig .tc .vmem S8192x64 .f32) (harg2 : arg2.IsWhole)
    (arg3 : Memref sig .tc .vmem S8192x64 .f32) (harg3 : arg3.IsWhole)
    (arg4 : Memref sig .tc .vmem S8192x64 .f32) (harg4 : arg4.IsWhole)
    (arg5 : Memref sig .tc .vmem S64x8192 .f32) (harg5 : arg5.IsWhole)
    (arg6 : Memref sig .tc .vmem S8192 .f32) (harg6 : arg6.IsWhole)
    (arg7 : Memref sig .tc .vmem S32x8192 .f32) (harg7 : arg7.IsWhole)
    (x0 : Vec F S32x8192 .f32) (x1 x2 x3 : Vec F S8192x64 .f32) (x4 : Vec F S64x8192 .f32) (x5 : Vec F S8192 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (attnOut x0 x1 x2 x3 x4 x5)) -∗ K ⟨⟩))
      ⊢ wp frame (wpE (defs₀ (F := F)) Variants.none c none) E
          (cc0__attn_kernel i arg1 harg1 arg2 harg2 arg3 harg3 arg4 harg4 arg5 harg5 arg6 harg6 arg7 harg7) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover0_6 _)).trans ?_
  sl_unfold_run_names
  rfl

/-! ## The pipeline's proof data -/

/-- The proof data of the region's pipeline on core `c`: the arrays as the region finds them (`V`); after the
    body at point `t` each input's buffer at its block and the output's at `attnOut` of the six input blocks;
    the invariant holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => attnOut (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = attnOut (iblk0 V c 0 t) (iblk0 V c 1 t) (iblk0 V c 2 t) (iblk0 V c 3 t) (iblk0 V c 4 t) (iblk0 V c 5 t) := by
  dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t)
    (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Ffn1Runs.lean ====
import proofs.«129914_j85323820303106_1_alg».proof.Proof.Gen.Kernel.Launch
import proofs.«129914_j85323820303106_1_alg».proof.Proof.Gen.Kernel.Skeleton
import proofs.«129914_j85323820303106_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 (custom_call 1, `cc1_kernel`): what the three control cases of the body share

The body accumulates `y_block · w_block` into a scratch that it carries along the reduction axis `k` of the
grid (point `t` has `n = t / 8`, `k = t % 8`): the scratch is reset under `k = 0`, added to at every point, and
the output block is stored from it (plus the bias, through the maximum with zero) under `k = 7`. Three control
cases meet the grid: A (`k = 0`), B (`0 < k < 7`), C (`k = 7`). Everything is stated at a parameter `V`, the
TensorCore's buffer contents when the region is entered. -/

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the window is not fetched its block
    index has not moved since the point before, so the block found is still this point's. Window 0 (the `y` block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the weight block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the bias block): fetched only where `k = 0`; along `k` its block index `n` does not move, so the block
    found at every point is that point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- The condition of the reset (`k = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the final store (`k = 7`). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where `k ≠ 7` the output is idle (the body stores nothing into it) and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where `k = 7` it is live. -/
theorem liveAt1_3 : ∀ t : Fin cfg1.N, cond1_1 (grid1.coords t) → cfg1.idle 3 (grid1.coords t) = false := by decide +kernel

/-! ## The memrefs the body is called with -/

/-- Each window's current staging memref at point `t`, as the pipeline passes it, and its wholeness. -/
abbrev ms1_0 (t : Fin cfg1.N) : Memref sig .tc .vmem S32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried between points. -/
abbrev scM1_0 : Memref sig .tc .vmem S32x1024 .f32 := Memref.whole cc1_scratch0

/-- The region invariant of the class, with the accumulator owned as a memref at some contents and every other
    scoped buffer left unopened. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA
  rw [Pipeline.scopedRest_split_of_list spec1 c [cc1_scratch0] (by decide) (by decide)]
  simp only [scM1_0, owns_whole]; try rfl

end Cert.Kernel.Hand

end
-- ==== Proof.K.Ffn1RunA.lean ====
import proofs.«129914_j85323820303106_1_alg».proof.Proof.K.Ffn1Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1, case A: the body at a point with `k = 0` -/

-- (the run's proof term is large: the definition's epilogue walks it past the default budget)
set_option maxHeartbeats 1000000 in
/-- CASE A (`k = 0`: the reset is taken, the final store is not). On whole memrefs — the three inputs at their
    contents, the output at contents `xi3` handed back untouched, the accumulator at anything — the body runs to
    the continuation holding the inputs and the output as they were and the accumulator with the pieces `LS0`
    written (the zero fill, then the first partial product added to it read back): the pieces are the witness the
    symbolic run finds. -/
noncomputable def kernelRun1_A (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond1_0 i) (hc1 : ¬cond1_1 i)
    (x0 : Vec F S32x1024 .f32) (x1 : Vec F S1024x1024 .f32) (x2 : Vec F S1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Ffn1RunB.lean ====
import proofs.«129914_j85323820303106_1_alg».proof.Proof.K.Ffn1RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1, case B: the body at a point with `0 < k < 7` -/

-- (the run's proof term is large: the definition's epilogue walks it past the default budget)
set_option maxHeartbeats 1000000 in
/-- CASE B (`0 < k < 7`: neither the reset nor the final store). On whole memrefs — the three inputs at their
    contents, the output at contents `xi3` handed back untouched, the accumulator at what the point before left
    (`xs0`) — the body runs to the continuation holding the inputs and the output as they were and the accumulator
    with the pieces `LS0` written: the pieces are the witness the symbolic run finds. -/
noncomputable def kernelRun1_B (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : ¬cond1_1 i)
    (x0 : Vec F S32x1024 .f32) (x1 : Vec F S1024x1024 .f32) (x2 : Vec F S1024 .f32) (xs0 : Vec F S32x1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Ffn1RunC.lean ====
import proofs.«129914_j85323820303106_1_alg».proof.Proof.K.Ffn1RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1, case C: the body at a point with `k = 7` -/

-- (the run's proof term is large: the definition's epilogue walks it past the default budget)
set_option maxHeartbeats 1000000 in
/-- CASE C (`k = 7`: no reset, the final store is taken). On whole memrefs — the three inputs at their contents,
    the output at anything, the accumulator at what the point before left (`xs0`) — the body runs to the
    continuation holding the inputs as they were, the output with the pieces `L3` written and the accumulator with
    the pieces `LS0` written: the pieces are the witness the symbolic run finds. -/
noncomputable def kernelRun1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i)
    (x0 : Vec F S32x1024 .f32) (x1 : Vec F S1024x1024 .f32) (x2 : Vec F S1024 .f32) (xs0 : Vec F S32x1024 .f32) :
    Σ' (L3 : List (View.Piece (Elt F) S32x1024 .f32)), { LS0 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Ffn1.lean ====
import proofs.«129914_j85323820303106_1_alg».proof.Proof.K.Ffn1RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1 (custom_call 1, `cc1_kernel`): the kernel's half of the frame proof, with the accumulator carried

What each control case leaves in the accumulator and in the output block is read back from the pieces its run
found, as the body's payloads of the blocks; the accumulator's contents after each point follow by recursion
along the grid (`accAt1`); the region invariant carries the accumulator at those contents from point to point
(`PhiS1`); the proof data, the body obligation and the invariant's two ends follow. Everything is at a parameter
`V`, the TensorCore's buffer contents when the region is entered. -/

/-- The all-zero offsets of the body's whole-block accesses. -/
theorem hzero1 : (![0, 0] : Fin 2 → Nat) = fun _ => 0 := funext fun a => by fin_cases a <;> rfl
theorem hzero1' : (![0] : Fin 1 → Nat) = fun _ => 0 := funext fun a => by fin_cases a; rfl

/-! ## What each case leaves: the pieces cover, and read back as the payloads -/

/-- Case A's pieces for the accumulator cover it (the zero fill and the store of the first sum, each the whole block). -/
theorem scover1_A (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond1_0 i) (hc1 : ¬cond1_1 i) (x0 : Vec F S32x1024 .f32) (x1 : Vec F S1024x1024 .f32) (x2 : Vec F S1024 .f32) (y : S32x1024.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S32x1024.size (by sl_kernel_rfl) y

/-- Case A leaves in the accumulator the first partial product added to the zero block: the later store covers, and
    the accumulator value it adds to is the zero fill read back. -/
theorem sread1_A (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond1_0 i) (hc1 : ¬cond1_1 i) (x0 : Vec F S32x1024 .f32) (x1 : Vec F S1024x1024 .f32) (x2 : Vec F S1024 .f32) (f : arg6.view.ty.Contents (Elt F)) :
    arg6.view.read (Elt F) (arg6.view.writes (Elt F) f (kernelRun1_A c i arg2 harg2 arg3 harg3 arg4 harg4 arg5 harg5 arg6 harg6 hc0 hc1 x0 x1 x2).1) = k1_pay2 x0 x1 (k1_pay1 (F := F)) := by
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S32x1024) hzero1, View.readCov_unit_zero (S := S32x1024) _ hzero1]
  simp only [View.readAt_eq_ld, harg2.read_unread, harg3.read_unread, View.ld_unit_zero (S := S32x1024) hzero1, View.ld_unit_zero (S := S1024x1024) hzero1]

/-- Case B's one piece for the accumulator covers it. -/
theorem scover1_B (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : ¬cond1_1 i) (x0 : Vec F S32x1024 .f32) (x1 : Vec F S1024x1024 .f32) (x2 : Vec F S1024 .f32) (xs0 : Vec F S32x1024 .f32) (y : S32x1024.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S32x1024.size (by sl_kernel_rfl) y

/-- Case B leaves in the accumulator this point's partial product added to what the point before left. -/
theorem sread1_B (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : ¬cond1_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun1_B c i arg2 harg2 arg3 harg3 arg4 harg4 arg5 harg5 arg6 harg6 hc0 hc1 x0 x1 x2 xs0).1) = k1_pay2 x0 x1 xs0 := by
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero (S := S32x1024) hzero1]
  simp only [View.readAt_eq_ld, harg2.read_unread, harg3.read_unread, harg6.read_unread, View.ld_unit_zero (S := S32x1024) hzero1, View.ld_unit_zero (S := S1024x1024) hzero1]

/-- Case C's one piece for the accumulator covers it. -/
theorem scover1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (y : S32x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S32x1024.size (by sl_kernel_rfl) y

/-- Case C leaves in the accumulator the last partial product added to what the point before left. -/
theorem sread1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun1_C c i arg2 harg2 arg3 harg3 arg4 harg4 arg5 harg5 arg6 harg6 hc0 hc1 x0 x1 x2 xs0).2.1) = k1_pay2 x0 x1 xs0 := by
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S32x1024) hzero1]
  simp only [View.readAt_eq_ld, harg2.read_unread, harg3.read_unread, harg6.read_unread, View.ld_unit_zero (S := S32x1024) hzero1, View.ld_unit_zero (S := S1024x1024) hzero1]

/-- Case C's one piece for the output block covers it. -/
theorem cover1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (y : S32x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S32x1024.size (by sl_kernel_rfl) y

/-- Case C leaves in the output block the final payload of the accumulator it has just completed (read back after
    its store) and the bias block. -/
theorem oread1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (f : arg5.view.ty.Contents (Elt F)) :
    arg5.view.read (Elt F) (arg5.view.writes (Elt F) f (kernelRun1_C c i arg2 harg2 arg3 harg3 arg4 harg4 arg5 harg5 arg6 harg6 hc0 hc1 x0 x1 x2 xs0).1) = k1_pay3 (k1_pay2 x0 x1 xs0) x2 := by
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero (S := S32x1024) hzero1, View.readCov_unit_zero (S := S32x1024) _ hzero1]
  simp only [View.readAt_eq_ld, harg2.read_unread, harg3.read_unread, harg4.read_unread, harg6.read_unread, View.ld_unit_zero (S := S32x1024) hzero1, View.ld_unit_zero (S := S1024x1024) hzero1, View.ld_unit_zero (S := S1024) hzero1']

section Region1

variable (V : (c : Dev nD) → (b : Ref sig .tc) → Buf (Elt F) ((c : Thread nD τ).loc b))

/-! ## The accumulation -/

/-- What the carried accumulator holds after the body at position `n`: at a point with `k = 0` the point's partial
    product added to the zero block, at every other point added to what the point before left. -/
def accAt1 (c : Dev nD) : (n : ℕ) → n < cfg1.N → Vec F S32x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- At a point with `k = 0`. -/
theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => exact rfl
  | succ n => exact if_pos h

/-- At a point with `k ≠ 0`: over what the point before left. -/
theorem accAt1_next (c : Dev nD) (t : Fin cfg1.N) (h : t.val % 8 ≠ 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (every scoped buffer that is no
    staging buffer at anything, the generator register at some state); afterwards the same with the accumulator at
    what the point before left in it. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare (accAt1 V c n hn) ∗ Pipeline.scopedRestBut spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Pipeline.scopedRestBut spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at the final payload of the accumulator and the bias block
    (consulted only where `k = 7`: elsewhere the output is idle and not written back); the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) (iblk1 V c 2 t) := by dsimp only [dat1]

/-- Where `k = 7` (the points that write the output block back) the output's buffer holds the final payload of the
    completed accumulator and the bias block. -/
theorem after1_3_last (c : Dev nD) (t : Fin cfg1.N) (h : t.val % 8 = 7) :
    (dat1 V c).after 3 t = k1_pay3 (accAt1 V c t.val t.isLt) (iblk1 V c 2 t) := after1_3 V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the two conditions say which
    case the point is in; that case's run applies, handed the accumulator at what the point before left (at
    anything where `k = 0`) and handing it back at this point's contents; where `k ≠ 7` the output's buffer goes
    back untouched, where `k = 7` it goes back at the final payload. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread1_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread1_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt1_next V c t h0]
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact sread1_C c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      unfold owns; iexists _; isplitr
      swap; · iexact H3
      ipureintro; exact oread1_C c _ _ _ _ _ _ _ _ _ _ _ hc0 hc1 _ _ _ _ _
    · have hc1 : ¬cond1_1 (grid1.coords t) := fun h => h1 ((hcond1_1 t).mp h)
      rw [Dat.leavesExact_idle (dat1 V c) 3 t (idleAt1_3 t hc1) (noFlush1_3 t hc1)]
      rw [accAt1_next V c t h0]
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread1_B c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.K.Ffn2Runs.lean ====
import proofs.«129914_j85323820303106_1_alg».proof.Proof.Gen.Kernel.Launch
import proofs.«129914_j85323820303106_1_alg».proof.Proof.Gen.Kernel.Skeleton
import proofs.«129914_j85323820303106_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2 (custom_call 2, `cc2_kernel`): what the three control cases of the body share

The body accumulates `y_block · w_block` into a scratch that it carries along the reduction axis `k` of the
grid (point `t` has `n = t / 8`, `k = t % 8`): the scratch is reset under `k = 0`, added to at every point, and
the output block is stored from it (plus the bias) under `k = 7`. Three control
cases meet the grid: A (`k = 0`), B (`0 < k < 7`), C (`k = 7`). Everything is stated at a parameter `V`, the
TensorCore's buffer contents when the region is entered. -/

section Region2

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: where the window is not fetched its block
    index has not moved since the point before, so the block found is still this point's. Window 0 (the `y` block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the weight block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the bias block): fetched only where `k = 0`; along `k` its block index `n` does not move, so the block
    found at every point is that point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's two conditions, in closed form over the grid -/

/-- The condition of the reset (`k = 0`), as the body computes it from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the final store (`k = 7`). -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where `k ≠ 7` the output is idle (the body stores nothing into it) and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where `k = 7` it is live. -/
theorem liveAt2_3 : ∀ t : Fin cfg2.N, cond2_1 (grid2.coords t) → cfg2.idle 3 (grid2.coords t) = false := by decide +kernel

/-! ## The memrefs the body is called with -/

/-- Each window's current staging memref at point `t`, as the pipeline passes it, and its wholeness. -/
abbrev ms2_0 (t : Fin cfg2.N) : Memref sig .tc .vmem S32x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried between points. -/
abbrev scM2_0 : Memref sig .tc .vmem S32x1024 .f32 := Memref.whole cc2_scratch0

/-- The region invariant of the class, with the accumulator owned as a memref at some contents and every other
    scoped buffer left unopened. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA
  rw [Pipeline.scopedRest_split_of_list spec2 c [cc2_scratch0] (by decide) (by decide)]
  simp only [scM2_0, owns_whole]; try rfl

end Cert.Kernel.Hand

end
-- ==== Proof.K.Ffn2RunA.lean ====
import proofs.«129914_j85323820303106_1_alg».proof.Proof.K.Ffn2Runs

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2, case A: the body at a point with `k = 0` -/

-- (the run's proof term is large: the definition's epilogue walks it past the default budget)
set_option maxHeartbeats 1000000 in
/-- CASE A (`k = 0`: the reset is taken, the final store is not). On whole memrefs — the three inputs at their
    contents, the output at contents `xi3` handed back untouched, the accumulator at anything — the body runs to
    the continuation holding the inputs and the output as they were and the accumulator with the pieces `LS0`
    written (the zero fill, then the first partial product added to it read back): the pieces are the witness the
    symbolic run finds. -/
noncomputable def kernelRun2_A (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond2_0 i) (hc1 : ¬cond2_1 i)
    (x0 : Vec F S32x1024 .f32) (x1 : Vec F S1024x1024 .f32) (x2 : Vec F S1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Ffn2RunB.lean ====
import proofs.«129914_j85323820303106_1_alg».proof.Proof.K.Ffn2RunA

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2, case B: the body at a point with `0 < k < 7` -/

-- (the run's proof term is large: the definition's epilogue walks it past the default budget)
set_option maxHeartbeats 1000000 in
/-- CASE B (`0 < k < 7`: neither the reset nor the final store). On whole memrefs — the three inputs at their
    contents, the output at contents `xi3` handed back untouched, the accumulator at what the point before left
    (`xs0`) — the body runs to the continuation holding the inputs and the output as they were and the accumulator
    with the pieces `LS0` written: the pieces are the witness the symbolic run finds. -/
noncomputable def kernelRun2_B (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : ¬cond2_1 i)
    (x0 : Vec F S32x1024 .f32) (x1 : Vec F S1024x1024 .f32) (x2 : Vec F S1024 .f32) (xs0 : Vec F S32x1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Ffn2RunC.lean ====
import proofs.«129914_j85323820303106_1_alg».proof.Proof.K.Ffn2RunB

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2, case C: the body at a point with `k = 7` -/

-- (the run's proof term is large: the definition's epilogue walks it past the default budget)
set_option maxHeartbeats 1000000 in
/-- CASE C (`k = 7`: no reset, the final store is taken). On whole memrefs — the three inputs at their contents,
    the output at anything, the accumulator at what the point before left (`xs0`) — the body runs to the
    continuation holding the inputs as they were, the output with the pieces `L3` written and the accumulator with
    the pieces `LS0` written: the pieces are the witness the symbolic run finds. -/
noncomputable def kernelRun2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i)
    (x0 : Vec F S32x1024 .f32) (x1 : Vec F S1024x1024 .f32) (x2 : Vec F S1024 .f32) (xs0 : Vec F S32x1024 .f32) :
    Σ' (L3 : List (View.Piece (Elt F) S32x1024 .f32)), { LS0 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Ffn2.lean ====
import proofs.«129914_j85323820303106_1_alg».proof.Proof.K.Ffn2RunC
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2 (custom_call 2, `cc2_kernel`): the kernel's half of the frame proof, with the accumulator carried

What each control case leaves in the accumulator and in the output block is read back from the pieces its run
found, as the body's payloads of the blocks; the accumulator's contents after each point follow by recursion
along the grid (`accAt2`); the region invariant carries the accumulator at those contents from point to point
(`PhiS2`); the proof data, the body obligation and the invariant's two ends follow. Everything is at a parameter
`V`, the TensorCore's buffer contents when the region is entered. -/

/-- The all-zero offsets of the body's whole-block accesses. -/
theorem hzero2 : (![0, 0] : Fin 2 → Nat) = fun _ => 0 := funext fun a => by fin_cases a <;> rfl
theorem hzero2' : (![0] : Fin 1 → Nat) = fun _ => 0 := funext fun a => by fin_cases a; rfl

/-! ## What each case leaves: the pieces cover, and read back as the payloads -/

/-- Case A's pieces for the accumulator cover it (the zero fill and the store of the first sum, each the whole block). -/
theorem scover2_A (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond2_0 i) (hc1 : ¬cond2_1 i) (x0 : Vec F S32x1024 .f32) (x1 : Vec F S1024x1024 .f32) (x2 : Vec F S1024 .f32) (y : S32x1024.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S32x1024.size (by sl_kernel_rfl) y

/-- Case A leaves in the accumulator the first partial product added to the zero block: the later store covers, and
    the accumulator value it adds to is the zero fill read back. -/
theorem sread2_A (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond2_0 i) (hc1 : ¬cond2_1 i) (x0 : Vec F S32x1024 .f32) (x1 : Vec F S1024x1024 .f32) (x2 : Vec F S1024 .f32) (f : arg6.view.ty.Contents (Elt F)) :
    arg6.view.read (Elt F) (arg6.view.writes (Elt F) f (kernelRun2_A c i arg2 harg2 arg3 harg3 arg4 harg4 arg5 harg5 arg6 harg6 hc0 hc1 x0 x1 x2).1) = k2_pay2 x0 x1 (k2_pay1 (F := F)) := by
  rw [View.read_writes_eq_canon _ _ _ (scover2_A c i arg2 harg2 arg3 harg3 arg4 harg4 arg5 harg5 arg6 harg6 hc0 hc1 x0 x1 x2)]
  unfold kernelRun2_A
  dsimp only
  sl_unfold_words
  rw [View.canon_cons_unit_zero (S := S32x1024) hzero2, View.readCov_unit_zero (S := S32x1024) _ hzero2]
  simp only [View.readAt_eq_ld, harg2.read_unread, harg3.read_unread, View.ld_unit_zero (S := S32x1024) hzero2, View.ld_unit_zero (S := S1024x1024) hzero2]

/-- Case B's one piece for the accumulator covers it. -/
theorem scover2_B (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : ¬cond2_1 i) (x0 : Vec F S32x1024 .f32) (x1 : Vec F S1024x1024 .f32) (x2 : Vec F S1024 .f32) (xs0 : Vec F S32x1024 .f32) (y : S32x1024.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S32x1024.size (by sl_kernel_rfl) y

/-- Case B leaves in the accumulator this point's partial product added to what the point before left. -/
theorem sread2_B (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : ¬cond2_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun2_B c i arg2 harg2 arg3 harg3 arg4 harg4 arg5 harg5 arg6 harg6 hc0 hc1 x0 x1 x2 xs0).1) = k2_pay2 x0 x1 xs0 := by
  rw [View.read_writes_eq_canon _ _ _ (scover2_B c i arg2 harg2 arg3 harg3 arg4 harg4 arg5 harg5 arg6 harg6 hc0 hc1 x0 x1 x2 xs0)]
  unfold kernelRun2_B
  dsimp only
  sl_unfold_words
  rw [View.canon_unit_zero (S := S32x1024) hzero2]
  simp only [View.readAt_eq_ld, harg2.read_unread, harg3.read_unread, harg6.read_unread, View.ld_unit_zero (S := S32x1024) hzero2, View.ld_unit_zero (S := S1024x1024) hzero2]

/-- Case C's one piece for the accumulator covers it. -/
theorem scover2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (y : S32x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S32x1024.size (by sl_kernel_rfl) y

/-- Case C leaves in the accumulator the last partial product added to what the point before left. -/
theorem sread2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun2_C c i arg2 harg2 arg3 harg3 arg4 harg4 arg5 harg5 arg6 harg6 hc0 hc1 x0 x1 x2 xs0).2.1) = k2_pay2 x0 x1 xs0 := by
  rw [View.read_writes_eq_canon _ _ _ (scover2_C c i arg2 harg2 arg3 harg3 arg4 harg4 arg5 harg5 arg6 harg6 hc0 hc1 x0 x1 x2 xs0)]
  unfold kernelRun2_C
  dsimp only
  sl_unfold_words
  rw [View.canon_unit_zero (S := S32x1024) hzero2]
  simp only [View.readAt_eq_ld, harg2.read_unread, harg3.read_unread, harg6.read_unread, View.ld_unit_zero (S := S32x1024) hzero2, View.ld_unit_zero (S := S1024x1024) hzero2]

/-- Case C's one piece for the output block covers it. -/
theorem cover2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (y : S32x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S32x1024.size (by sl_kernel_rfl) y

/-- Case C leaves in the output block the final payload of the accumulator it has just completed (read back after
    its store) and the bias block. -/
theorem oread2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (f : arg5.view.ty.Contents (Elt F)) :
    arg5.view.read (Elt F) (arg5.view.writes (Elt F) f (kernelRun2_C c i arg2 harg2 arg3 harg3 arg4 harg4 arg5 harg5 arg6 harg6 hc0 hc1 x0 x1 x2 xs0).1) = k2_pay3 (k2_pay2 x0 x1 xs0) x2 := by
  rw [View.read_writes_eq_canon _ _ _ (cover2_C c i arg2 harg2 arg3 harg3 arg4 harg4 arg5 harg5 arg6 harg6 hc0 hc1 x0 x1 x2 xs0)]
  unfold kernelRun2_C
  dsimp only
  sl_unfold_words
  rw [View.canon_unit_zero (S := S32x1024) hzero2, View.readCov_unit_zero (S := S32x1024) _ hzero2]
  simp only [View.readAt_eq_ld, harg2.read_unread, harg3.read_unread, harg4.read_unread, harg6.read_unread, View.ld_unit_zero (S := S32x1024) hzero2, View.ld_unit_zero (S := S1024x1024) hzero2, View.ld_unit_zero (S := S1024) hzero2']

section Region2

variable (V : (c : Dev nD) → (b : Ref sig .tc) → Buf (Elt F) ((c : Thread nD τ).loc b))

/-! ## The accumulation -/

/-- What the carried accumulator holds after the body at position `n`: at a point with `k = 0` the point's partial
    product added to the zero block, at every other point added to what the point before left. -/
def accAt2 (c : Dev nD) : (n : ℕ) → n < cfg2.N → Vec F S32x1024 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (accAt2 c n (Nat.lt_of_succ_lt hn))

/-- At a point with `k = 0`. -/
theorem accAt2_first (c : Dev nD) (t : Fin cfg2.N) (h : t.val % 8 = 0) :
    accAt2 V c t.val t.isLt = k2_pay2 (iblk2 V c 0 t) (iblk2 V c 1 t) (k2_pay1 (F := F)) := by
  obtain ⟨n, hn⟩ := t
  cases n with
  | zero => exact rfl
  | succ n => exact if_pos h

/-- At a point with `k ≠ 0`: over what the point before left. -/
theorem accAt2_next (c : Dev nD) (t : Fin cfg2.N) (h : t.val % 8 ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (every scoped buffer that is no
    staging buffer at anything, the generator register at some state); afterwards the same with the accumulator at
    what the point before left in it. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare (accAt2 V c n hn) ∗ Pipeline.scopedRestBut spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Pipeline.scopedRestBut spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at the final payload of the accumulator and the bias block
    (consulted only where `k = 7`: elsewhere the output is idle and not written back); the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 2 t)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) (iblk2 V c 2 t) := by dsimp only [dat2]

/-- Where `k = 7` (the points that write the output block back) the output's buffer holds the final payload of the
    completed accumulator and the bias block. -/
theorem after2_3_last (c : Dev nD) (t : Fin cfg2.N) (h : t.val % 8 = 7) :
    (dat2 V c).after 3 t = k2_pay3 (accAt2 V c t.val t.isLt) (iblk2 V c 2 t) := after2_3 V c t

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms of the two conditions say which
    case the point is in; that case's run applies, handed the accumulator at what the point before left (at
    anything where `k = 0`) and handing it back at this point's contents; where `k ≠ 7` the output's buffer goes
    back untouched, where `k = 7` it goes back at the final payload. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [accAt2_first V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    by_cases h1 : t.val % 8 = 7
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [accAt2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact sread2_C c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      unfold owns; iexists _; isplitr
      swap; · iexact H3
      ipureintro; exact oread2_C c _ _ _ _ _ _ _ _ _ _ _ hc0 hc1 _ _ _ _ _
    · have hc1 : ¬cond2_1 (grid2.coords t) := fun h => h1 ((hcond2_1 t).mp h)
      rw [Dat.leavesExact_idle (dat2 V c) 3 t (idleAt2_3 t hc1) (noFlush2_3 t hc1)]
      rw [accAt2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_B c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.Kernel.Hand

end
-- ==== Proof.K.Run.lean ====
import proofs.«129914_j85323820303106_1_alg».proof.Proof.K.Attn
import proofs.«129914_j85323820303106_1_alg».proof.Proof.K.Ffn1
import proofs.«129914_j85323820303106_1_alg».proof.Proof.K.Ffn2
import proofs.«129914_j85323820303106_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! # The contents the three regions leave

Region 0 changes one unscoped buffer, its output window's array `main_v0`; region 1 reads it and changes `main_v1`;
region 2 reads that and changes `main_v2`. What each leaves there is the fold of its write-backs over the contents it
was entered from (`Dat.arrAt … N`), so the three are defined in order, each over the valuation the one before it
leaves. -/

/-- What region 0 leaves in `main_v0`: its output window's array after every write-back, from the launch contents. -/
def o1 (c : Dev nD) : Buf (Elt F) ((c : Thread nD τ).loc main_v0) :=
  (dat0 (fun c b => Gen.V0 m c b) c).arrAt 6 cfg0.N

/-- The unscoped buffers after region 0: the launch contents but for `main_v0`. -/
abbrev VA (c : Dev nD) : Valuation τ sig (Elt F) := Function.update (Gen.V0 m c) main_v0 (o1 m c)

/-- What region 1 leaves in `main_v1`, entered from `VA`. -/
def o2 (c : Dev nD) : Buf (Elt F) ((c : Thread nD τ).loc main_v1) :=
  (dat1 (fun c b => VA m c b) c).arrAt 3 cfg1.N

/-- The unscoped buffers after region 1. -/
abbrev VB (c : Dev nD) : Valuation τ sig (Elt F) := Function.update (VA m c) main_v1 (o2 m c)

/-- What region 2 leaves in `main_v2`, entered from `VB`. -/
def o3 (c : Dev nD) : Buf (Elt F) ((c : Thread nD τ).loc main_v2) :=
  (dat2 (fun c b => VB m c b) c).arrAt 3 cfg2.N

/-- The contents the regions leave, as the generated valuations read them: `main_v0`, `main_v1`, `main_v2` at the
    three folds above (whatever the item number), every other reference at its launch contents (never read). -/
def outs : Gen.Outs (F := F) := fun _ r c =>
  Function.update (β := fun r : Ref sig .tc => Buf (Elt F) ((c : Thread nD τ).loc r))
    (Function.update (β := fun r : Ref sig .tc => Buf (Elt F) ((c : Thread nD τ).loc r))
      (Function.update (β := fun r : Ref sig .tc => Buf (Elt F) ((c : Thread nD τ).loc r))
        (fun r => m ((c : Thread nD τ).loc r)) main_v0 (o1 m c)) main_v1 (o2 m c)) main_v2 (o3 m c) r

theorem outs_at_v0 (J : ℕ) (c : Dev nD) : outs m J main_v0 c = o1 m c := by
  unfold outs
  rw [Function.update_of_ne (by decide), Function.update_of_ne (by decide), Function.update_self]
theorem outs_at_v1 (J : ℕ) (c : Dev nD) : outs m J main_v1 c = o2 m c := by
  unfold outs
  rw [Function.update_of_ne (by decide), Function.update_self]
theorem outs_at_v2 (J : ℕ) (c : Dev nD) : outs m J main_v2 c = o3 m c := by
  unfold outs
  rw [Function.update_self]

/-- The generated valuation after region 0 is `VA`, -/
theorem V1_eq (c : Dev nD) : Gen.V1 m (outs m) c = VA m c := by
  unfold Gen.V1 VA; rw [outs_at_v0]
/-- the one after region 1 is `VB`. -/
theorem V2_eq (c : Dev nD) : Gen.V2 m (outs m) c = VB m c := by
  unfold Gen.V2 VB; rw [V1_eq, outs_at_v1]

theorem outs_v0 (c : Dev nD) : outs m 1 main_v0 c = (dat0 (fun c b => Gen.V0 m c b) c).arrAt 6 cfg0.N := outs_at_v0 m 1 c
theorem outs_v1 (c : Dev nD) : outs m 2 main_v1 c = (dat1 (fun c b => Gen.V1 m (outs m) c b) c).arrAt 3 cfg1.N := by
  rw [outs_at_v1]; unfold o2
  rw [show (fun (c : Dev nD) (b : Ref sig .tc) => Gen.V1 m (outs m) c b) = fun (c : Dev nD) (b : Ref sig .tc) => VA m c b from funext fun c => by rw [V1_eq]]
theorem outs_v2 (c : Dev nD) : outs m 3 main_v2 c = (dat2 (fun c b => Gen.V2 m (outs m) c b) c).arrAt 3 cfg2.N := by
  rw [outs_at_v2]; unfold o3
  rw [show (fun (c : Dev nD) (b : Ref sig .tc) => Gen.V2 m (outs m) c b) = fun (c : Dev nD) (b : Ref sig .tc) => VB m c b from funext fun c => by rw [V2_eq]]

/-! # The proof data of every pipeline, each at its region's entry contents -/

/-- A literal `match` on the pipeline, so that the configuration pinned at a numeral reduces to the printed one. -/
def pdats : (p : Fin 3) → (c : Dev nD) → Dat τ (Elt F) Unit ℕ (UR sig nD τ) ℕ (Pipeline.pin (pcfgs (F := F)) Gen.adm p) c
  | ⟨0, _⟩ => fun c => dat0 (fun c b => Gen.V0 m c b) c
  | ⟨1, _⟩ => fun c => dat1 (fun c b => Gen.V1 m (outs m) c b) c
  | ⟨2, _⟩ => fun c => dat2 (fun c b => Gen.V2 m (outs m) c b) c

/-! # The thread state between two items

Beside every unscoped buffer at the boundary's contents a core carries its generator register at some state (a
region's class invariant takes it in and gives it back) and its dues, at nothing: no core owes another anything,
so no level is assigned. -/

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- The same rest beside the buffers at every boundary. -/
abbrev E : Fin 4 → Dev nD → sProp 𝕄 := fun _ c => R c

/-- The boundary contents read at the TensorCore's references (what a region's proof data and the unscoped rest take). -/
abbrev U0 : (c : Dev nD) → (b : Ref sig .tc) → Buf (Elt F) ((c : Thread nD τ).loc b) := fun c b => Gen.V0 m c b
abbrev U1 : (c : Dev nD) → (b : Ref sig .tc) → Buf (Elt F) ((c : Thread nD τ).loc b) := fun c b => Gen.V1 m (outs m) c b
abbrev U2 : (c : Dev nD) → (b : Ref sig .tc) → Buf (Elt F) ((c : Thread nD τ).loc b) := fun c b => Gen.V2 m (outs m) c b
abbrev U3 : (c : Dev nD) → (b : Ref sig .tc) → Buf (Elt F) ((c : Thread nD τ).loc b) := fun c b => Gen.V3 m (outs m) c b

/-! ## What each region's exit holds: its arrays at what the pipeline leaves, every other buffer as entered -/

/-- Region 0: the six inputs are never written and are no `main_v0`; the output's array is `main_v0`, at `outs 1`. -/
theorem hF0 (c : Dev nD) : ∀ w : Fin cfg0.W, (dat0 (U0 m) c).arrAt w cfg0.N = U1 m c (Pipeline.arrRef spec0 w)
  | ⟨0, _⟩ => ((dat0 (U0 m) c).arrAt_in 0 rfl _).trans ((A_eq0 (U0 m) c 0).trans (Gen.V1_of m (outs m) c main_arg0 (by decide)).symm)
  | ⟨1, _⟩ => ((dat0 (U0 m) c).arrAt_in 1 rfl _).trans ((A_eq0 (U0 m) c 1).trans (Gen.V1_of m (outs m) c main_arg1 (by decide)).symm)
  | ⟨2, _⟩ => ((dat0 (U0 m) c).arrAt_in 2 rfl _).trans ((A_eq0 (U0 m) c 2).trans (Gen.V1_of m (outs m) c main_arg2 (by decide)).symm)
  | ⟨3, _⟩ => ((dat0 (U0 m) c).arrAt_in 3 rfl _).trans ((A_eq0 (U0 m) c 3).trans (Gen.V1_of m (outs m) c main_arg3 (by decide)).symm)
  | ⟨4, _⟩ => ((dat0 (U0 m) c).arrAt_in 4 rfl _).trans ((A_eq0 (U0 m) c 4).trans (Gen.V1_of m (outs m) c main_arg4 (by decide)).symm)
  | ⟨5, _⟩ => ((dat0 (U0 m) c).arrAt_in 5 rfl _).trans ((A_eq0 (U0 m) c 5).trans (Gen.V1_of m (outs m) c main_arg5 (by decide)).symm)
  | ⟨6, _⟩ => by
    show _ = Gen.V1 m (outs m) c main_v0
    unfold Gen.V1; rw [Function.update_self]; exact (outs_v0 m c).symm
  | ⟨_ + 7, h⟩ => absurd h (Nat.not_lt.2 (Nat.le_add_left _ _))
theorem hrest0 (c : Dev nD) : ∀ b, b ∉ Finset.univ.image (Pipeline.arrRef spec0) → U1 m c b = U0 m c b :=
  fun b hb => Gen.V1_of m (outs m) c b fun h =>
    hb (Finset.mem_image.mpr ⟨6, Finset.mem_univ _, (List.mem_singleton.mp h).symm⟩)

set_option backward.isDefEq.respectTransparency.types false in
/-- REGION 0 (the attention call, one grid point) over the thread state: entered from every unscoped buffer at the
    launch contents, left at the same but for `main_v0`. Its arrays are split out of the unscoped buffers and put back
    at the exit contents; the generator register goes into the class invariant and comes out; nothing is owed; the
    kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun w => A_eq0 (U0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1: it reads `main_v0` and two arguments, none of them `main_v1`; the output's array is `main_v1`, at `outs 2`. -/
theorem hF1 (c : Dev nD) : ∀ w : Fin cfg1.W, (dat1 (U1 m) c).arrAt w cfg1.N = U2 m c (Pipeline.arrRef spec1 w)
  | ⟨0, _⟩ => ((dat1 (U1 m) c).arrAt_in 0 rfl _).trans ((A_eq1 (U1 m) c 0).trans (Gen.V2_of m (outs m) c main_v0 (by decide)).symm)
  | ⟨1, _⟩ => ((dat1 (U1 m) c).arrAt_in 1 rfl _).trans ((A_eq1 (U1 m) c 1).trans (Gen.V2_of m (outs m) c main_arg6 (by decide)).symm)
  | ⟨2, _⟩ => ((dat1 (U1 m) c).arrAt_in 2 rfl _).trans ((A_eq1 (U1 m) c 2).trans (Gen.V2_of m (outs m) c main_arg7 (by decide)).symm)
  | ⟨3, _⟩ => by
    show _ = Gen.V2 m (outs m) c main_v1
    unfold Gen.V2; rw [Function.update_self]; exact (outs_v1 m c).symm
  | ⟨_ + 4, h⟩ => absurd h (Nat.not_lt.2 (Nat.le_add_left _ _))
theorem hrest1 (c : Dev nD) : ∀ b, b ∉ Finset.univ.image (Pipeline.arrRef spec1) → U2 m c b = U1 m c b :=
  fun b hb => Gen.V2_of m (outs m) c b fun h =>
    hb (Finset.mem_image.mpr ⟨3, Finset.mem_univ _, (List.mem_singleton.mp h).symm⟩)

/-- Region 2: it reads `main_v1` and two arguments, none of them `main_v2`; the output's array is `main_v2`, at `outs 3`. -/
theorem hF2 (c : Dev nD) : ∀ w : Fin cfg2.W, (dat2 (U2 m) c).arrAt w cfg2.N = U3 m c (Pipeline.arrRef spec2 w)
  | ⟨0, _⟩ => ((dat2 (U2 m) c).arrAt_in 0 rfl _).trans ((A_eq2 (U2 m) c 0).trans (Gen.V3_of m (outs m) c main_v1 (by decide)).symm)
  | ⟨1, _⟩ => ((dat2 (U2 m) c).arrAt_in 1 rfl _).trans ((A_eq2 (U2 m) c 1).trans (Gen.V3_of m (outs m) c main_arg8 (by decide)).symm)
  | ⟨2, _⟩ => ((dat2 (U2 m) c).arrAt_in 2 rfl _).trans ((A_eq2 (U2 m) c 2).trans (Gen.V3_of m (outs m) c main_arg9 (by decide)).symm)
  | ⟨3, _⟩ => by
    show _ = Gen.V3 m (outs m) c main_v2
    unfold Gen.V3; rw [Function.update_self]; exact (outs_v2 m c).symm
  | ⟨_ + 4, h⟩ => absurd h (Nat.not_lt.2 (Nat.le_add_left _ _))
theorem hrest2 (c : Dev nD) : ∀ b, b ∉ Finset.univ.image (Pipeline.arrRef spec2) → U3 m c b = U2 m c b :=
  fun b hb => Gen.V3_of m (outs m) c b fun h =>
    hb (Finset.mem_image.mpr ⟨3, Finset.mem_univ _, (List.mem_singleton.mp h).symm⟩)

set_option backward.isDefEq.respectTransparency.types false in
/-- REGION 1 (the first blocked matrix product, an 8 by 8 grid) over the thread state: entered from the buffers as
    region 0 left them, left at the same but for `main_v1`. As region 0, but the kernel carries a scratch accumulator
    between grid points: its invariant at the first point comes from the class invariant and goes back to it after the
    last (the region's two halves `hin1`, `hout1`). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (Gen.V1 m (outs m) c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U1 m c) fun w => A_eq1 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U1 m) c)
    unfold Pipeline.ΦA
    iintro ⟨Hp, -, Hr⟩
    isplitl [Hr]; · iexact Hr
    iexact Hp
  hout c := by
    rw [Pipeline.ownSems0_none]
    refine (hout1 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the second blocked matrix product) over the thread state: entered from the buffers as region 1 left
    them, left at the same but for `main_v2`; otherwise as region 1. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L lv 2 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U2 m c) fun w => A_eq2 (U2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U2 m) c)
    unfold Pipeline.ΦA
    iintro ⟨Hp, -, Hr⟩
    isplitl [Hr]; · iexact Hr
    iexact Hp
  hout c := by
    rw [Pipeline.ownSems0_none]
    refine (hout2 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U2 m c) (U3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The launch and the run -/

/-- The launch element: the pipeline library's at every pipeline's staging cells, and no ghost resource beside it. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the rest `R`: the generator register at its launch state, the
    core owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the register is dropped: the core owes nothing. -/
theorem hE3 (c : Dev nD) : E (F := F) 3 c ⊢ (iprop(∃ W, owes (c : Thread nD τ) (0 : CellTallies nD τ sig Unit) W) : sProp 𝕄) := by
  iintro ⟨-, HO⟩; iexact HO

set_option backward.isDefEq.respectTransparency.types false in
/-- THE FRAME at any `F`: every weakly fair execution of @main from memory `m` with zero counters terminates, and every
    final memory holds each argument as launched. The generated conditional frame at the three records above. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) 0 (fun _ => iprop(emp)) u₀ hu₀ E (hE0 ρ) hE3
    (reg0 m) (fun _ => .rfl) (fun _ => .rfl) (reg1 m) (fun _ => .rfl) (fun _ => .rfl) (reg2 m) (fun _ => .rfl) (fun _ => .rfl)

set_option backward.isDefEq.respectTransparency.types false in
/-- THE RUN with every unscoped buffer named at the end: the same launch over the same segments, the last thread state
    read whole against the final memory — each unscoped buffer holds what the last valuation says (the three regions'
    results folded through the host stretches after them). -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Pipeline.Seg.run_eq_chain,
        show (Gen.segs m (outs m) 𝒱₀ L lv E () (pdats m) (reg0 m) (reg1 m) (reg2 m) c).map Pipeline.Seg.prog = [
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (fun c => by simp only [Gen.segs, Pipeline.Seg.pipes_host, Pipeline.Seg.pipes_region, Pipeline.Seg.pipes_nil]; decide)
    0 (fun _ _ => rfl) (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V6 m (outs m) c))
    (hch := fun c => ⟨.rfl, .rfl, .rfl, .rfl, .rfl, .rfl, sep_mono .rfl (hE3 c)⟩)
    (hinit := ?_)
    (QY := fun c s => ∀ b ∈ Pipeline.ucRefs τ sig, s.mem ((c : Thread nD τ).1, b) = Gen.V6 m (outs m) c b)
    (hfin := fun c s' => ?_) (hQ := fun _ h => h)
  · -- the launch: the unscoped buffers are held at the launch contents; the rest makes `R` on every core
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => ((c : Thread nD τ).1, b)) (Gen.V6 m (outs m) c) s')
    isplitl [Hh] <;> iassumption

end Cert.Kernel.Hand

end
-- ==== Proof.KI.Attn.lean ====
import proofs.«129914_j85323820303106_1_alg».proof.Proof.Gen.KernelIdeal.Launch
import proofs.«129914_j85323820303106_1_alg».proof.Proof.Gen.KernelIdeal.Skeleton
import proofs.«129914_j85323820303106_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-!
# Region 0: the attention block, on one grid point

The first kernel region of the forward pass runs on a grid of a single point: each of its six input
windows (the activations `x`, the three projection matrices, the output projection and its bias) and
its one output window is the whole array. The body loads all six inputs, computes causal
attention, the projection and the layer normalisation, and stores the whole output block once.

This module states, at ANY contents `V` of the core's buffers when the region is entered, what the
body leaves in the output's staging buffer (`attnOut`, a function of the six input blocks) and proves
the body's triple and the pipeline's body obligation for the proof data `dat0`.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the core's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## Each input's staging buffer holds its block

An input window is never idle and never clipped, and the body leaves its block in place; so whatever
proof data agree with `V` on the window's array find, in the window's current staging buffer, the
block of the array at the point, fetched there or not. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses

Every access of the body is through the whole-shape rectangle at zero offsets of its buffer. -/

abbrev rX : Rect S32x8192 := Rect.unit (s := S32x8192) ![0, 0] S32x8192.size inb_S32x8192_S32x8192_0_0
abbrev rW : Rect S8192x64 := Rect.unit (s := S8192x64) ![0, 0] S8192x64.size inb_S8192x64_S8192x64_0_0
abbrev rP : Rect S64x8192 := Rect.unit (s := S64x8192) ![0, 0] S64x8192.size inb_S64x8192_S64x8192_0_0
abbrev rB : Rect S8192 := Rect.unit (s := S8192) ![0] S8192.size inb_S8192_S8192_0

theorem rX_zero : (![0, 0] : Fin S32x8192.rank → ℕ) = fun _ => 0 := by
  funext a; fin_cases a <;> rfl
theorem rW_zero : (![0, 0] : Fin S8192x64.rank → ℕ) = fun _ => 0 := by
  funext a; fin_cases a <;> rfl
theorem rP_zero : (![0, 0] : Fin S64x8192.rank → ℕ) = fun _ => 0 := by
  funext a; fin_cases a <;> rfl
theorem rB_zero : (![0] : Fin S8192.rank → ℕ) = fun _ => 0 := by
  funext a; fin_cases a; rfl

/-! ## What the body leaves in the output window's buffer -/

/-- The output's staging buffer after the body, from the six input blocks: its one store, of the
    layer-normalised sum of the activations and the projected attention, as a piece over the whole block. -/
def attnOut (x0 : Vec F S32x8192 .f32) (x1 x2 x3 : Vec F S8192x64 .f32) (x4 : Vec F S64x8192 .f32) (x5 : Vec F S8192 .f32) :
    Vec F S32x8192 .f32 :=
  View.canon [⟨rX, k0_pay1 (View.ld x0 rX) (k0_pay2 (View.ld x0 rX) (View.ld x1 rW) (View.ld x2 rW) (View.ld x3 rW))
    (k0_pay3 (View.ld x4 rP)) (View.ld x5 rB)⟩]

/-- The one piece covers the block and every load reads its whole block: the output is the payload of the blocks. -/
theorem attnOut_eq (x0 : Vec F S32x8192 .f32) (x1 x2 x3 : Vec F S8192x64 .f32) (x4 : Vec F S64x8192 .f32) (x5 : Vec F S8192 .f32) :
    attnOut x0 x1 x2 x3 x4 x5 = Gen.k0_pay1 x0 (Gen.k0_pay2 x0 x1 x2 x3) (Gen.k0_pay3 x4) x5 := by
  unfold attnOut
  rw [View.canon_unit_zero rX_zero]
  simp only [View.ld_unit_zero (S := S32x8192) rX_zero, View.ld_unit_zero (S := S8192x64) rW_zero,
    View.ld_unit_zero (S := S64x8192) rP_zero, View.ld_unit_zero (S := S8192) rB_zero]

/-- The one store covers the block. -/
theorem cover0_6 (p0 : Vec F S32x8192 .f32) (y : S32x8192.Idx) :
    ∃ pc ∈ ([⟨rX, p0⟩] : List (View.Piece (Elt F) S32x8192 .f32)), y ∈ pc.1.set :=
  ⟨_, List.mem_singleton_self _, View.mem_set_unit_zero rX_zero inb_S32x8192_S32x8192_0_0 y⟩

/-! ## The body's triple -/

set_option maxHeartbeats 1000000 in
/-- The kernel body on whole staging memrefs, the six inputs' at read contents `x0 … x5` and the output's at
    anything, runs to the continuation holding the inputs' as they were and the output's at `attnOut` of the
    inputs'. The body reads the output's buffer once (at whatever it holds) and then overwrites all of it. -/
theorem sound_kernel0 (c : Dev nD) (E : Set ℕ) (i : grid0.Coords)
    (arg1 : Memref sig .tc .vmem S32x8192 .f32) (harg1 : arg1.IsWhole)
    (arg2 : Memref sig .tc .vmem S8192x64 .f32) (harg2 : arg2.IsWhole)
    (arg3 : Memref sig .tc .vmem S8192x64 .f32) (harg3 : arg3.IsWhole)
    (arg4 : Memref sig .tc .vmem S8192x64 .f32) (harg4 : arg4.IsWhole)
    (arg5 : Memref sig .tc .vmem S64x8192 .f32) (harg5 : arg5.IsWhole)
    (arg6 : Memref sig .tc .vmem S8192 .f32) (harg6 : arg6.IsWhole)
    (arg7 : Memref sig .tc .vmem S32x8192 .f32) (harg7 : arg7.IsWhole)
    (x0 : Vec F S32x8192 .f32) (x1 x2 x3 : Vec F S8192x64 .f32) (x4 : Vec F S64x8192 .f32) (x5 : Vec F S8192 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare (attnOut x0 x1 x2 x3 x4 x5)) -∗ K ⟨⟩))
      ⊢ wp frame (wpE (defs₀ (F := F)) Variants.none c none) E
          (cc0__attn_kernel i arg1 harg1 arg2 harg2 arg3 harg3 arg4 harg4 arg5 harg5 arg6 harg6 arg7 harg7) K := by
  simp only [cc0__attn_kernel_eq_skeleton]; unfold cc0__attn_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf1 hf2 hf3 hf4 hf5 hf6
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover0_6 _)).trans ?_
  sl_unfold_run_names
  rfl

/-! ## The pipeline's proof data -/

/-- The proof data of the region's pipeline on core `c`: the arrays as the region finds them (`V`); after the
    body at point `t` each input's buffer at its block and the output's at `attnOut` of the six input blocks;
    the invariant holds the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => attnOut (iblk0 V c 0 t) (iblk0 V c 1 t) (iblk0 V c 2 t) (iblk0 V c 3 t) (iblk0 V c 4 t) (iblk0 V c 5 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) :
    (dat0 V c).after 6 t = attnOut (iblk0 V c 0 t) (iblk0 V c 1 t) (iblk0 V c 2 t) (iblk0 V c 3 t) (iblk0 V c 4 t) (iblk0 V c 5 t) := by
  dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks, so `sound_kernel0` applies; the invariant
    and the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t)
    (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Ffn1Runs.lean ====
import proofs.«129914_j85323820303106_1_alg».proof.Proof.Gen.KernelIdeal.Launch
import proofs.«129914_j85323820303106_1_alg».proof.Proof.Gen.KernelIdeal.Skeleton
import proofs.«129914_j85323820303106_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 (custom_call 1, `cc1_kernel`): what the three control cases of the body share

The body accumulates `y_block · w_block` into a scratch that it carries along the reduction axis `k` of the
grid (point `t` has `n = t / 8`, `k = t % 8`): the scratch is reset under `k = 0`, added to at every point, and
the output block is stored from it (plus the bias, through the maximum with zero) under `k = 7`. Three control
cases meet the grid: A (`k = 0`), B (`0 < k < 7`), C (`k = 7`). Everything is stated at a parameter `V`, the
TensorCore's buffer contents when the region is entered. -/

section Region1

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: where the window is not fetched its block
    index has not moved since the point before, so the block found is still this point's. Window 0 (the `y` block). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Window 1 (the weight block). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Window 2 (the bias block): fetched only where `k = 0`; along `k` its block index `n` does not move, so the block
    found at every point is that point's. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's two conditions, in closed form over the grid -/

/-- The condition of the reset (`k = 0`), as the body computes it from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the final store (`k = 7`). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The inputs are never idle. -/
theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Where `k ≠ 7` the output is idle (the body stores nothing into it) and its block is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- Where `k = 7` it is live. -/
theorem liveAt1_3 : ∀ t : Fin cfg1.N, cond1_1 (grid1.coords t) → cfg1.idle 3 (grid1.coords t) = false := by decide +kernel

/-! ## The memrefs the body is called with -/

/-- Each window's current staging memref at point `t`, as the pipeline passes it, and its wholeness. -/
abbrev ms1_0 (t : Fin cfg1.N) : Memref sig .tc .vmem S32x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S32x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows and carried between points. -/
abbrev scM1_0 : Memref sig .tc .vmem S32x1024 .f32 := Memref.whole cc1_scratch0

/-- The region invariant of the class, with the accumulator owned as a memref at some contents and every other
    scoped buffer left unopened. -/
theorem PhiA1_eq (c : Dev nD) :
    (Pipeline.ΦA spec1 c : sProp 𝕄)
      = iprop(iprop((∃ d, owns (c : Thread nD τ) scM1_0 fullShare d) ∗ Pipeline.scopedRestBut spec1 c [cc1_scratch0]) ∗ (∃ r, prngReg c r)) := by
  unfold Pipeline.ΦA
  rw [Pipeline.scopedRest_split_of_list spec1 c [cc1_scratch0] (by decide) (by decide)]
  simp only [scM1_0, owns_whole]; try rfl

end Cert.KernelIdeal.Hand

end
-- ==== Proof.KI.Ffn1RunA.lean ====
import proofs.«129914_j85323820303106_1_alg».proof.Proof.KI.Ffn1Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1, case A: the body at a point with `k = 0` -/

-- (the run's proof term is large: the definition's epilogue walks it past the default budget)
set_option maxHeartbeats 1000000 in
/-- CASE A (`k = 0`: the reset is taken, the final store is not). On whole memrefs — the three inputs at their
    contents, the output at contents `xi3` handed back untouched, the accumulator at anything — the body runs to
    the continuation holding the inputs and the output as they were and the accumulator with the pieces `LS0`
    written (the zero fill, then the first partial product added to it read back): the pieces are the witness the
    symbolic run finds. -/
noncomputable def kernelRun1_A (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond1_0 i) (hc1 : ¬cond1_1 i)
    (x0 : Vec F S32x1024 .f32) (x1 : Vec F S1024x1024 .f32) (x2 : Vec F S1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Ffn1RunB.lean ====
import proofs.«129914_j85323820303106_1_alg».proof.Proof.KI.Ffn1RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1, case B: the body at a point with `0 < k < 7` -/

-- (the run's proof term is large: the definition's epilogue walks it past the default budget)
set_option maxHeartbeats 1000000 in
/-- CASE B (`0 < k < 7`: neither the reset nor the final store). On whole memrefs — the three inputs at their
    contents, the output at contents `xi3` handed back untouched, the accumulator at what the point before left
    (`xs0`) — the body runs to the continuation holding the inputs and the output as they were and the accumulator
    with the pieces `LS0` written: the pieces are the witness the symbolic run finds. -/
noncomputable def kernelRun1_B (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : ¬cond1_1 i)
    (x0 : Vec F S32x1024 .f32) (x1 : Vec F S1024x1024 .f32) (x2 : Vec F S1024 .f32) (xs0 : Vec F S32x1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Ffn1RunC.lean ====
import proofs.«129914_j85323820303106_1_alg».proof.Proof.KI.Ffn1RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1, case C: the body at a point with `k = 7` -/

-- (the run's proof term is large: the definition's epilogue walks it past the default budget)
set_option maxHeartbeats 1000000 in
/-- CASE C (`k = 7`: no reset, the final store is taken). On whole memrefs — the three inputs at their contents,
    the output at anything, the accumulator at what the point before left (`xs0`) — the body runs to the
    continuation holding the inputs as they were, the output with the pieces `L3` written and the accumulator with
    the pieces `LS0` written: the pieces are the witness the symbolic run finds. -/
noncomputable def kernelRun1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i)
    (x0 : Vec F S32x1024 .f32) (x1 : Vec F S1024x1024 .f32) (x2 : Vec F S1024 .f32) (xs0 : Vec F S32x1024 .f32) :
    Σ' (L3 : List (View.Piece (Elt F) S32x1024 .f32)), { LS0 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Ffn1.lean ====
import proofs.«129914_j85323820303106_1_alg».proof.Proof.KI.Ffn1RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1 (custom_call 1, `cc1_kernel`): the kernel's half of the frame proof, with the accumulator carried

What each control case leaves in the accumulator and in the output block is read back from the pieces its run
found, as the body's payloads of the blocks; the accumulator's contents after each point follow by recursion
along the grid (`accAt1`); the region invariant carries the accumulator at those contents from point to point
(`PhiS1`); the proof data, the body obligation and the invariant's two ends follow. Everything is at a parameter
`V`, the TensorCore's buffer contents when the region is entered. -/

/-- The all-zero offsets of the body's whole-block accesses. -/
theorem hzero1 : (![0, 0] : Fin 2 → Nat) = fun _ => 0 := funext fun a => by fin_cases a <;> rfl
theorem hzero1' : (![0] : Fin 1 → Nat) = fun _ => 0 := funext fun a => by fin_cases a; rfl

/-! ## What each case leaves: the pieces cover, and read back as the payloads -/

/-- Case A's pieces for the accumulator cover it (the zero fill and the store of the first sum, each the whole block). -/
theorem scover1_A (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond1_0 i) (hc1 : ¬cond1_1 i) (x0 : Vec F S32x1024 .f32) (x1 : Vec F S1024x1024 .f32) (x2 : Vec F S1024 .f32) (y : S32x1024.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S32x1024.size (by sl_kernel_rfl) y

/-- Case A leaves in the accumulator the first partial product added to the zero block: the later store covers, and
    the accumulator value it adds to is the zero fill read back. -/
theorem sread1_A (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond1_0 i) (hc1 : ¬cond1_1 i) (x0 : Vec F S32x1024 .f32) (x1 : Vec F S1024x1024 .f32) (x2 : Vec F S1024 .f32) (f : arg6.view.ty.Contents (Elt F)) :
    arg6.view.read (Elt F) (arg6.view.writes (Elt F) f (kernelRun1_A c i arg2 harg2 arg3 harg3 arg4 harg4 arg5 harg5 arg6 harg6 hc0 hc1 x0 x1 x2).1) = k1_pay2 x0 x1 (k1_pay1 (F := F)) := by
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S32x1024) hzero1, View.readCov_unit_zero (S := S32x1024) _ hzero1]
  simp only [View.readAt_eq_ld, harg2.read_unread, harg3.read_unread, View.ld_unit_zero (S := S32x1024) hzero1, View.ld_unit_zero (S := S1024x1024) hzero1]

/-- Case B's one piece for the accumulator covers it. -/
theorem scover1_B (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : ¬cond1_1 i) (x0 : Vec F S32x1024 .f32) (x1 : Vec F S1024x1024 .f32) (x2 : Vec F S1024 .f32) (xs0 : Vec F S32x1024 .f32) (y : S32x1024.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S32x1024.size (by sl_kernel_rfl) y

/-- Case B leaves in the accumulator this point's partial product added to what the point before left. -/
theorem sread1_B (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : ¬cond1_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun1_B c i arg2 harg2 arg3 harg3 arg4 harg4 arg5 harg5 arg6 harg6 hc0 hc1 x0 x1 x2 xs0).1) = k1_pay2 x0 x1 xs0 := by
  rw [View.read_writes_eq_canon _ _ _ (scover1_B c i arg2 harg2 arg3 harg3 arg4 harg4 arg5 harg5 arg6 harg6 hc0 hc1 x0 x1 x2 xs0)]
  unfold kernelRun1_B
  dsimp only
  sl_unfold_words
  rw [View.canon_unit_zero (S := S32x1024) hzero1]
  simp only [View.readAt_eq_ld, harg2.read_unread, harg3.read_unread, harg6.read_unread, View.ld_unit_zero (S := S32x1024) hzero1, View.ld_unit_zero (S := S1024x1024) hzero1]

/-- Case C's one piece for the accumulator covers it. -/
theorem scover1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (y : S32x1024.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S32x1024.size (by sl_kernel_rfl) y

/-- Case C leaves in the accumulator the last partial product added to what the point before left. -/
theorem sread1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun1_C c i arg2 harg2 arg3 harg3 arg4 harg4 arg5 harg5 arg6 harg6 hc0 hc1 x0 x1 x2 xs0).2.1) = k1_pay2 x0 x1 xs0 := by
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero (S := S32x1024) hzero1]
  simp only [View.readAt_eq_ld, harg2.read_unread, harg3.read_unread, harg6.read_unread, View.ld_unit_zero (S := S32x1024) hzero1, View.ld_unit_zero (S := S1024x1024) hzero1]

/-- Case C's one piece for the output block covers it. -/
theorem cover1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (y : S32x1024.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S32x1024.size (by sl_kernel_rfl) y

/-- Case C leaves in the output block the final payload of the accumulator it has just completed (read back after
    its store) and the bias block. -/
theorem oread1_C (c : Dev nD) (i : grid1.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond1_0 i) (hc1 : cond1_1 i) (x0 : Vec F S32x1024 .f32) (x1 : Vec F S1024x1024 .f32) (x2 : Vec F S1024 .f32) (xs0 : Vec F S32x1024 .f32) (f : arg5.view.ty.Contents (Elt F)) :
    arg5.view.read (Elt F) (arg5.view.writes (Elt F) f (kernelRun1_C c i arg2 harg2 arg3 harg3 arg4 harg4 arg5 harg5 arg6 harg6 hc0 hc1 x0 x1 x2 xs0).1) = k1_pay3 (k1_pay2 x0 x1 xs0) x2 := by
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero (S := S32x1024) hzero1, View.readCov_unit_zero (S := S32x1024) _ hzero1]
  simp only [View.readAt_eq_ld, harg2.read_unread, harg3.read_unread, harg4.read_unread, harg6.read_unread, View.ld_unit_zero (S := S32x1024) hzero1, View.ld_unit_zero (S := S1024x1024) hzero1, View.ld_unit_zero (S := S1024) hzero1']

section Region1

variable (V : (c : Dev nD) → (b : Ref sig .tc) → Buf (Elt F) ((c : Thread nD τ).loc b))

/-! ## The accumulation -/

/-- What the carried accumulator holds after the body at position `n`: at a point with `k = 0` the point's partial
    product added to the zero block, at every other point added to what the point before left. -/
def accAt1 (c : Dev nD) : (n : ℕ) → n < cfg1.N → Vec F S32x1024 .f32
  | 0, hn => k1_pay2 (iblk1 V c 0 ⟨0, hn⟩) (iblk1 V c 1 ⟨0, hn⟩) (k1_pay1 (F := F))
  | n + 1, hn =>
    if (n + 1) % 8 = 0 then k1_pay2 (iblk1 V c 0 ⟨n + 1, hn⟩) (iblk1 V c 1 ⟨n + 1, hn⟩) (k1_pay1 (F := F))
    else k1_pay2 (iblk1 V c 0 ⟨n + 1, hn⟩) (iblk1 V c 1 ⟨n + 1, hn⟩) (accAt1 c n (Nat.lt_of_succ_lt hn))

/-- At a point with `k = 0`. -/
theorem accAt1_first (c : Dev nD) (t : Fin cfg1.N) (h : t.val % 8 = 0) :
    accAt1 V c t.val t.isLt = k1_pay2 (iblk1 V c 0 t) (iblk1 V c 1 t) (k1_pay1 (F := F)) := by
  obtain ⟨n, hn⟩ := t
  cases n with
  | zero => exact rfl
  | succ n => exact if_pos h

/-- At a point with `k ≠ 0`: over what the point before left. -/
theorem accAt1_next (c : Dev nD) (t : Fin cfg1.N) (h : t.val % 8 ≠ 0) :
    accAt1 V c t.val t.isLt = k1_pay2 (iblk1 V c 0 t) (iblk1 V c 1 t) (accAt1 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (every scoped buffer that is no
    staging buffer at anything, the generator register at some state); afterwards the same with the accumulator at
    what the point before left in it. -/
def PhiS1 (c : Dev nD) : (n : ℕ) → n ≤ cfg1.N → sProp 𝕄
  | 0, _ => Pipeline.ΦA spec1 c
  | n + 1, hn => iprop(iprop(owns (c : Thread nD τ) scM1_0 fullShare (accAt1 V c n hn) ∗ Pipeline.scopedRestBut spec1 c [cc1_scratch0]) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare (accAt1 V c n hn) ∗ Pipeline.scopedRestBut spec1 c [cc1_scratch0]) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare (accAt1 V c (n - 1) (by omega)) ∗ Pipeline.scopedRestBut spec1 c [cc1_scratch0]) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and the output's at the final payload of the accumulator and the bias block
    (consulted only where `k = 7`: elsewhere the output is idle and not written back); the invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay3 (accAt1 V c t.val t.isLt) (iblk1 V c 2 t)
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay3 (accAt1 V c t.val t.isLt) (iblk1 V c 2 t) := by dsimp only [dat1]

/-- Where `k = 7` (the points that write the output block back) the output's buffer holds the final payload of the
    completed accumulator and the bias block. -/
theorem after1_3_last (c : Dev nD) (t : Fin cfg1.N) (h : t.val % 8 = 7) :
    (dat1 V c).after 3 t = k1_pay3 (accAt1 V c t.val t.isLt) (iblk1 V c 2 t) := after1_3 V c t

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms of the two conditions say which
    case the point is in; that case's run applies, handed the accumulator at what the point before left (at
    anything where `k = 0`) and handing it back at this point's contents; where `k ≠ 7` the output's buffer goes
    back untouched, where `k = 7` it goes back at the final payload. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  rw [show (dat1 V c).leavesExact 2 t = owns (c : Thread nD τ) (ms1_2 t) fullShare ((dat1 V c).after 2 t) from by
        unfold Dat.leavesExact; rw [liveAt1_2 t], after1_2]
  by_cases h0 : t.val % 8 = 0
  · have h1 : ¬t.val % 8 = 7 := by omega
    have hc0 : cond1_0 (grid1.coords t) := (hcond1_0 t).mpr h0
    have hc1 : ¬cond1_1 (grid1.coords t) := fun h => h1 ((hcond1_1 t).mp h)
    rw [Dat.leavesExact_idle (dat1 V c) 3 t (idleAt1_3 t hc1) (noFlush1_3 t hc1)]
    rw [accAt1_first V c t h0]
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread1_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_A c (grid1.coords t) _ _ _ _ _ _ _ _ _ _ hc0 hc1 (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread1_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond1_0 (grid1.coords t) := fun h => h0 ((hcond1_0 t).mp h)
    by_cases h1 : t.val % 8 = 7
    · have hc1 : cond1_1 (grid1.coords t) := (hcond1_1 t).mpr h1
      rw [show (dat1 V c).leavesExact 3 t = owns (c : Thread nD τ) (ms1_3 t) fullShare ((dat1 V c).after 3 t) from by
        unfold Dat.leavesExact; rw [liveAt1_3 t hc1], after1_3]
      rw [accAt1_next V c t h0]
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_C c (grid1.coords t) _ _ _ _ _ _ _ _ _ _ hc0 hc1 (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact sread1_C c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      unfold owns; iexists _; isplitr
      swap; · iexact H3
      ipureintro; exact oread1_C c _ _ _ _ _ _ _ _ _ _ _ hc0 hc1 _ _ _ _ _
    · have hc1 : ¬cond1_1 (grid1.coords t) := fun h => h1 ((hcond1_1 t).mp h)
      rw [Dat.leavesExact_idle (dat1 V c) 3 t (idleAt1_3 t hc1) (noFlush1_3 t hc1)]
      rw [accAt1_next V c t h0]
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((kernelRun1_B c (grid1.coords t) _ _ _ _ _ _ _ _ _ _ hc0 hc1 (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread1_B c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulator's named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.KI.Ffn2Runs.lean ====
import proofs.«129914_j85323820303106_1_alg».proof.Proof.Gen.KernelIdeal.Launch
import proofs.«129914_j85323820303106_1_alg».proof.Proof.Gen.KernelIdeal.Skeleton
import proofs.«129914_j85323820303106_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2 (custom_call 2, `cc2_kernel`): what the three control cases of the body share

The body accumulates `y_block · w_block` into a scratch that it carries along the reduction axis `k` of the
grid (point `t` has `n = t / 8`, `k = t % 8`): the scratch is reset under `k = 0`, added to at every point, and
the output block is stored from it (plus the bias) under `k = 7`. Three control
cases meet the grid: A (`k = 0`), B (`0 < k < 7`), C (`k = 7`). Everything is stated at a parameter `V`, the
TensorCore's buffer contents when the region is entered. -/

section Region2

variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not, for any proof
    data whose array is `V`'s and whose body leaves the block in place: where the window is not fetched its block
    index has not moved since the point before, so the block found is still this point's. Window 0 (the `y` block). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Window 1 (the weight block). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Window 2 (the bias block): fetched only where `k = 0`; along `k` its block index `n` does not move, so the block
    found at every point is that point's. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

end Region2

/-! ## The body's two conditions, in closed form over the grid -/

/-- The condition of the reset (`k = 0`), as the body computes it from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8). -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the final store (`k = 7`). -/
abbrev cond2_1 (i : grid2.Coords) : Prop := k2_cond2 i = 1#1
/-- It holds at the points ≡ 7 (mod 8). -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- The inputs are never idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
/-- Where `k ≠ 7` the output is idle (the body stores nothing into it) and its block is not written back. -/
theorem idleAt2_3 : ∀ t : Fin cfg2.N, ¬cond2_1 (grid2.coords t) → cfg2.idle 3 (grid2.coords t) = true := by decide +kernel
theorem noFlush2_3 : ∀ t : Fin cfg2.N, ¬cond2_1 (grid2.coords t) → (cfg2.win 3).flush t = false := by decide +kernel
/-- Where `k = 7` it is live. -/
theorem liveAt2_3 : ∀ t : Fin cfg2.N, cond2_1 (grid2.coords t) → cfg2.idle 3 (grid2.coords t) = false := by decide +kernel

/-! ## The memrefs the body is called with -/

/-- Each window's current staging memref at point `t`, as the pipeline passes it, and its wholeness. -/
abbrev ms2_0 (t : Fin cfg2.N) : Memref sig .tc .vmem S32x1024 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S32x1024 .f32 := win2_3.stage (cfg2.slots t 3)
abbrev hs2_3 (t : Fin cfg2.N) : (ms2_3 t).IsWhole := hstage2_3 ((cfg2.slots t 3).cast nbuf2_3)
/-- The accumulator: a whole scoped buffer of the kernel's own, passed beside the windows and carried between points. -/
abbrev scM2_0 : Memref sig .tc .vmem S32x1024 .f32 := Memref.whole cc2_scratch0

/-- The region invariant of the class, with the accumulator owned as a memref at some contents and every other
    scoped buffer left unopened. -/
theorem PhiA2_eq (c : Dev nD) :
    (Pipeline.ΦA spec2 c : sProp 𝕄)
      = iprop(iprop((∃ d, owns (c : Thread nD τ) scM2_0 fullShare d) ∗ Pipeline.scopedRestBut spec2 c [cc2_scratch0]) ∗ (∃ r, prngReg c r)) := by
  unfold Pipeline.ΦA
  rw [Pipeline.scopedRest_split_of_list spec2 c [cc2_scratch0] (by decide) (by decide)]
  simp only [scM2_0, owns_whole]; try rfl

end Cert.KernelIdeal.Hand

end
-- ==== Proof.KI.Ffn2RunA.lean ====
import proofs.«129914_j85323820303106_1_alg».proof.Proof.KI.Ffn2Runs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2, case A: the body at a point with `k = 0` -/

-- (the run's proof term is large: the definition's epilogue walks it past the default budget)
set_option maxHeartbeats 1000000 in
/-- CASE A (`k = 0`: the reset is taken, the final store is not). On whole memrefs — the three inputs at their
    contents, the output at contents `xi3` handed back untouched, the accumulator at anything — the body runs to
    the continuation holding the inputs and the output as they were and the accumulator with the pieces `LS0`
    written (the zero fill, then the first partial product added to it read back): the pieces are the witness the
    symbolic run finds. -/
noncomputable def kernelRun2_A (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond2_0 i) (hc1 : ¬cond2_1 i)
    (x0 : Vec F S32x1024 .f32) (x1 : Vec F S1024x1024 .f32) (x2 : Vec F S1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Ffn2RunB.lean ====
import proofs.«129914_j85323820303106_1_alg».proof.Proof.KI.Ffn2RunA

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2, case B: the body at a point with `0 < k < 7` -/

-- (the run's proof term is large: the definition's epilogue walks it past the default budget)
set_option maxHeartbeats 1000000 in
/-- CASE B (`0 < k < 7`: neither the reset nor the final store). On whole memrefs — the three inputs at their
    contents, the output at contents `xi3` handed back untouched, the accumulator at what the point before left
    (`xs0`) — the body runs to the continuation holding the inputs and the output as they were and the accumulator
    with the pieces `LS0` written: the pieces are the witness the symbolic run finds. -/
noncomputable def kernelRun2_B (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : ¬cond2_1 i)
    (x0 : Vec F S32x1024 .f32) (x1 : Vec F S1024x1024 .f32) (x2 : Vec F S1024 .f32) (xs0 : Vec F S32x1024 .f32) :
    { LS0 : List (View.Piece (Elt F) S32x1024 .f32) //
      ∀ (xi3 : Vec F S32x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, fun xi3 E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Ffn2RunC.lean ====
import proofs.«129914_j85323820303106_1_alg».proof.Proof.KI.Ffn2RunB

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2, case C: the body at a point with `k = 7` -/

-- (the run's proof term is large: the definition's epilogue walks it past the default budget)
set_option maxHeartbeats 1000000 in
/-- CASE C (`k = 7`: no reset, the final store is taken). On whole memrefs — the three inputs at their contents,
    the output at anything, the accumulator at what the point before left (`xs0`) — the body runs to the
    continuation holding the inputs as they were, the output with the pieces `L3` written and the accumulator with
    the pieces `LS0` written: the pieces are the witness the symbolic run finds. -/
noncomputable def kernelRun2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i)
    (x0 : Vec F S32x1024 .f32) (x1 : Vec F S1024x1024 .f32) (x2 : Vec F S1024 .f32) (xs0 : Vec F S32x1024 .f32) :
    Σ' (L3 : List (View.Piece (Elt F) S32x1024 .f32)), { LS0 : List (View.Piece (Elt F) S32x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc2_kernel i arg2 harg2 arg3 harg3 arg4 harg4 arg5 harg5 arg6 harg6) K } := by
  refine ⟨?_, ?_, fun E K => ?run⟩
  case run =>
    simp only [cc2_kernel_eq_skeleton]; unfold cc2_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Ffn2.lean ====
import proofs.«129914_j85323820303106_1_alg».proof.Proof.KI.Ffn2RunC
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2 (custom_call 2, `cc2_kernel`): the kernel's half of the frame proof, with the accumulator carried

What each control case leaves in the accumulator and in the output block is read back from the pieces its run
found, as the body's payloads of the blocks; the accumulator's contents after each point follow by recursion
along the grid (`accAt2`); the region invariant carries the accumulator at those contents from point to point
(`PhiS2`); the proof data, the body obligation and the invariant's two ends follow. Everything is at a parameter
`V`, the TensorCore's buffer contents when the region is entered. -/

/-- The all-zero offsets of the body's whole-block accesses. -/
theorem hzero2 : (![0, 0] : Fin 2 → Nat) = fun _ => 0 := funext fun a => by fin_cases a <;> rfl
theorem hzero2' : (![0] : Fin 1 → Nat) = fun _ => 0 := funext fun a => by fin_cases a; rfl

/-! ## What each case leaves: the pieces cover, and read back as the payloads -/

/-- Case A's pieces for the accumulator cover it (the zero fill and the store of the first sum, each the whole block). -/
theorem scover2_A (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond2_0 i) (hc1 : ¬cond2_1 i) (x0 : Vec F S32x1024 .f32) (x1 : Vec F S1024x1024 .f32) (x2 : Vec F S1024 .f32) (y : S32x1024.Idx) :
    ∃ pc ∈ (kernelRun2_A c i arg2 harg2 arg3 harg3 arg4 harg4 arg5 harg5 arg6 harg6 hc0 hc1 x0 x1 x2).1, y ∈ pc.1.set :=
  View.cover_of_tiledL (kernelRun2_A c i arg2 harg2 arg3 harg3 arg4 harg4 arg5 harg5 arg6 harg6 hc0 hc1 x0 x1 x2).1 S32x1024.size (by sl_kernel_rfl) y

/-- Case A leaves in the accumulator the first partial product added to the zero block: the later store covers, and
    the accumulator value it adds to is the zero fill read back. -/
theorem sread2_A (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : cond2_0 i) (hc1 : ¬cond2_1 i) (x0 : Vec F S32x1024 .f32) (x1 : Vec F S1024x1024 .f32) (x2 : Vec F S1024 .f32) (f : arg6.view.ty.Contents (Elt F)) :
    arg6.view.read (Elt F) (arg6.view.writes (Elt F) f (kernelRun2_A c i arg2 harg2 arg3 harg3 arg4 harg4 arg5 harg5 arg6 harg6 hc0 hc1 x0 x1 x2).1) = k2_pay2 x0 x1 (k2_pay1 (F := F)) := by
  rw [View.read_writes_eq_canon _ _ _ (scover2_A c i arg2 harg2 arg3 harg3 arg4 harg4 arg5 harg5 arg6 harg6 hc0 hc1 x0 x1 x2)]
  unfold kernelRun2_A
  dsimp only
  sl_unfold_words
  rw [View.canon_cons_unit_zero (S := S32x1024) hzero2, View.readCov_unit_zero (S := S32x1024) _ hzero2]
  simp only [View.readAt_eq_ld, harg2.read_unread, harg3.read_unread, View.ld_unit_zero (S := S32x1024) hzero2, View.ld_unit_zero (S := S1024x1024) hzero2]

/-- Case B's one piece for the accumulator covers it. -/
theorem scover2_B (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : ¬cond2_1 i) (x0 : Vec F S32x1024 .f32) (x1 : Vec F S1024x1024 .f32) (x2 : Vec F S1024 .f32) (xs0 : Vec F S32x1024 .f32) (y : S32x1024.Idx) :
    ∃ pc ∈ (kernelRun2_B c i arg2 harg2 arg3 harg3 arg4 harg4 arg5 harg5 arg6 harg6 hc0 hc1 x0 x1 x2 xs0).1, y ∈ pc.1.set :=
  View.cover_of_tiledL (kernelRun2_B c i arg2 harg2 arg3 harg3 arg4 harg4 arg5 harg5 arg6 harg6 hc0 hc1 x0 x1 x2 xs0).1 S32x1024.size (by sl_kernel_rfl) y

/-- Case B leaves in the accumulator this point's partial product added to what the point before left. -/
theorem sread2_B (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : ¬cond2_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun2_B c i arg2 harg2 arg3 harg3 arg4 harg4 arg5 harg5 arg6 harg6 hc0 hc1 x0 x1 x2 xs0).1) = k2_pay2 x0 x1 xs0 := by
  rw [View.read_writes_eq_canon _ _ _ (scover2_B c i arg2 harg2 arg3 harg3 arg4 harg4 arg5 harg5 arg6 harg6 hc0 hc1 x0 x1 x2 xs0)]
  unfold kernelRun2_B
  dsimp only
  sl_unfold_words
  rw [View.canon_unit_zero (S := S32x1024) hzero2]
  simp only [View.readAt_eq_ld, harg2.read_unread, harg3.read_unread, harg6.read_unread, View.ld_unit_zero (S := S32x1024) hzero2, View.ld_unit_zero (S := S1024x1024) hzero2]

/-- Case C's one piece for the accumulator covers it. -/
theorem scover2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (y : S32x1024.Idx) :
    ∃ pc ∈ (kernelRun2_C c i arg2 harg2 arg3 harg3 arg4 harg4 arg5 harg5 arg6 harg6 hc0 hc1 x0 x1 x2 xs0).2.1, y ∈ pc.1.set :=
  View.cover_of_tiledL (kernelRun2_C c i arg2 harg2 arg3 harg3 arg4 harg4 arg5 harg5 arg6 harg6 hc0 hc1 x0 x1 x2 xs0).2.1 S32x1024.size (by sl_kernel_rfl) y

/-- Case C leaves in the accumulator the last partial product added to what the point before left. -/
theorem sread2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (f : arg6.view.ty.Contents (Elt F)) :
    arg6.view.read (Elt F) (arg6.view.writes (Elt F) f (kernelRun2_C c i arg2 harg2 arg3 harg3 arg4 harg4 arg5 harg5 arg6 harg6 hc0 hc1 x0 x1 x2 xs0).2.1) = k2_pay2 x0 x1 xs0 := by
  rw [View.read_writes_eq_canon _ _ _ (scover2_C c i arg2 harg2 arg3 harg3 arg4 harg4 arg5 harg5 arg6 harg6 hc0 hc1 x0 x1 x2 xs0)]
  unfold kernelRun2_C
  dsimp only
  sl_unfold_words
  rw [View.canon_unit_zero (S := S32x1024) hzero2]
  simp only [View.readAt_eq_ld, harg2.read_unread, harg3.read_unread, harg6.read_unread, View.ld_unit_zero (S := S32x1024) hzero2, View.ld_unit_zero (S := S1024x1024) hzero2]

/-- Case C's one piece for the output block covers it. -/
theorem cover2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (y : S32x1024.Idx) :
    ∃ pc ∈ (kernelRun2_C c i arg2 harg2 arg3 harg3 arg4 harg4 arg5 harg5 arg6 harg6 hc0 hc1 x0 x1 x2 xs0).1, y ∈ pc.1.set :=
  View.cover_of_tiledL (kernelRun2_C c i arg2 harg2 arg3 harg3 arg4 harg4 arg5 harg5 arg6 harg6 hc0 hc1 x0 x1 x2 xs0).1 S32x1024.size (by sl_kernel_rfl) y

/-- Case C leaves in the output block the final payload of the accumulator it has just completed (read back after
    its store) and the bias block. -/
theorem oread2_C (c : Dev nD) (i : grid2.Coords) (arg2 : Memref sig .tc .vmem S32x1024 .f32) (harg2 : arg2.IsWhole) (arg3 : Memref sig .tc .vmem S1024x1024 .f32) (harg3 : arg3.IsWhole) (arg4 : Memref sig .tc .vmem S1024 .f32) (harg4 : arg4.IsWhole) (arg5 : Memref sig .tc .vmem S32x1024 .f32) (harg5 : arg5.IsWhole) (arg6 : Memref sig .tc .vmem S32x1024 .f32) (harg6 : arg6.IsWhole) (hc0 : ¬cond2_0 i) (hc1 : cond2_1 i) (x0 : Vec F S32x1024 .f32) (x1 : Vec F S1024x1024 .f32) (x2 : Vec F S1024 .f32) (xs0 : Vec F S32x1024 .f32) (f : arg5.view.ty.Contents (Elt F)) :
    arg5.view.read (Elt F) (arg5.view.writes (Elt F) f (kernelRun2_C c i arg2 harg2 arg3 harg3 arg4 harg4 arg5 harg5 arg6 harg6 hc0 hc1 x0 x1 x2 xs0).1) = k2_pay3 (k2_pay2 x0 x1 xs0) x2 := by
  rw [View.read_writes_eq_canon _ _ _ (cover2_C c i arg2 harg2 arg3 harg3 arg4 harg4 arg5 harg5 arg6 harg6 hc0 hc1 x0 x1 x2 xs0)]
  unfold kernelRun2_C
  dsimp only
  sl_unfold_words
  rw [View.canon_unit_zero (S := S32x1024) hzero2, View.readCov_unit_zero (S := S32x1024) _ hzero2]
  simp only [View.readAt_eq_ld, harg2.read_unread, harg3.read_unread, harg4.read_unread, harg6.read_unread, View.ld_unit_zero (S := S32x1024) hzero2, View.ld_unit_zero (S := S1024x1024) hzero2, View.ld_unit_zero (S := S1024) hzero2']

section Region2

variable (V : (c : Dev nD) → (b : Ref sig .tc) → Buf (Elt F) ((c : Thread nD τ).loc b))

/-! ## The accumulation -/

/-- What the carried accumulator holds after the body at position `n`: at a point with `k = 0` the point's partial
    product added to the zero block, at every other point added to what the point before left. -/
def accAt2 (c : Dev nD) : (n : ℕ) → n < cfg2.N → Vec F S32x1024 .f32
  | 0, hn => k2_pay2 (iblk2 V c 0 ⟨0, hn⟩) (iblk2 V c 1 ⟨0, hn⟩) (k2_pay1 (F := F))
  | n + 1, hn =>
    if (n + 1) % 8 = 0 then k2_pay2 (iblk2 V c 0 ⟨n + 1, hn⟩) (iblk2 V c 1 ⟨n + 1, hn⟩) (k2_pay1 (F := F))
    else k2_pay2 (iblk2 V c 0 ⟨n + 1, hn⟩) (iblk2 V c 1 ⟨n + 1, hn⟩) (accAt2 c n (Nat.lt_of_succ_lt hn))

/-- At a point with `k = 0`. -/
theorem accAt2_first (c : Dev nD) (t : Fin cfg2.N) (h : t.val % 8 = 0) :
    accAt2 V c t.val t.isLt = k2_pay2 (iblk2 V c 0 t) (iblk2 V c 1 t) (k2_pay1 (F := F)) := by
  obtain ⟨n, hn⟩ := t
  cases n with
  | zero => exact rfl
  | succ n => exact if_pos h

/-- At a point with `k ≠ 0`: over what the point before left. -/
theorem accAt2_next (c : Dev nD) (t : Fin cfg2.N) (h : t.val % 8 ≠ 0) :
    accAt2 V c t.val t.isLt = k2_pay2 (iblk2 V c 0 t) (iblk2 V c 1 t) (accAt2 V c (t.val - 1) (Nat.lt_of_le_of_lt (Nat.sub_le _ _) t.isLt)) := by
  obtain ⟨n, hn⟩ := t
  cases n with
  | zero => exact absurd (Nat.zero_mod _) h
  | succ n => exact if_neg h

/-! ## The region invariant -/

/-- The region invariant before position `n`: before the first point the class's (every scoped buffer that is no
    staging buffer at anything, the generator register at some state); afterwards the same with the accumulator at
    what the point before left in it. -/
def PhiS2 (c : Dev nD) : (n : ℕ) → n ≤ cfg2.N → sProp 𝕄
  | 0, _ => Pipeline.ΦA spec2 c
  | n + 1, hn => iprop(iprop(owns (c : Thread nD τ) scM2_0 fullShare (accAt2 V c n hn) ∗ Pipeline.scopedRestBut spec2 c [cc2_scratch0]) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the accumulator at that point's contents. -/
theorem PhiS2_succ (c : Dev nD) (n : ℕ) (hn : n < cfg2.N) :
    PhiS2 V c (n + 1) hn = iprop(iprop(owns (c : Thread nD τ) scM2_0 fullShare (accAt2 V c n hn) ∗ Pipeline.scopedRestBut spec2 c [cc2_scratch0]) ∗ (∃ r, prngReg c r)) := rfl

/-- Before a point that is not the first: the accumulator at what the point before left. -/
theorem PhiS2_pos (c : Dev nD) (n : ℕ) (h : n ≤ cfg2.N) (hz : n ≠ 0) :
    PhiS2 V c n h = iprop(iprop(owns (c : Thread nD τ) scM2_0 fullShare (accAt2 V c (n - 1) (by omega)) ∗ Pipeline.scopedRestBut spec2 c [cc2_scratch0]) ∗ (∃ r, prngReg c r)) := by
  cases n with
  | zero => exact absurd rfl hz
  | succ n => rfl

/-! ## The pipeline's proof data -/

/-- The proof data of pipeline 2 on core `c`: the arrays as the region finds them (`V`); after the body at point `t`
    each input's buffer at its block and the output's at the final payload of the accumulator and the bias block
    (consulted only where `k = 7`: elsewhere the output is idle and not written back); the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val t.isLt) (iblk2 V c 2 t)
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = k2_pay3 (accAt2 V c t.val t.isLt) (iblk2 V c 2 t) := by dsimp only [dat2]

/-- Where `k = 7` (the points that write the output block back) the output's buffer holds the final payload of the
    completed accumulator and the bias block. -/
theorem after2_3_last (c : Dev nD) (t : Fin cfg2.N) (h : t.val % 8 = 7) :
    (dat2 V c).after 3 t = k2_pay3 (accAt2 V c t.val t.isLt) (iblk2 V c 2 t) := after2_3 V c t

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms of the two conditions say which
    case the point is in; that case's run applies, handed the accumulator at what the point before left (at
    anything where `k = 0`) and handing it back at this point's contents; where `k ≠ 7` the output's buffer goes
    back untouched, where `k = 7` it goes back at the final payload. The core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
        unfold Dat.leavesExact; rw [liveAt2_0 t], after2_0]
  rw [show (dat2 V c).leavesExact 1 t = owns (c : Thread nD τ) (ms2_1 t) fullShare ((dat2 V c).after 1 t) from by
        unfold Dat.leavesExact; rw [liveAt2_1 t], after2_1]
  rw [show (dat2 V c).leavesExact 2 t = owns (c : Thread nD τ) (ms2_2 t) fullShare ((dat2 V c).after 2 t) from by
        unfold Dat.leavesExact; rw [liveAt2_2 t], after2_2]
  by_cases h0 : t.val % 8 = 0
  · have h1 : ¬t.val % 8 = 7 := by omega
    have hc0 : cond2_0 (grid2.coords t) := (hcond2_0 t).mpr h0
    have hc1 : ¬cond2_1 (grid2.coords t) := fun h => h1 ((hcond2_1 t).mp h)
    rw [Dat.leavesExact_idle (dat2 V c) 3 t (idleAt2_3 t hc1) (noFlush2_3 t hc1)]
    rw [accAt2_first V c t h0]
    by_cases hz : t.val = 0
    · rw [PhiS2_castSucc V c t, PhiS2_zero V c _ _ hz, PhiA2_eq]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
    · rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_A c (grid2.coords t) _ _ _ _ _ _ _ _ _ _ hc0 hc1 (iblk2 V c 0 t) (iblk2 V c 1 t) (iblk2 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_A c _ _ _ _ _ _ _ _ _ _ _ hc0 hc1 _ _ _ _
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hc0 : ¬cond2_0 (grid2.coords t) := fun h => h0 ((hcond2_0 t).mp h)
    by_cases h1 : t.val % 8 = 7
    · have hc1 : cond2_1 (grid2.coords t) := (hcond2_1 t).mpr h1
      rw [show (dat2 V c).leavesExact 3 t = owns (c : Thread nD τ) (ms2_3 t) fullShare ((dat2 V c).after 3 t) from by
        unfold Dat.leavesExact; rw [liveAt2_3 t hc1], after2_3]
      rw [accAt2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_C c (grid2.coords t) _ _ _ _ _ _ _ _ _ _ hc0 hc1 (iblk2 V c 0 t) (iblk2 V c 1 t) (iblk2 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact sread2_C c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      unfold owns; iexists _; isplitr
      swap; · iexact H3
      ipureintro; exact oread2_C c _ _ _ _ _ _ _ _ _ _ _ hc0 hc1 _ _ _ _ _
    · have hc1 : ¬cond2_1 (grid2.coords t) := fun h => h1 ((hcond2_1 t).mp h)
      rw [Dat.leavesExact_idle (dat2 V c) 3 t (idleAt2_3 t hc1) (noFlush2_3 t hc1)]
      rw [accAt2_next V c t h0]
      rw [PhiS2_castSucc V c t, PhiS2_pos V c _ _ hz]
      iintro ⟨⟨⟨HS0, Hr⟩, Hg⟩, Ho, ⟨%d0, H0⟩, ⟨%d1, H1⟩, ⟨%d2, H2⟩, ⟨%d3, H3⟩⟩
      iapply ((kernelRun2_B c (grid2.coords t) _ _ _ _ _ _ _ _ _ _ hc0 hc1 (iblk2 V c 0 t) (iblk2 V c 1 t) (iblk2 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact sread2_B c _ _ _ _ _ _ _ _ _ _ _ hc0 hc1 _ _ _ _ _
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 64 := N_2; omega)

end Region2

end Cert.KernelIdeal.Hand

end
-- ==== Proof.KI.Run.lean ====
import proofs.«129914_j85323820303106_1_alg».proof.Proof.KI.Attn
import proofs.«129914_j85323820303106_1_alg».proof.Proof.KI.Ffn1
import proofs.«129914_j85323820303106_1_alg».proof.Proof.KI.Ffn2
import proofs.«129914_j85323820303106_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! # The contents the three regions leave

Region 0 changes one unscoped buffer, its output window's array `main_v0`; region 1 reads it and changes `main_v1`;
region 2 reads that and changes `main_v2`. What each leaves there is the fold of its write-backs over the contents it
was entered from (`Dat.arrAt … N`), so the three are defined in order, each over the valuation the one before it
leaves. -/

/-- What region 0 leaves in `main_v0`: its output window's array after every write-back, from the launch contents. -/
def o1 (c : Dev nD) : Buf (Elt F) ((c : Thread nD τ).loc main_v0) :=
  (dat0 (fun c b => Gen.V0 m c b) c).arrAt 6 cfg0.N

/-- The unscoped buffers after region 0: the launch contents but for `main_v0`. -/
abbrev VA (c : Dev nD) : Valuation τ sig (Elt F) := Function.update (Gen.V0 m c) main_v0 (o1 m c)

/-- What region 1 leaves in `main_v1`, entered from `VA`. -/
def o2 (c : Dev nD) : Buf (Elt F) ((c : Thread nD τ).loc main_v1) :=
  (dat1 (fun c b => VA m c b) c).arrAt 3 cfg1.N

/-- The unscoped buffers after region 1. -/
abbrev VB (c : Dev nD) : Valuation τ sig (Elt F) := Function.update (VA m c) main_v1 (o2 m c)

/-- What region 2 leaves in `main_v2`, entered from `VB`. -/
def o3 (c : Dev nD) : Buf (Elt F) ((c : Thread nD τ).loc main_v2) :=
  (dat2 (fun c b => VB m c b) c).arrAt 3 cfg2.N

/-- The contents the regions leave, as the generated valuations read them: `main_v0`, `main_v1`, `main_v2` at the
    three folds above (whatever the item number), every other reference at its launch contents (never read). -/
def outs : Gen.Outs (F := F) := fun _ r c =>
  Function.update (β := fun r : Ref sig .tc => Buf (Elt F) ((c : Thread nD τ).loc r))
    (Function.update (β := fun r : Ref sig .tc => Buf (Elt F) ((c : Thread nD τ).loc r))
      (Function.update (β := fun r : Ref sig .tc => Buf (Elt F) ((c : Thread nD τ).loc r))
        (fun r => m ((c : Thread nD τ).loc r)) main_v0 (o1 m c)) main_v1 (o2 m c)) main_v2 (o3 m c) r

theorem outs_at_v0 (J : ℕ) (c : Dev nD) : outs m J main_v0 c = o1 m c := by
  unfold outs
  rw [Function.update_of_ne (by decide), Function.update_of_ne (by decide), Function.update_self]
theorem outs_at_v1 (J : ℕ) (c : Dev nD) : outs m J main_v1 c = o2 m c := by
  unfold outs
  rw [Function.update_of_ne (by decide), Function.update_self]
theorem outs_at_v2 (J : ℕ) (c : Dev nD) : outs m J main_v2 c = o3 m c := by
  unfold outs
  rw [Function.update_self]

/-- The generated valuation after region 0 is `VA`, -/
theorem V1_eq (c : Dev nD) : Gen.V1 m (outs m) c = VA m c := by
  unfold Gen.V1 VA; rw [outs_at_v0]
/-- the one after region 1 is `VB`. -/
theorem V2_eq (c : Dev nD) : Gen.V2 m (outs m) c = VB m c := by
  unfold Gen.V2 VB; rw [V1_eq, outs_at_v1]

theorem outs_v0 (c : Dev nD) : outs m 1 main_v0 c = (dat0 (fun c b => Gen.V0 m c b) c).arrAt 6 cfg0.N := outs_at_v0 m 1 c
theorem outs_v1 (c : Dev nD) : outs m 2 main_v1 c = (dat1 (fun c b => Gen.V1 m (outs m) c b) c).arrAt 3 cfg1.N := by
  rw [outs_at_v1]; unfold o2
  rw [show (fun (c : Dev nD) (b : Ref sig .tc) => Gen.V1 m (outs m) c b) = fun (c : Dev nD) (b : Ref sig .tc) => VA m c b from funext fun c => by rw [V1_eq]]
theorem outs_v2 (c : Dev nD) : outs m 3 main_v2 c = (dat2 (fun c b => Gen.V2 m (outs m) c b) c).arrAt 3 cfg2.N := by
  rw [outs_at_v2]; unfold o3
  rw [show (fun (c : Dev nD) (b : Ref sig .tc) => Gen.V2 m (outs m) c b) = fun (c : Dev nD) (b : Ref sig .tc) => VB m c b from funext fun c => by rw [V2_eq]]

/-! # The proof data of every pipeline, each at its region's entry contents -/

/-- A literal `match` on the pipeline, so that the configuration pinned at a numeral reduces to the printed one. -/
def pdats : (p : Fin 3) → (c : Dev nD) → Dat τ (Elt F) Unit ℕ (UR sig nD τ) ℕ (Pipeline.pin (pcfgs (F := F)) Gen.adm p) c
  | ⟨0, _⟩ => fun c => dat0 (fun c b => Gen.V0 m c b) c
  | ⟨1, _⟩ => fun c => dat1 (fun c b => Gen.V1 m (outs m) c b) c
  | ⟨2, _⟩ => fun c => dat2 (fun c b => Gen.V2 m (outs m) c b) c

/-! # The thread state between two items

Beside every unscoped buffer at the boundary's contents a core carries its generator register at some state (a
region's class invariant takes it in and gives it back) and its dues, at nothing: no core owes another anything,
so no level is assigned. -/

abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
/-- The same rest beside the buffers at every boundary. -/
abbrev E : Fin 4 → Dev nD → sProp 𝕄 := fun _ c => R c

/-- The boundary contents read at the TensorCore's references (what a region's proof data and the unscoped rest take). -/
abbrev U0 : (c : Dev nD) → (b : Ref sig .tc) → Buf (Elt F) ((c : Thread nD τ).loc b) := fun c b => Gen.V0 m c b
abbrev U1 : (c : Dev nD) → (b : Ref sig .tc) → Buf (Elt F) ((c : Thread nD τ).loc b) := fun c b => Gen.V1 m (outs m) c b
abbrev U2 : (c : Dev nD) → (b : Ref sig .tc) → Buf (Elt F) ((c : Thread nD τ).loc b) := fun c b => Gen.V2 m (outs m) c b
abbrev U3 : (c : Dev nD) → (b : Ref sig .tc) → Buf (Elt F) ((c : Thread nD τ).loc b) := fun c b => Gen.V3 m (outs m) c b

/-! ## What each region's exit holds: its arrays at what the pipeline leaves, every other buffer as entered -/

/-- Region 0: the six inputs are never written and are no `main_v0`; the output's array is `main_v0`, at `outs 1`. -/
theorem hF0 (c : Dev nD) : ∀ w : Fin cfg0.W, (dat0 (U0 m) c).arrAt w cfg0.N = U1 m c (Pipeline.arrRef spec0 w)
  | ⟨0, _⟩ => ((dat0 (U0 m) c).arrAt_in 0 rfl _).trans ((A_eq0 (U0 m) c 0).trans (Gen.V1_of m (outs m) c main_arg0 (by decide)).symm)
  | ⟨1, _⟩ => ((dat0 (U0 m) c).arrAt_in 1 rfl _).trans ((A_eq0 (U0 m) c 1).trans (Gen.V1_of m (outs m) c main_arg1 (by decide)).symm)
  | ⟨2, _⟩ => ((dat0 (U0 m) c).arrAt_in 2 rfl _).trans ((A_eq0 (U0 m) c 2).trans (Gen.V1_of m (outs m) c main_arg2 (by decide)).symm)
  | ⟨3, _⟩ => ((dat0 (U0 m) c).arrAt_in 3 rfl _).trans ((A_eq0 (U0 m) c 3).trans (Gen.V1_of m (outs m) c main_arg3 (by decide)).symm)
  | ⟨4, _⟩ => ((dat0 (U0 m) c).arrAt_in 4 rfl _).trans ((A_eq0 (U0 m) c 4).trans (Gen.V1_of m (outs m) c main_arg4 (by decide)).symm)
  | ⟨5, _⟩ => ((dat0 (U0 m) c).arrAt_in 5 rfl _).trans ((A_eq0 (U0 m) c 5).trans (Gen.V1_of m (outs m) c main_arg5 (by decide)).symm)
  | ⟨6, _⟩ => by
    show _ = Gen.V1 m (outs m) c main_v0
    unfold Gen.V1; rw [Function.update_self]; exact (outs_v0 m c).symm
  | ⟨_ + 7, h⟩ => absurd h (Nat.not_lt.2 (Nat.le_add_left _ _))
theorem hrest0 (c : Dev nD) : ∀ b, b ∉ Finset.univ.image (Pipeline.arrRef spec0) → U1 m c b = U0 m c b :=
  fun b hb => Gen.V1_of m (outs m) c b fun h =>
    hb (Finset.mem_image.mpr ⟨6, Finset.mem_univ _, (List.mem_singleton.mp h).symm⟩)

set_option backward.isDefEq.respectTransparency.types false in
/-- REGION 0 (the attention call, one grid point) over the thread state: entered from every unscoped buffer at the
    launch contents, left at the same but for `main_v0`. Its arrays are split out of the unscoped buffers and put back
    at the exit contents; the generator register goes into the class invariant and comes out; nothing is owed; the
    kernel has no semaphore of its own. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (Gen.V0 m c) ∗ R c)
  post c := iprop(StableHlo.held (c : Thread nD τ) (Pipeline.ucRefs τ sig) (Gen.V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (U0 m c) fun w => A_eq0 (U0 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]
    unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- Region 1: it reads `main_v0` and two arguments, none of them `main_v1`; the output's array is `main_v1`, at `outs 2`. -/
theorem hF1 (c : Dev nD) : ∀ w : Fin cfg1.W, (dat1 (U1 m) c).arrAt w cfg1.N = U2 m c (Pipeline.arrRef spec1 w)
  | ⟨0, _⟩ => ((dat1 (U1 m) c).arrAt_in 0 rfl _).trans ((A_eq1 (U1 m) c 0).trans (Gen.V2_of m (outs m) c main_v0 (by decide)).symm)
  | ⟨1, _⟩ => ((dat1 (U1 m) c).arrAt_in 1 rfl _).trans ((A_eq1 (U1 m) c 1).trans (Gen.V2_of m (outs m) c main_arg6 (by decide)).symm)
  | ⟨2, _⟩ => ((dat1 (U1 m) c).arrAt_in 2 rfl _).trans ((A_eq1 (U1 m) c 2).trans (Gen.V2_of m (outs m) c main_arg7 (by decide)).symm)
  | ⟨3, _⟩ => by
    show _ = Gen.V2 m (outs m) c main_v1
    unfold Gen.V2; rw [Function.update_self]; exact (outs_v1 m c).symm
  | ⟨_ + 4, h⟩ => absurd h (Nat.not_lt.2 (Nat.le_add_left _ _))
theorem hrest1 (c : Dev nD) : ∀ b, b ∉ Finset.univ.image (Pipeline.arrRef spec1) → U2 m c b = U1 m c b :=
  fun b hb => Gen.V2_of m (outs m) c b fun h =>
    hb (Finset.mem_image.mpr ⟨3, Finset.mem_univ _, (List.mem_singleton.mp h).symm⟩)

/-- Region 2: it reads `main_v1` and two arguments, none of them `main_v2`; the output's array is `main_v2`, at `outs 3`. -/
theorem hF2 (c : Dev nD) : ∀ w : Fin cfg2.W, (dat2 (U2 m) c).arrAt w cfg2.N = U3 m c (Pipeline.arrRef spec2 w)
  | ⟨0, _⟩ => ((dat2 (U2 m) c).arrAt_in 0 rfl _).trans ((A_eq2 (U2 m) c 0).trans (Gen.V3_of m (outs m) c main_v1 (by decide)).symm)
  | ⟨1, _⟩ => ((dat2 (U2 m) c).arrAt_in 1 rfl _).trans ((A_eq2 (U2 m) c 1).trans (Gen.V3_of m (outs m) c main_arg8 (by decide)).symm)
  | ⟨2, _⟩ => ((dat2 (U2 m) c).arrAt_in 2 rfl _).trans ((A_eq2 (U2 m) c 2).trans (Gen.V3_of m (outs m) c main_arg9 (by decide)).symm)
  | ⟨3, _⟩ => by
    show _ = Gen.V3 m (outs m) c main_v2
    unfold Gen.V3; rw [Function.update_self]; exact (outs_v2 m c).symm
  | ⟨_ + 4, h⟩ => absurd h (Nat.not_lt.2 (Nat.le_add_left _ _))
theorem hrest2 (c : Dev nD) : ∀ b, b ∉ Finset.univ.image (Pipeline.arrRef spec2) → U3 m c b = U2 m c b :=
  fun b hb => Gen.V3_of m (outs m) c b fun h =>
    hb (Finset.mem_image.mpr ⟨3, Finset.mem_univ _, (List.mem_singleton.mp h).symm⟩)

set_option backward.isDefEq.respectTransparency.types false in
/-- REGION 1 (the first blocked matrix product, an 8 by 8 grid) over the thread state: entered from the buffers as
    region 0 left them, left at the same but for `main_v1`. As region 0, but the kernel carries a scratch accumulator
    between grid points: its invariant at the first point comes from the class invariant and goes back to it after the
    last (the region's two halves `hin1`, `hout1`). -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U1 m) c).loose
  hwaits := Pipeline.hwaits_of_owed_zero _ _ _ _ L lv 1 fun _ _ => rfl
  pre c := iprop(StableHlo.held (c : Thread nD τ) (Pipeline.ucRefs τ sig) (Gen.V1 m (outs m) c) ∗ R c)
  post c := iprop(StableHlo.held (c : Thread nD τ) (Pipeline.ucRefs τ sig) (Gen.V2 m (outs m) c) ∗ R c)
  X c := iprop(∃ r, prngReg c r)
  Y c := iprop(∃ r, prngReg c r)
  Z c := Pipeline.unscopedRest (Ix := Unit) (Name := ℕ) (U := UR sig nD τ) (Lvl := ℕ) spec1 c (U1 m c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (U1 m c) fun w => A_eq1 (U1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (U1 m) c)
    unfold Pipeline.ΦA
    iintro ⟨Hp, -, Hr⟩
    isplitl [Hr]; · iexact Hr
    iexact Hp
  hout c := by
    rw [Pipeline.ownSems0_none]
    refine (hout1 (U1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun _ => rfl)
      (U1 m c) (U2 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 2 (the second blocked matrix product) over the thread state: entered from the buffers as region 1 left
    them, left at the same but for `main_v2`; otherwise as region 1. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (U2 m) c).loose
  hwaits := Pipeline.hwaits_of_owed_zero _ _ _ _ L lv 2 fun _ _ => rfl
  pre c := iprop(StableHlo.held (c : Thread nD τ) (Pipeline.ucRefs τ sig) (Gen.V2 m (outs m) c) ∗ R c)
  post c := iprop(StableHlo.held (c : Thread nD τ) (Pipeline.ucRefs τ sig) (Gen.V3 m (outs m) c) ∗ R c)
  X c := iprop(∃ r, prngReg c r)
  Y c := iprop(∃ r, prngReg c r)
  Z c := Pipeline.unscopedRest (Ix := Unit) (Name := ℕ) (U := UR sig nD τ) (Lvl := ℕ) spec2 c (U2 m c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (U2 m c) fun w => A_eq2 (U2 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin2 (U2 m) c)
    unfold Pipeline.ΦA
    iintro ⟨Hp, -, Hr⟩
    isplitl [Hr]; · iexact Hr
    iexact Hp
  hout c := by
    rw [Pipeline.ownSems0_none]
    refine (hout2 (U2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun _ => rfl)
      (U2 m c) (U3 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! # The launch and the run -/

/-- The launch element: the pipeline library's at every pipeline's staging cells, and no ghost resource beside it. -/
abbrev u₀ : UR sig nD τ := initOf (Pipeline.cells cfgs cellOf_inj) (Pipeline.launchToks cfgs cellOf_inj)

theorem hu₀ : (ownU (u₀ : UR sig nD τ) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals a core beside its buffers makes the rest `R`: the generator register at its launch state, the
    core owing nothing. -/
theorem hE0 (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts L lv)
      ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- At the end the register is dropped: the core owes nothing. -/
theorem hE3 (c : Dev nD) : E (F := F) 3 c ⊢ (iprop(∃ W, owes (c : Thread nD τ) (0 : CellTallies nD τ sig Unit) W) : sProp 𝕄) := by
  iintro ⟨-, HO⟩; iexact HO

set_option backward.isDefEq.respectTransparency.types false in
/-- THE FRAME at any `F`: every weakly fair execution of @main from memory `m` with zero counters terminates, and every
    final memory holds each argument as launched. The generated conditional frame at the three records above. -/
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Gen.frame_cond m emb₁ () 𝒱₀ L lv (fun _ _ => rfl) ρ (outs m) (pdats m) 0 (fun _ => iprop(emp)) u₀ hu₀ E (hE0 ρ) hE3
    (reg0 m) (fun _ => .rfl) (fun _ => .rfl) (reg1 m) (fun _ => .rfl) (fun _ => .rfl) (reg2 m) (fun _ => .rfl) (fun _ => .rfl)

set_option backward.isDefEq.respectTransparency.types false in
/-- THE RUN with every unscoped buffer named at the end: the same launch over the same segments, the last thread state
    read whole against the final memory — each unscoped buffer holds what the last valuation says (the three regions'
    results folded through the host stretches after them). -/
theorem run_all (ρ : Dev nD → PrngReg) : θ_run defs (onTc (τ := τ) (main (F := F))) ⟨m, fun _ => 0, ρ⟩
    (fun r => ∀ c : Dev nD, ∀ b ∈ Pipeline.ucRefs τ sig, r.2.mem ((c : Thread nD τ).1, b) = Gen.V6 m (outs m) c b) := by
  refine Pipeline.θ_run_regions_kit_dev (pcfgs (F := F)) Gen.adm (pdats m) () cellOf_inj emb₁ defs₀ 𝒱₀ L lv m ρ main
    (Gen.segs m (outs m) 𝒱₀ L lv E () (pdats m) (reg0 m) (reg1 m) (reg2 m))
    (fun c Q => by
      rewrite [main_chain c, Pipeline.Seg.run_eq_chain,
        show (Gen.segs m (outs m) 𝒱₀ L lv E () (pdats m) (reg0 m) (reg1 m) (reg2 m) c).map Pipeline.Seg.prog = [
          Prog.lift (.customCall (Pipeline.entry 0) ()),
          Prog.lift (.customCall (Pipeline.entry 1) ()),
          Prog.lift (.customCall (Pipeline.entry 2) ()),
          StableHlo.seq hostOps3,
          StableHlo.seq hostOps3_1,
          StableHlo.seq hostOps3_2 ] from rfl]
      exact .rfl)
    (fun c => by simp only [Gen.segs, Pipeline.Seg.pipes_host, Pipeline.Seg.pipes_region, Pipeline.Seg.pipes_nil]; decide)
    0 (fun _ _ => rfl) (fun _ => iprop(emp)) u₀ hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V6 m (outs m) c))
    (hch := fun c => ⟨.rfl, .rfl, .rfl, .rfl, .rfl, .rfl, sep_mono .rfl (hE3 c)⟩)
    (hinit := ?_)
    (QY := fun c s => ∀ b ∈ Pipeline.ucRefs τ sig, s.mem ((c : Thread nD τ).1, b) = Gen.V6 m (outs m) c b)
    (hfin := fun c s' => ?_) (hQ := fun _ h => h)
  · -- the launch: the unscoped buffers are held at the launch contents; the rest makes `R` on every core
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: every unscoped buffer read off the last valuation
    unfold StableHlo.held
    iintro ⟨Hh, HSI⟩
    imodintro
    iapply (pointsTo_read_all (Pipeline.ucRefs τ sig) (fun b => ((c : Thread nD τ).1, b)) (Gen.V6 m (outs m) c) s')
    isplitl [Hh] <;> iassumption

end Cert.KernelIdeal.Hand

end
-- ==== Proof.Spec.lean ====
/-
  The reference's result as named whole-array functions of its ten arguments, operation for operation as its
  program applies them (at any float instance): the causal mask, a row-wise softmax, single-head attention with its
  output projection and residual, the LayerNorm over the last axis (mean, the variance as the mean of squared
  deviations under its "normaliser positive" guard, the reciprocal square root), and the two feed-forward layers.
  The reference's run is stated against `whole`; the kernel's regions are compared with the stages one at a time.
-/
import proofs.«129914_j85323820303106_1_alg».proof.ReferenceIdeal

noncomputable section

namespace Cert.ReferenceIdeal.Spec

open Idealize.ShloMosaic Cert.ReferenceIdeal Cert.ReferenceIdeal.Facts₀ Cert.ReferenceIdeal.Facts

variable {F : FTy → Type} [FloatOps F] [Facts]

/-- A float tensor of shape `S` as the host program holds it. -/
abbrev T (F : FTy → Type) (S : Shape) : Type := (⟨S, .f32⟩ : BufTy).Contents (Elt F)

/-- A scalar constant spread over a 32×32 tile. -/
abbrev fill32 (w : BitVec 32) : T F S32x32 := broadcastInDim S32x32 ![] bcast_S_S32x32 (constant S_ .f32 w)

/-- The causal mask: 2 where row ≥ column and 0 elsewhere, minus 1, times 100000 — so +100000 on and below the
    diagonal and −100000 above it. -/
def mask : T F S32x32 :=
  mulf (subf (select (cmpi .sge (addi (iotaInDim S32x32 32 0) (broadcastInDim S32x32 ![] bcast_S_S32x32 (constantI S_ 32 0#32))) (iotaInDim S32x32 32 1))
      (fill32 0x40000000#32) (fill32 0x00000000#32)) (fill32 0x3F800000#32)) (fill32 0x47C35000#32)

/-- A row vector [32] as a column [32,1], then spread along the row of a 32×32 tile. -/
abbrev alongRow32 (v : T F S32) : T F S32x32 :=
  broadcastInDim S32x32 ![0, 1] bcast_S32x1_S32x32_0_1 (broadcastInDim S32x1 ![0] bcast_S32_S32x1_0 v)

/-- The row maxima of a 32×32 tile (guarded from below by −∞, as the softmax's lowering does). -/
def rowMax (s : T F S32x32) : T F S32 :=
  maximumf (broadcastInDim S32 ![] bcast_S_S32 (constant S_ .f32 0xFF800000#32))
    (Host.reduce FloatOps.maximumf s (constant S_ .f32 0xFF800000#32) reducesTo_S32x32_S32_d1 h_S_)

/-- exp (s − rowmax s). -/
def expShift (s : T F S32x32) : T F S32x32 := Host.exp (subf s (alongRow32 (rowMax s)))

/-- The softmax along each row: exp (s − rowmax) over its row sum. -/
def softmax (s : T F S32x32) : T F S32x32 :=
  Host.divf (expShift s) (alongRow32 (Host.reduceAdd (expShift s) (constant S_ .f32 0x00000000#32) reducesTo_S32x32_S32_d1 h_S_))

/-- The masked attention logits: min (q · kᵀ, mask) with k = x · wk and q = x · wq. -/
def scores (x : T F S32x8192) (wk wq : T F S8192x64) : T F S32x32 :=
  minimumf (Host.dotGeneral dot_S32x64_S64x32_S32x32_1_0_0_1_n_n none
      (Host.dotGeneral dot_S32x8192_S8192x64_S32x64_1_0_0_1_n_n none x wq)
      (transpose S64x32 [1, 0] (Host.dotGeneral dot_S32x8192_S8192x64_S32x64_1_0_0_1_n_n none x wk) transposes_S32x64_S64x32_1_0))
    mask

/-- A bias [8192] spread over the 32 rows. -/
abbrev overRows (b : T F S8192) : T F S32x8192 :=
  broadcastInDim S32x8192 ![0, 1] bcast_S1x8192_S32x8192_0_1 (broadcastInDim S1x8192 ![1] bcast_S8192_S1x8192_1 b)

/-- The residual stream before the first LayerNorm: x + ((softmax scores) · (x · wv)) · w1 + b1. -/
def preNorm (x : T F S32x8192) (wk wq wv : T F S8192x64) (w1 : T F S64x8192) (b1 : T F S8192) : T F S32x8192 :=
  addf x (addf (Host.dotGeneral dot_S32x64_S64x8192_S32x8192_1_0_0_1_n_n none
      (Host.dotGeneral dot_S32x32_S32x64_S32x64_1_0_0_1_n_n none (softmax (scores x wk wq))
        (Host.dotGeneral dot_S32x8192_S8192x64_S32x64_1_0_0_1_n_n none x wv)) w1) (overRows b1))

/-- A column [32,1] spread along the rows of a 32×8192 array. -/
abbrev alongRow (v : T F S32x1) : T F S32x8192 := broadcastInDim S32x8192 ![0, 1] bcast_S32x1_S32x8192_0_1 v

/-- A scalar spread over a column [32,1]. -/
abbrev col (v : T F S_) : T F S32x1 := broadcastInDim S32x1 ![] bcast_S_S32x1 v

/-- The row sums of a 32×8192 array, as a column. -/
abbrev rowSum (u : T F S32x8192) : T F S32x1 :=
  broadcastInDim S32x1 ![0] bcast_S32_S32x1_0 (Host.reduceAdd u (constant S_ .f32 0x00000000#32) reducesTo_S32x8192_S32_d1 h_S_)

/-- The row means: row sums over 8192. -/
def mean (u : T F S32x8192) : T F S32x1 := Host.divf (rowSum u) (col (constant S_ .f32 0x46000000#32))

/-- The variance's normaliser: 8192 minus the (integer, zero) degrees-of-freedom correction. -/
def normaliser : T F S_ := subf (constant S_ .f32 0x46000000#32) (sitofp .f32 (constantI S_ 32 0#32 : (⟨S_, .i32⟩ : BufTy).Contents (Elt F)))

/-- The squared deviations from the row mean. -/
def sqDev (u : T F S32x8192) : T F S32x8192 := mulf (subf u (alongRow (mean u))) (subf u (alongRow (mean u)))

/-- The row variances: the sum of squared deviations over the normaliser where the normaliser is positive, else the
    quiet-NaN pattern. -/
def variance (u : T F S32x8192) : T F S32x1 :=
  select (broadcastInDim S32x1 ![] bcast_S_S32x1 (cmpf .ogt (normaliser (F := F)) (constant S_ .f32 0x00000000#32)))
    (Host.divf (rowSum (sqDev u)) (col normaliser))
    (col (id (constant S_ .f32 0x7FC00000#32)))

/-- LayerNorm over the last axis, no affine part: (u − mean) · rsqrt (variance + ε). -/
def layerNorm (u : T F S32x8192) : T F S32x8192 :=
  mulf (subf u (alongRow (mean u))) (alongRow (Host.rsqrt (addf (variance u) (col (constant S_ .f32 0x3727C5AC#32)))))

/-- Stage 1: attention, projection, residual, LayerNorm. -/
def stage1 (x : T F S32x8192) (wk wq wv : T F S8192x64) (w1 : T F S64x8192) (b1 : T F S8192) : T F S32x8192 :=
  layerNorm (preNorm x wk wq wv w1 b1)

/-- A dense layer y · w + b over the full 8192-long contraction. -/
def dense (y : T F S32x8192) (w : T F S8192x8192) (b : T F S8192) : T F S32x8192 :=
  addf (Host.dotGeneral dot_S32x8192_S8192x8192_S32x8192_1_0_0_1_n_n none y w) (overRows b)

/-- The first feed-forward layer: max (y · w2 + b2, 0). -/
def ffn1 (y : T F S32x8192) (w2 : T F S8192x8192) (b2 : T F S8192) : T F S32x8192 :=
  maximumf (dense y w2 b2) (broadcastInDim S32x8192 ![] bcast_S_S32x8192 (constant S_ .f32 0x00000000#32))

/-- The second feed-forward layer: z · w3 + b3. -/
def ffn2 (z : T F S32x8192) (w3 : T F S8192x8192) (b3 : T F S8192) : T F S32x8192 := dense z w3 b3

/-- The last residual and LayerNorm. -/
def finish (y z : T F S32x8192) : T F S32x8192 := layerNorm (addf y z)

/-- The whole reference. -/
def whole (x : T F S32x8192) (wk wq wv : T F S8192x64) (w1 : T F S64x8192) (b1 : T F S8192)
    (w2 : T F S8192x8192) (b2 : T F S8192) (w3 : T F S8192x8192) (b3 : T F S8192) : T F S32x8192 :=
  finish (stage1 x wk wq wv w1 b1) (ffn2 (ffn1 (stage1 x wk wq wv w1 b1) w2 b2) w3 b3)

end Cert.ReferenceIdeal.Spec

end
-- ==== Proof.RefRun.lean ====
/-
  The reference's run, read back against its named stages.

  @main is a straight line of 131 whole-array operations once its four calls are unfolded in place (the causal mask's
  lower-triangle helper, the variance helper twice — which itself calls the scalar-guarded select —, and the
  rectifier). The line is listed in five consecutive stretches, one per stage of the computation:

    mask   — the constant ±100000 causal mask;
    attn   — the three projections, the masked logits, the row softmax, the output projection, bias and residual;
    norm1  — the first LayerNorm (mean, guarded variance, reciprocal square root);
    ffn    — the two dense layers with the rectifier between them;
    norm2  — the last residual and the second LayerNorm.

  Each stretch's result buffer is read back as the stage function of the contents the stretch found (the fold of the
  operations' results is a computation; the stage functions are those operations composed, so the two sides agree by
  unfolding), every buffer a stretch does not write keeps its contents, and the five facts chain to the whole function
  of the ten arguments.
-/
import proofs.«129914_j85323820303106_1_alg».proof.Proof.Spec
import Idealize.ShloMosaic.Lib.StableHlo.Run

noncomputable section

namespace Cert.ReferenceIdeal.Hand

open Cert.ReferenceIdeal Cert.ReferenceIdeal.Facts₀ Cert.ReferenceIdeal.Facts
open Idealize.ShloMosaic Idealize.ShloMosaic.TcCoe Idealize.SL.Sem Idealize.ShloMosaic.StableHlo

variable {F : FTy → Type} [FloatOps F] [Facts]

/-! ## The operations, stretch by stretch -/

/-- The causal mask: 2 on and below the diagonal and 0 above it (the lower-triangle helper's nine operations in
    place), minus 1, times 100000. -/
abbrev opsMask : List (HloOp τ sig (Elt F)) :=
  [ nullary main_cst (constant S_ .f32 0x40000000#32),
    unary main_cst main_v0 (broadcastInDim S32x32 ![] bcast_S_S32x32 : Spec.T F S_ → Spec.T F S32x32),
    TRef.nullary main_call0.v0 (iotaInDim S32x32 32 0),
    TRef.nullary main_call0.c (constantI S_ 32 0#32),
    TRef.unary main_call0.c main_call0.v1 (broadcastInDim S32x32 ![] bcast_S_S32x32),
    TRef.binary main_call0.v0 main_call0.v1 main_call0.v2 addi,
    TRef.nullary main_call0.v3 (iotaInDim S32x32 32 1),
    TRef.binary main_call0.v2 main_call0.v3 main_call0.v4 (cmpi .sge),
    TRef.nullary main_call0.cst (constant S_ .f32 0x00000000#32),
    TRef.unary main_call0.cst main_call0.v5 (broadcastInDim S32x32 ![] bcast_S_S32x32),
    TRef.ternary main_call0.v4 (.of main_v0) main_call0.v5 main_call0.v6 select,
    nullary main_cst_0 (constant S_ .f32 0x3F800000#32),
    unary main_cst_0 main_v2 (broadcastInDim S32x32 ![] bcast_S_S32x32 : Spec.T F S_ → Spec.T F S32x32),
    binary main_v1 main_v2 main_v3 (subf : Spec.T F S32x32 → Spec.T F S32x32 → Spec.T F S32x32),
    nullary main_cst_1 (constant S_ .f32 0x47C35000#32),
    unary main_cst_1 main_v4 (broadcastInDim S32x32 ![] bcast_S_S32x32 : Spec.T F S_ → Spec.T F S32x32),
    binary main_v3 main_v4 main_v5 (mulf : Spec.T F S32x32 → Spec.T F S32x32 → Spec.T F S32x32) ]

/-- Attention: k, q, v = x·wk, x·wq, x·wv; the logits q·kᵀ capped by the mask; the row softmax (row maximum guarded by
    −∞, shifted exponential, row sum, quotient); (softmax·v)·w1 + b1; the residual x + that. -/
abbrev opsAttn : List (HloOp τ sig (Elt F)) :=
  [ binary main_arg0 main_arg1 main_v6 (fun l r => Host.dotGeneral dot_S32x8192_S8192x64_S32x64_1_0_0_1_n_n none l r : Spec.T F S32x8192 → Spec.T F S8192x64 → Spec.T F S32x64),
    binary main_arg0 main_arg2 main_v7 (fun l r => Host.dotGeneral dot_S32x8192_S8192x64_S32x64_1_0_0_1_n_n none l r : Spec.T F S32x8192 → Spec.T F S8192x64 → Spec.T F S32x64),
    binary main_arg0 main_arg3 main_v8 (fun l r => Host.dotGeneral dot_S32x8192_S8192x64_S32x64_1_0_0_1_n_n none l r : Spec.T F S32x8192 → Spec.T F S8192x64 → Spec.T F S32x64),
    unary main_v6 main_v9 ((transpose S64x32 [1, 0] · transposes_S32x64_S64x32_1_0) : Spec.T F S32x64 → Spec.T F S64x32),
    binary main_v7 main_v9 main_v10 (fun l r => Host.dotGeneral dot_S32x64_S64x32_S32x32_1_0_0_1_n_n none l r : Spec.T F S32x64 → Spec.T F S64x32 → Spec.T F S32x32),
    binary main_v10 main_v5 main_v11 (minimumf : Spec.T F S32x32 → Spec.T F S32x32 → Spec.T F S32x32),
    nullary main_cst_2 (constant S_ .f32 0xFF800000#32),
    binary main_v11 main_cst_2 main_v12 (fun x v => Host.reduce FloatOps.maximumf x v reducesTo_S32x32_S32_d1 h_S_ : Spec.T F S32x32 → Spec.T F S_ → Spec.T F S32),
    nullary main_cst_3 (constant S_ .f32 0xFF800000#32),
    unary main_cst_3 main_v13 (broadcastInDim S32 ![] bcast_S_S32 : Spec.T F S_ → Spec.T F S32),
    binary main_v13 main_v12 main_v14 (maximumf : Spec.T F S32 → Spec.T F S32 → Spec.T F S32),
    unary main_v14 main_v15 (broadcastInDim S32x1 ![0] bcast_S32_S32x1_0 : Spec.T F S32 → Spec.T F S32x1),
    unary main_v15 main_v16 (broadcastInDim S32x32 ![0, 1] bcast_S32x1_S32x32_0_1 : Spec.T F S32x1 → Spec.T F S32x32),
    binary main_v11 main_v16 main_v17 (subf : Spec.T F S32x32 → Spec.T F S32x32 → Spec.T F S32x32),
    unary main_v17 main_v18 (Host.exp : Spec.T F S32x32 → Spec.T F S32x32),
    nullary main_cst_4 (constant S_ .f32 0x00000000#32),
    binary main_v18 main_cst_4 main_v19 (fun x v => Host.reduceAdd x v reducesTo_S32x32_S32_d1 h_S_ : Spec.T F S32x32 → Spec.T F S_ → Spec.T F S32),
    unary main_v19 main_v20 (broadcastInDim S32x1 ![0] bcast_S32_S32x1_0 : Spec.T F S32 → Spec.T F S32x1),
    unary main_v20 main_v21 (broadcastInDim S32x32 ![0, 1] bcast_S32x1_S32x32_0_1 : Spec.T F S32x1 → Spec.T F S32x32),
    binary main_v18 main_v21 main_v22 (Host.divf : Spec.T F S32x32 → Spec.T F S32x32 → Spec.T F S32x32),
    binary main_v22 main_v8 main_v23 (fun l r => Host.dotGeneral dot_S32x32_S32x64_S32x64_1_0_0_1_n_n none l r : Spec.T F S32x32 → Spec.T F S32x64 → Spec.T F S32x64),
    binary main_v23 main_arg4 main_v24 (fun l r => Host.dotGeneral dot_S32x64_S64x8192_S32x8192_1_0_0_1_n_n none l r : Spec.T F S32x64 → Spec.T F S64x8192 → Spec.T F S32x8192),
    unary main_arg5 main_v25 (broadcastInDim S1x8192 ![1] bcast_S8192_S1x8192_1 : Spec.T F S8192 → Spec.T F S1x8192),
    unary main_v25 main_v26 (broadcastInDim S32x8192 ![0, 1] bcast_S1x8192_S32x8192_0_1 : Spec.T F S1x8192 → Spec.T F S32x8192),
    binary main_v24 main_v26 main_v27 (addf : Spec.T F S32x8192 → Spec.T F S32x8192 → Spec.T F S32x8192),
    binary main_arg0 main_v27 main_v28 (addf : Spec.T F S32x8192 → Spec.T F S32x8192 → Spec.T F S32x8192) ]

/-- The first LayerNorm of the residual stream u: the row mean; the variance helper's twenty operations and its
    guarded select's three, in place (row mean again, squared deviations, the normaliser 8192 − 0, their quotient
    where the normaliser is positive); then (u − mean) · rsqrt (variance + ε). -/
abbrev opsNorm1 : List (HloOp τ sig (Elt F)) :=
  [ nullary main_cst_5 (constant S_ .f32 0x00000000#32),
    binary main_v28 main_cst_5 main_v29 (fun x v => Host.reduceAdd x v reducesTo_S32x8192_S32_d1 h_S_ : Spec.T F S32x8192 → Spec.T F S_ → Spec.T F S32),
    unary main_v29 main_v30 (broadcastInDim S32x1 ![0] bcast_S32_S32x1_0 : Spec.T F S32 → Spec.T F S32x1),
    nullary main_cst_6 (constant S_ .f32 0x46000000#32),
    unary main_cst_6 main_v31 (broadcastInDim S32x1 ![] bcast_S_S32x1 : Spec.T F S_ → Spec.T F S32x1),
    binary main_v30 main_v31 main_v32 (Host.divf : Spec.T F S32x1 → Spec.T F S32x1 → Spec.T F S32x1),
    nullary main_c (constantI S_ 32 0#32),
    TRef.nullary main_call1.cst (constant S_ .f32 0x00000000#32),
    TRef.binary (.of main_v28) main_call1.cst main_call1.v0 (fun x v => Host.reduceAdd x v reducesTo_S32x8192_S32_d1 h_S_),
    TRef.unary main_call1.v0 main_call1.v1 (broadcastInDim S32x1 ![0] bcast_S32_S32x1_0),
    TRef.nullary main_call1.cst_0 (constant S_ .f32 0x46000000#32),
    TRef.unary main_call1.cst_0 main_call1.v2 (broadcastInDim S32x1 ![] bcast_S_S32x1),
    TRef.binary main_call1.v1 main_call1.v2 main_call1.v3 Host.divf,
    TRef.unary main_call1.v3 main_call1.v4 (broadcastInDim S32x8192 ![0, 1] bcast_S32x1_S32x8192_0_1),
    TRef.binary (.of main_v28) main_call1.v4 main_call1.v5 subf,
    TRef.binary main_call1.v5 main_call1.v5 main_call1.v6 mulf,
    TRef.unary (.of main_c) main_call1.v7 (sitofp .f32),
    TRef.nullary main_call1.cst_1 (constant S_ .f32 0x46000000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S32x8192_S32_d1 h_S_),
    TRef.unary main_call1.v9 main_call1.v10 (broadcastInDim S32x1 ![0] bcast_S32_S32x1_0),
    TRef.unary main_call1.v8 main_call1.v11 (broadcastInDim S32x1 ![] bcast_S_S32x1),
    TRef.binary main_call1.v10 main_call1.v11 main_call1.v12 Host.divf,
    TRef.nullary main_call1.cst_3 (constant S_ .f32 0x00000000#32),
    TRef.binary main_call1.v8 main_call1.cst_3 main_call1.v13 (cmpf .ogt),
    TRef.nullary main_call1.cst_4 (constant S_ .f32 0x7FC00000#32),
    TRef.unary main_call1.cst_4 main_call1.call0.v0 id,
    TRef.unary main_call1.call0.v0 main_call1.call0.v1 (broadcastInDim S32x1 ![] bcast_S_S32x1),
    TRef.ternary main_call1.v13 main_call1.v12 main_call1.call0.v1 main_call1.call0.v2 (fun p a b => select (broadcastInDim S32x1 ![] bcast_S_S32x1 p) a b),
    unary main_v32 main_v34 (broadcastInDim S32x8192 ![0, 1] bcast_S32x1_S32x8192_0_1 : Spec.T F S32x1 → Spec.T F S32x8192),
    binary main_v28 main_v34 main_v35 (subf : Spec.T F S32x8192 → Spec.T F S32x8192 → Spec.T F S32x8192),
    nullary main_cst_7 (constant S_ .f32 0x3727C5AC#32),
    unary main_cst_7 main_v36 (broadcastInDim S32x1 ![] bcast_S_S32x1 : Spec.T F S_ → Spec.T F S32x1),
    binary main_v33 main_v36 main_v37 (addf : Spec.T F S32x1 → Spec.T F S32x1 → Spec.T F S32x1),
    unary main_v37 main_v38 (Host.rsqrt : Spec.T F S32x1 → Spec.T F S32x1),
    unary main_v38 main_v39 (broadcastInDim S32x8192 ![0, 1] bcast_S32x1_S32x8192_0_1 : Spec.T F S32x1 → Spec.T F S32x8192),
    binary main_v35 main_v39 main_v40 (mulf : Spec.T F S32x8192 → Spec.T F S32x8192 → Spec.T F S32x8192) ]

/-- The feed-forward layers: y·w2 + b2, the rectifier's three operations in place (max with a zero array), then
    ·w3 + b3. -/
abbrev opsFfn : List (HloOp τ sig (Elt F)) :=
  [ binary main_v40 main_arg6 main_v41 (fun l r => Host.dotGeneral dot_S32x8192_S8192x8192_S32x8192_1_0_0_1_n_n none l r : Spec.T F S32x8192 → Spec.T F S8192x8192 → Spec.T F S32x8192),
    unary main_arg7 main_v42 (broadcastInDim S1x8192 ![1] bcast_S8192_S1x8192_1 : Spec.T F S8192 → Spec.T F S1x8192),
    unary main_v42 main_v43 (broadcastInDim S32x8192 ![0, 1] bcast_S1x8192_S32x8192_0_1 : Spec.T F S1x8192 → Spec.T F S32x8192),
    binary main_v41 main_v43 main_v44 (addf : Spec.T F S32x8192 → Spec.T F S32x8192 → Spec.T F S32x8192),
    TRef.nullary main_call2.cst (constant S_ .f32 0x00000000#32),
    TRef.unary main_call2.cst main_call2.v0 (broadcastInDim S32x8192 ![] bcast_S_S32x8192),
    TRef.binary (.of main_v44) main_call2.v0 main_call2.v1 maximumf,
    binary main_v45 main_arg8 main_v46 (fun l r => Host.dotGeneral dot_S32x8192_S8192x8192_S32x8192_1_0_0_1_n_n none l r : Spec.T F S32x8192 → Spec.T F S8192x8192 → Spec.T F S32x8192),
    unary main_arg9 main_v47 (broadcastInDim S1x8192 ![1] bcast_S8192_S1x8192_1 : Spec.T F S8192 → Spec.T F S1x8192),
    unary main_v47 main_v48 (broadcastInDim S32x8192 ![0, 1] bcast_S1x8192_S32x8192_0_1 : Spec.T F S1x8192 → Spec.T F S32x8192),
    binary main_v46 main_v48 main_v49 (addf : Spec.T F S32x8192 → Spec.T F S32x8192 → Spec.T F S32x8192) ]

/-- The last residual y + z and its LayerNorm, operation for operation as the first. -/
abbrev opsNorm2 : List (HloOp τ sig (Elt F)) :=
  [ binary main_v40 main_v49 main_v50 (addf : Spec.T F S32x8192 → Spec.T F S32x8192 → Spec.T F S32x8192),
    nullary main_cst_8 (constant S_ .f32 0x00000000#32),
    binary main_v50 main_cst_8 main_v51 (fun x v => Host.reduceAdd x v reducesTo_S32x8192_S32_d1 h_S_ : Spec.T F S32x8192 → Spec.T F S_ → Spec.T F S32),
    unary main_v51 main_v52 (broadcastInDim S32x1 ![0] bcast_S32_S32x1_0 : Spec.T F S32 → Spec.T F S32x1),
    nullary main_cst_9 (constant S_ .f32 0x46000000#32),
    unary main_cst_9 main_v53 (broadcastInDim S32x1 ![] bcast_S_S32x1 : Spec.T F S_ → Spec.T F S32x1),
    binary main_v52 main_v53 main_v54 (Host.divf : Spec.T F S32x1 → Spec.T F S32x1 → Spec.T F S32x1),
    nullary main_c_10 (constantI S_ 32 0#32),
    TRef.nullary main_call3.cst (constant S_ .f32 0x00000000#32),
    TRef.binary (.of main_v50) main_call3.cst main_call3.v0 (fun x v => Host.reduceAdd x v reducesTo_S32x8192_S32_d1 h_S_),
    TRef.unary main_call3.v0 main_call3.v1 (broadcastInDim S32x1 ![0] bcast_S32_S32x1_0),
    TRef.nullary main_call3.cst_0 (constant S_ .f32 0x46000000#32),
    TRef.unary main_call3.cst_0 main_call3.v2 (broadcastInDim S32x1 ![] bcast_S_S32x1),
    TRef.binary main_call3.v1 main_call3.v2 main_call3.v3 Host.divf,
    TRef.unary main_call3.v3 main_call3.v4 (broadcastInDim S32x8192 ![0, 1] bcast_S32x1_S32x8192_0_1),
    TRef.binary (.of main_v50) main_call3.v4 main_call3.v5 subf,
    TRef.binary main_call3.v5 main_call3.v5 main_call3.v6 mulf,
    TRef.unary (.of main_c_10) main_call3.v7 (sitofp .f32),
    TRef.nullary main_call3.cst_1 (constant S_ .f32 0x46000000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S32x8192_S32_d1 h_S_),
    TRef.unary main_call3.v9 main_call3.v10 (broadcastInDim S32x1 ![0] bcast_S32_S32x1_0),
    TRef.unary main_call3.v8 main_call3.v11 (broadcastInDim S32x1 ![] bcast_S_S32x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S32x1 ![] bcast_S_S32x1),
    TRef.ternary main_call3.v13 main_call3.v12 main_call3.call0.v1 main_call3.call0.v2 (fun p a b => select (broadcastInDim S32x1 ![] bcast_S_S32x1 p) a b),
    unary main_v54 main_v56 (broadcastInDim S32x8192 ![0, 1] bcast_S32x1_S32x8192_0_1 : Spec.T F S32x1 → Spec.T F S32x8192),
    binary main_v50 main_v56 main_v57 (subf : Spec.T F S32x8192 → Spec.T F S32x8192 → Spec.T F S32x8192),
    nullary main_cst_11 (constant S_ .f32 0x3727C5AC#32),
    unary main_cst_11 main_v58 (broadcastInDim S32x1 ![] bcast_S_S32x1 : Spec.T F S_ → Spec.T F S32x1),
    binary main_v55 main_v58 main_v59 (addf : Spec.T F S32x1 → Spec.T F S32x1 → Spec.T F S32x1),
    unary main_v59 main_v60 (Host.rsqrt : Spec.T F S32x1 → Spec.T F S32x1),
    unary main_v60 main_v61 (broadcastInDim S32x8192 ![0, 1] bcast_S32x1_S32x8192_0_1 : Spec.T F S32x1 → Spec.T F S32x8192),
    binary main_v57 main_v61 main_v62 (mulf : Spec.T F S32x8192 → Spec.T F S32x8192 → Spec.T F S32x8192) ]

/-- @main's first sixty statements are the first four stretches, its last eighteen the fifth. -/
abbrev ops0 : List (HloOp τ sig (Elt F)) := opsMask ++ (opsAttn ++ (opsNorm1 ++ opsFfn))
/-- The whole line: 131 operations. -/
abbrev ops : List (HloOp τ sig (Elt F)) := ops0 ++ opsNorm2

/-! ## @main is that line -/

set_option maxRecDepth 8192 in
set_option maxHeartbeats 1600000 in
/-- The first sixty statements: the helpers' definitions unfolded at their calls, sequencing reassociated, both sides are
    one chain of steps. -/
theorem part0_eq (c : Dev nD) : main_part0 (F := F) c = seq ops0 := by
  simp only [main_part0, fn_tril.body, fn_var.body, fn_where.body, fn_relu.body, ops0, opsMask, opsAttn, opsNorm1, opsFfn,
    seq_append, seq, bind_assoc, pure_bind]
  rfl

set_option maxRecDepth 8192 in
set_option maxHeartbeats 1600000 in
/-- The last eighteen. -/
theorem part1_eq (c : Dev nD) : main_part1 (F := F) c = seq opsNorm2 := by
  simp only [main_part1, fn_var.body, fn_where.body, opsNorm2, seq, bind_assoc, pure_bind]

/-- @main runs its two parts in order, and a line run after a line is their concatenation run as one. -/
theorem main_eq (c : Dev nD) : main (F := F) c = seq ops := by
  simp only [main, ops, seq_append, part0_eq, part1_eq]

/-! ## What each stretch leaves -/

/-- The fold over two stretches run one after the other is the second's over the first's. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

set_option maxRecDepth 8192 in
set_option maxHeartbeats 1600000 in
/-- The mask stretch leaves the causal mask, whatever it found. -/
theorem mask_out (V : Valuation τ sig (Elt F)) : after opsMask V (main_v5 : DevRef τ sig) = Spec.mask := by
  simp only [opsMask]
  after_results_simp
  rfl

set_option maxRecDepth 8192 in
set_option maxHeartbeats 1600000 in
/-- The attention stretch, entered with the mask in place, leaves the residual stream before the first LayerNorm. -/
theorem attn_out (V : Valuation τ sig (Elt F)) (hmask : V (main_v5 : DevRef τ sig) = Spec.mask) :
    after opsAttn V (main_v28 : DevRef τ sig)
      = Spec.preNorm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [opsAttn]
  after_results_simp
  rw [hmask]
  rfl

set_option maxRecDepth 8192 in
set_option maxHeartbeats 1600000 in
/-- The first LayerNorm stretch leaves the LayerNorm of the residual stream it found. -/
theorem norm1_out (V : Valuation τ sig (Elt F)) :
    after opsNorm1 V (main_v40 : DevRef τ sig) = Spec.layerNorm (V (main_v28 : DevRef τ sig)) := by
  simp only [opsNorm1]
  after_results_simp
  rfl

set_option maxRecDepth 8192 in
set_option maxHeartbeats 1600000 in
/-- The feed-forward stretch leaves the second dense layer of the rectified first. -/
theorem ffn_out (V : Valuation τ sig (Elt F)) :
    after opsFfn V (main_v49 : DevRef τ sig)
      = Spec.ffn2 (Spec.ffn1 (V (main_v40 : DevRef τ sig)) (V (main_arg6 : DevRef τ sig)) (V (main_arg7 : DevRef τ sig)))
          (V (main_arg8 : DevRef τ sig)) (V (main_arg9 : DevRef τ sig)) := by
  simp only [opsFfn]
  after_results_simp
  rfl

set_option maxRecDepth 8192 in
set_option maxHeartbeats 1600000 in
/-- The last stretch leaves the LayerNorm of the sum of the two arrays it found. -/
theorem norm2_out (V : Valuation τ sig (Elt F)) :
    after opsNorm2 V (main_v62 : DevRef τ sig) = Spec.finish (V (main_v40 : DevRef τ sig)) (V (main_v49 : DevRef τ sig)) := by
  simp only [opsNorm2]
  after_results_simp
  rfl

/-! ## What each stretch touches

Per stretch, the list of the buffers it writes, and of each of its operations three facts at once: it touches TensorCore
references only, it determines its results, and the one buffer it writes is in the stretch's list. -/

/-- What is asked of an operation of a stretch whose written buffers are `W`. -/
def Plain (W : List (Ref sig .tc)) (op : HloOp τ sig (Elt F)) : Prop :=
  op.bufs ⊆ tcRefs τ sig ∧ op.fresh = ∅ ∧ op.writes ⊆ (W.map (Proc.devRef (τ := τ) .tc)).toFinset

/-- A result buffer in the list is written inside the list. -/
theorem writes_in {W : List (Ref sig .tc)} {y : Ref sig .tc} (hy : y ∈ W) :
    ({Proc.devRef (.tc : Proc τ) y} : Finset (DevRef τ sig)) ⊆ (W.map (Proc.devRef (τ := τ) .tc)).toFinset := by
  rw [Finset.singleton_subset_iff, List.mem_toFinset]
  exact List.mem_map_of_mem hy

section Builders

variable {W : List (Ref sig .tc)} (x a b c y : Ref sig .tc)

/-- The builders of each arity are plain once their result buffer is in the list. -/
theorem plain_nullary (v : y.ty.Contents (Elt F)) (hy) (h : y ∈ W) : Plain W (nullary (τ := τ) y v hy) :=
  ⟨nullary_bufs_sub .., rfl, writes_in h⟩
theorem plain_unary (f : x.ty.Contents (Elt F) → y.ty.Contents (Elt F)) (hx hy) (h : y ∈ W) : Plain W (unary (τ := τ) x y f hx hy) :=
  ⟨unary_bufs_sub .., rfl, writes_in h⟩
theorem plain_binary (f : a.ty.Contents (Elt F) → b.ty.Contents (Elt F) → y.ty.Contents (Elt F)) (ha hb hy) (h : y ∈ W) :
    Plain W (binary (τ := τ) a b y f ha hb hy) :=
  ⟨binary_bufs_sub .., rfl, writes_in h⟩
theorem plain_ternary (f : c.ty.Contents (Elt F) → a.ty.Contents (Elt F) → b.ty.Contents (Elt F) → y.ty.Contents (Elt F)) (hc ha hb hy)
    (h : y ∈ W) : Plain W (ternary (τ := τ) c a b y f hc ha hb hy) :=
  ⟨ternary_bufs_sub .., rfl, writes_in h⟩

end Builders

/-- A fact of every operation of two stretches is one of their concatenation's. -/
theorem forall_app {p : HloOp τ sig (Elt F) → Prop} {l₁ l₂ : List (HloOp τ sig (Elt F))} (h₁ : l₁.Forall p) (h₂ : l₂.Forall p) :
    (l₁ ++ l₂).Forall p := by
  rw [List.forall_iff_forall_mem] at h₁ h₂ ⊢
  intro x hx
  rcases List.mem_append.mp hx with h | h
  · exact h₁ x h
  · exact h₂ x h

/-- An operation of no, one, two, three operands, its result buffer found in the stretch's list. -/
local macro "n!" : term => `(plain_nullary _ _ _ (by decide))
local macro "u!" : term => `(plain_unary _ _ _ _ _ (by decide))
local macro "b!" : term => `(plain_binary _ _ _ _ _ _ _ (by decide))
local macro "t!" : term => `(plain_ternary _ _ _ _ _ _ _ _ _ (by decide))

/-- The buffers each stretch writes: one per operation, in order. -/
abbrev wMask : List (Ref sig .tc) :=
  [main_cst, main_v0, main_call0_v0, main_call0_c, main_call0_v1, main_call0_v2, main_call0_v3, main_call0_v4, main_call0_cst,
    main_call0_v5, main_v1, main_cst_0, main_v2, main_v3, main_cst_1, main_v4, main_v5]

abbrev wAttn : List (Ref sig .tc) :=
  [main_v6, main_v7, main_v8, main_v9, main_v10, main_v11, main_cst_2, main_v12, main_cst_3, main_v13, main_v14, main_v15, main_v16,
    main_v17, main_v18, main_cst_4, main_v19, main_v20, main_v21, main_v22, main_v23, main_v24, main_v25, main_v26, main_v27, main_v28]

abbrev wNorm1 : List (Ref sig .tc) :=
  [main_cst_5, main_v29, main_v30, main_cst_6, main_v31, main_v32, main_c,
    main_call1_cst, main_call1_v0, main_call1_v1, main_call1_cst_0, main_call1_v2, main_call1_v3, main_call1_v4, main_call1_v5,
    main_call1_v6, main_call1_v7, main_call1_cst_1, main_call1_v8, main_call1_cst_2, main_call1_v9, main_call1_v10, main_call1_v11,
    main_call1_v12, main_call1_cst_3, main_call1_v13, main_call1_cst_4, main_call1_call0_v0, main_call1_call0_v1, main_v33,
    main_v34, main_v35, main_cst_7, main_v36, main_v37, main_v38, main_v39, main_v40]

abbrev wFfn : List (Ref sig .tc) :=
  [main_v41, main_v42, main_v43, main_v44, main_call2_cst, main_call2_v0, main_v45, main_v46, main_v47, main_v48, main_v49]

abbrev wNorm2 : List (Ref sig .tc) :=
  [main_v50, main_cst_8, main_v51, main_v52, main_cst_9, main_v53, main_v54, main_c_10,
    main_call3_cst, main_call3_v0, main_call3_v1, main_call3_cst_0, main_call3_v2, main_call3_v3, main_call3_v4, main_call3_v5,
    main_call3_v6, main_call3_v7, main_call3_cst_1, main_call3_v8, main_call3_cst_2, main_call3_v9, main_call3_v10, main_call3_v11,
    main_call3_v12, main_call3_cst_3, main_call3_v13, main_call3_cst_4, main_call3_call0_v0, main_call3_call0_v1, main_v55,
    main_v56, main_v57, main_cst_11, main_v58, main_v59, main_v60, main_v61, main_v62]

/-- Every operation of each stretch is plain for the stretch's list: one fact per operation, by its arity, in order. -/
theorem plainMask : (opsMask : List (HloOp τ sig (Elt F))).Forall (Plain wMask) :=
  ⟨n!, u!, n!, n!, u!, b!, n!, b!, n!, u!, t!, n!, u!, b!, n!, u!, b!⟩

theorem plainAttn : (opsAttn : List (HloOp τ sig (Elt F))).Forall (Plain wAttn) :=
  ⟨b!, b!, b!, u!, b!, b!, n!, b!, n!, u!, b!, u!, u!, b!, u!, n!, b!, u!, u!, b!,
    b!, b!, u!, u!, b!, b!⟩

theorem plainNorm1 : (opsNorm1 : List (HloOp τ sig (Elt F))).Forall (Plain wNorm1) :=
  ⟨n!, b!, u!, n!, u!, b!, n!, n!, b!, u!, n!, u!, b!, u!, b!, b!, u!, n!, b!, n!,
    b!, u!, u!, b!, n!, b!, n!, u!, u!, t!, u!, b!, n!, u!, b!, u!, u!, b!⟩

theorem plainFfn : (opsFfn : List (HloOp τ sig (Elt F))).Forall (Plain wFfn) :=
  ⟨b!, u!, u!, b!, n!, u!, b!, b!, u!, u!, b!⟩

theorem plainNorm2 : (opsNorm2 : List (HloOp τ sig (Elt F))).Forall (Plain wNorm2) :=
  ⟨b!, n!, b!, u!, n!, u!, b!, n!, n!, b!, u!, n!, u!, b!, u!, b!, b!, u!, n!, b!,
    n!, b!, u!, u!, b!, n!, b!, n!, u!, u!, t!, u!, b!, n!, u!, b!, u!, u!, b!⟩

/-- A buffer a stretch does not write keeps its contents through it. -/
theorem keep {W : List (Ref sig .tc)} {l : List (HloOp τ sig (Elt F))} (hl : l.Forall (Plain W)) (V : Valuation τ sig (Elt F))
    (r : Ref sig .tc) (hr : r ∉ W) : after l V (r : DevRef τ sig) = V (r : DevRef τ sig) :=
  after_of_writes_sub l V (hl.imp fun _ h => h.2.2) hr

/-- The whole line touches TensorCore references only. -/
theorem ops_sub : (ops : List (HloOp τ sig (Elt F))).Forall fun op => op.bufs ⊆ tcRefs τ sig :=
  forall_app (forall_app (plainMask.imp fun _ h => h.1) (forall_app (plainAttn.imp fun _ h => h.1)
    (forall_app (plainNorm1.imp fun _ h => h.1) (plainFfn.imp fun _ h => h.1)))) (plainNorm2.imp fun _ h => h.1)

/-- Every operation of the whole line determines its results. -/
theorem ops_fresh : ∀ op ∈ (ops : List (HloOp τ sig (Elt F))), op.fresh = ∅ :=
  List.forall_iff_forall_mem.mp
    (forall_app (forall_app (plainMask.imp fun _ h => h.2.1) (forall_app (plainAttn.imp fun _ h => h.2.1)
      (forall_app (plainNorm1.imp fun _ h => h.2.1) (plainFfn.imp fun _ h => h.2.1)))) (plainNorm2.imp fun _ h => h.2.1))

/-! ## The five stretches chained -/

/-- The contents after the whole line at the result buffer: the last stretch reads the first LayerNorm's result, kept
    through the feed-forward stretch, and the feed-forward result; that stretch reads the first LayerNorm's and the four
    feed-forward arguments, which the earlier stretches kept; the first LayerNorm reads the attention stretch's residual
    stream, itself read off the six attention arguments with the mask in place. -/
theorem out_eq (V : Valuation τ sig (Elt F)) :
    after ops V (main_v62 : DevRef τ sig)
      = Spec.whole (V (main_arg0 : DevRef τ sig)) (V (main_arg1 : DevRef τ sig)) (V (main_arg2 : DevRef τ sig)) (V (main_arg3 : DevRef τ sig)) (V (main_arg4 : DevRef τ sig))
          (V (main_arg5 : DevRef τ sig)) (V (main_arg6 : DevRef τ sig)) (V (main_arg7 : DevRef τ sig)) (V (main_arg8 : DevRef τ sig)) (V (main_arg9 : DevRef τ sig)) := by
  have split : after ops V = after opsNorm2 (after opsFfn (after opsNorm1 (after opsAttn (after opsMask V)))) := by
    simp only [ops, ops0, after_app]
  rw [split]
  generalize h1 : after opsMask V = V1
  generalize h2 : after opsAttn V1 = V2
  generalize h3 : after opsNorm1 V2 = V3
  generalize h4 : after opsFfn V3 = V4
  have k1 (r : Ref sig .tc) (hr : r ∉ wMask) : V1 (r : DevRef τ sig) = V (r : DevRef τ sig) := h1 ▸ keep plainMask V r hr
  have k2 (r : Ref sig .tc) (hr : r ∉ wAttn) : V2 (r : DevRef τ sig) = V1 (r : DevRef τ sig) := h2 ▸ keep plainAttn V1 r hr
  have k3 (r : Ref sig .tc) (hr : r ∉ wNorm1) : V3 (r : DevRef τ sig) = V2 (r : DevRef τ sig) := h3 ▸ keep plainNorm1 V2 r hr
  have k4 (r : Ref sig .tc) (hr : r ∉ wFfn) : V4 (r : DevRef τ sig) = V3 (r : DevRef τ sig) := h4 ▸ keep plainFfn V3 r hr
  have e1 : V1 (main_v5 : DevRef τ sig) = Spec.mask := h1 ▸ mask_out V
  have e2 := h2 ▸ attn_out V1 e1
  have e3 := h3 ▸ norm1_out V2
  have e4 := h4 ▸ ffn_out V3
  rw [norm2_out, e4, k4 main_v40 (by decide), e3, e2,
    k3 main_arg6 (by decide), k3 main_arg7 (by decide), k3 main_arg8 (by decide), k3 main_arg9 (by decide),
    k2 main_arg6 (by decide), k2 main_arg7 (by decide), k2 main_arg8 (by decide), k2 main_arg9 (by decide),
    k1 main_arg0 (by decide), k1 main_arg1 (by decide), k1 main_arg2 (by decide), k1 main_arg3 (by decide), k1 main_arg4 (by decide),
    k1 main_arg5 (by decide), k1 main_arg6 (by decide), k1 main_arg7 (by decide), k1 main_arg8 (by decide), k1 main_arg9 (by decide)]
  rfl

/-- An argument is written by no stretch. -/
theorem arg_eq (V : Valuation τ sig (Elt F)) (r : Ref sig .tc) (h1 : r ∉ wMask) (h2 : r ∉ wAttn) (h3 : r ∉ wNorm1) (h4 : r ∉ wFfn)
    (h5 : r ∉ wNorm2) : after ops V (r : DevRef τ sig) = V (r : DevRef τ sig) := by
  simp only [ops, ops0, after_app]
  rw [keep plainNorm2 _ r h5, keep plainFfn _ r h4, keep plainNorm1 _ r h3, keep plainAttn _ r h2, keep plainMask _ r h1]

/-! ## The run -/

/-- The signature scopes no buffer and no semaphore: the program holds tensor values only. -/
theorem scopedRefs_eq : (Finset.univ.filter fun b : Ref sig .tc => b.isScoped) = ∅ := by decide
theorem scopedSems_eq : (Finset.univ.filter fun sm : SemLoc sig => sm.isScoped .tc) = ∅ := by decide

/-- On the device, for any float values, from any memory with zero counters: every weakly fair execution of the reference
    terminates with its result buffer at the whole function of the ten arguments' launch contents, the arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v62)
        = Spec.whole (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v62).trans (out_eq _),
      (h c main_arg0).trans (arg_eq _ main_arg0 (by decide) (by decide) (by decide) (by decide) (by decide)),
      (h c main_arg1).trans (arg_eq _ main_arg1 (by decide) (by decide) (by decide) (by decide) (by decide)),
      (h c main_arg2).trans (arg_eq _ main_arg2 (by decide) (by decide) (by decide) (by decide) (by decide)),
      (h c main_arg3).trans (arg_eq _ main_arg3 (by decide) (by decide) (by decide) (by decide) (by decide)),
      (h c main_arg4).trans (arg_eq _ main_arg4 (by decide) (by decide) (by decide) (by decide) (by decide)),
      (h c main_arg5).trans (arg_eq _ main_arg5 (by decide) (by decide) (by decide) (by decide) (by decide)),
      (h c main_arg6).trans (arg_eq _ main_arg6 (by decide) (by decide) (by decide) (by decide) (by decide)),
      (h c main_arg7).trans (arg_eq _ main_arg7 (by decide) (by decide) (by decide) (by decide) (by decide)),
      (h c main_arg8).trans (arg_eq _ main_arg8 (by decide) (by decide) (by decide) (by decide) (by decide)),
      (h c main_arg9).trans (arg_eq _ main_arg9 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.KI.AttnValue.lean ====
import proofs.«129914_j85323820303106_1_alg».proof.Proof.KI.Attn
import Idealize.ShloMosaic.Lib.Pipeline.Value

/-!
# Region 0: the output array after the region

The attention block's grid has one point, at which every window's block is its whole array. So the
one write-back of the output window leaves, in the output ARRAY, the body's payload of the six
argument arrays as the region finds them.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

variable (V : (c : Dev nD) → (b : Ref sig .tc) → Buf (Elt F) ((c : Thread nD τ).loc b))

/-! ## Each window's block is its whole array

The grid has one point, and there every window's block index is zero on every axis while the block has
the array's own shape: reading the block is reading the array. -/

theorem iblk0_0 (c : Dev nD) (t : Fin cfg0.N) : (iblk0 V c 0 t : Vec F S32x8192 .f32) = V c main_arg0 := by
  obtain rfl := fin_N0 t
  have hz' : (fun a => win0_0.index t0_0 a * main_arg0.ty.shape.size a) = fun _ => 0 :=
    funext fun a => by fin_cases a <;> decide +kernel
  exact Memref.read_access_unit_zero (Elt F) main_arg0 hz' (fun a => by rw [congrFun hz' a]; simp) (V c main_arg0)

theorem iblk0_1 (c : Dev nD) (t : Fin cfg0.N) : (iblk0 V c 1 t : Vec F S8192x64 .f32) = V c main_arg1 := by
  obtain rfl := fin_N0 t
  have hz' : (fun a => win0_1.index t0_0 a * main_arg1.ty.shape.size a) = fun _ => 0 :=
    funext fun a => by fin_cases a <;> decide +kernel
  exact Memref.read_access_unit_zero (Elt F) main_arg1 hz' (fun a => by rw [congrFun hz' a]; simp) (V c main_arg1)

theorem iblk0_2 (c : Dev nD) (t : Fin cfg0.N) : (iblk0 V c 2 t : Vec F S8192x64 .f32) = V c main_arg2 := by
  obtain rfl := fin_N0 t
  have hz' : (fun a => win0_2.index t0_0 a * main_arg2.ty.shape.size a) = fun _ => 0 :=
    funext fun a => by fin_cases a <;> decide +kernel
  exact Memref.read_access_unit_zero (Elt F) main_arg2 hz' (fun a => by rw [congrFun hz' a]; simp) (V c main_arg2)

theorem iblk0_3 (c : Dev nD) (t : Fin cfg0.N) : (iblk0 V c 3 t : Vec F S8192x64 .f32) = V c main_arg3 := by
  obtain rfl := fin_N0 t
  have hz' : (fun a => win0_3.index t0_0 a * main_arg3.ty.shape.size a) = fun _ => 0 :=
    funext fun a => by fin_cases a <;> decide +kernel
  exact Memref.read_access_unit_zero (Elt F) main_arg3 hz' (fun a => by rw [congrFun hz' a]; simp) (V c main_arg3)

theorem iblk0_4 (c : Dev nD) (t : Fin cfg0.N) : (iblk0 V c 4 t : Vec F S64x8192 .f32) = V c main_arg4 := by
  obtain rfl := fin_N0 t
  have hz' : (fun a => win0_4.index t0_0 a * main_arg4.ty.shape.size a) = fun _ => 0 :=
    funext fun a => by fin_cases a <;> decide +kernel
  exact Memref.read_access_unit_zero (Elt F) main_arg4 hz' (fun a => by rw [congrFun hz' a]; simp) (V c main_arg4)

theorem iblk0_5 (c : Dev nD) (t : Fin cfg0.N) : (iblk0 V c 5 t : Vec F S8192 .f32) = V c main_arg5 := by
  obtain rfl := fin_N0 t
  have hz' : (fun a => win0_5.index t0_0 a * main_arg5.ty.shape.size a) = fun _ => 0 :=
    funext fun a => by fin_cases a <;> decide +kernel
  exact Memref.read_access_unit_zero (Elt F) main_arg5 hz' (fun a => by rw [congrFun hz' a]; simp) (V c main_arg5)

/-! ## What the one point writes back, and the array after it -/

/-- The payload of the six argument arrays as the region finds them. -/
abbrev attnArr (c : Dev nD) : Vec F S32x8192 .f32 :=
  Gen.k0_pay1 (V c main_arg0) (Gen.k0_pay2 (V c main_arg0) (V c main_arg1) (V c main_arg2) (V c main_arg3))
    (Gen.k0_pay3 (V c main_arg4)) (V c main_arg5)

/-- The point's write-back is the block of `attnArr`, which is all of it. -/
theorem flushed0_6 (c : Dev nD) (t : Fin cfg0.N) :
    (dat0 (F := F) V c).flushed 6 t = ((cfg0.win 6).blk t).view.read (Elt F) (attnArr V c) := by
  show (cfg0.win 6).cut (grid0.coords t) ((dat0 V c).after 6 t) = _
  rw [after0_6, attnOut_eq, iblk0_0, iblk0_1, iblk0_2, iblk0_3, iblk0_4, iblk0_5]
  obtain rfl := fin_N0 t
  have hz' : (fun a => win0_6.index t0_0 a * main_v0.ty.shape.size a) = fun _ => 0 :=
    funext fun a => by fin_cases a <;> decide +kernel
  exact (Memref.read_access_unit_zero (Elt F) main_v0 hz' (fun a => by rw [congrFun hz' a]; simp) (attnArr V c)).symm

/-- Every index of the output array lies in the one point's block: on each axis the block starts at zero and
    has the array's own extent. -/
theorem mem_blk0_6 (i : S32x8192.Idx) : i ∈ ((cfg0.win 6).blk t0_0).view.set := by
  show i ∈ ((View.whole main_v0).slice (win0_6.rect t0_0)).set
  rw [View.set_slice_whole, Rect.mem_set_unit]
  intro a
  have hoff : win0_6.index t0_0 a * win0_6.size a = 0 := by fin_cases a <;> decide +kernel
  have hext : win0_6.xsize (grid0.coords t0_0) a = S32x8192.size a := by fin_cases a <;> decide +kernel
  have hi : (i a : Nat) < S32x8192.size a := (i a).isLt
  show win0_6.index t0_0 a * win0_6.size a ≤ (i a : Nat)
    ∧ (i a : Nat) < win0_6.index t0_0 a * win0_6.size a + win0_6.xsize (grid0.coords t0_0) a
  rw [hoff, hext]; omega

/-- The output array after the region: the payload of the argument arrays. -/
theorem attn_arr (c : Dev nD) :
    (dat0 (F := F) V c).arrAt 6 cfg0.N = Gen.k0_pay1 (V c main_arg0) (Gen.k0_pay2 (V c main_arg0) (V c main_arg1) (V c main_arg2) (V c main_arg3)) (Gen.k0_pay3 (V c main_arg4)) (V c main_arg5) :=
  (dat0 V c).arrAt_eq_of_cover 6 (attnArr V c) (fun t _ => flushed0_6 V c t)
    fun i => ⟨t0_0, flush0_6 t0_0, mem_blk0_6 i⟩

end Cert.KernelIdeal.Hand

end
-- ==== Proof.Stage1.lean ====
/-
  Stage 1 of the network at the ideal values (floats are extended reals, every operation the textbook one, a change of
  format the identity): the attention kernel's result, as a composite of its three pure payloads, is the reference's
  stage 1 as WHOLE ARRAYS,

      LayerNorm (x + ((softmax (min (q · kᵀ, mask))) · v) · w1 + b1),   k = x · wk,  q = x · wq,  v = x · wv.

  The two programs spell this one function differently, and the proof reconciles the spellings operation by operation,
  each as an equation between arrays:
  • the kernel narrows every matrix-product operand to bf16 and accumulates into a zero splat; at the ideal values the
    narrowing is the identity and the zero accumulator adds nothing, so each product is the host's product of the same
    operands (the sum over the one contracted axis of the products), over dimension numbers with the same fields;
  • the causal mask: the kernel selects +100000 or −100000 by comparing the row and column numbers, the reference
    computes ((2 or 0) − 1) · 100000 from the same comparison, and 2 − 1 = 1, 0 − 1 = −1 on the extended reals;
  • a row maximum is on both sides the left fold of the maximum from −∞ over the row in row-major order, and a row sum
    the exact sum (the kernel's has no initial value, the host's starts from zero);
  • the kernel turns a vector into a column or a row by a shape cast and spreads it by a trailing-axes broadcast, the
    host does both by broadcasts in named dimensions: the same element is read at every index;
  • exponential, quotient and reciprocal square root are one function on the kernel and on the host;
  • the reference's variance is guarded by "the normaliser 8192 − 0 is positive", which holds, so it is the plain
    quotient of the sum of squared deviations by 8192, the kernel's.
  The payloads are opened once each, over variables standing for the values they read; the composite follows by
  rewriting.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«129914_j85323820303106_1_alg».proof.Proof.Gen.KernelIdeal.Skeleton
import proofs.«129914_j85323820303106_1_alg».proof.Proof.Spec

noncomputable section

namespace Cert.Bridge.Stage1Ops

open Idealize.ShloMosaic Idealize.ShloMosaic.ValueIdx
open Cert.ReferenceIdeal Cert.ReferenceIdeal.Spec

/-! ## Format changes and matrix products -/

/-- A narrowing format change is the identity on extended reals, as whole arrays. -/
theorem truncf_bf16 {s : Shape} (v : FVec Ideal s .f32) (h : FTy.bits .bf16 < FTy.bits .f32) :
    (truncf .bf16 v h : FVec Ideal s .bf16) = v := rfl

/-- A transpose of a narrowed array is the narrowed transpose. -/
theorem transpose_truncf {s t : Shape} (perm : List (Fin s.rank)) (v : FVec Ideal s .f32) (ht : s.Transposes perm t)
    (h : FTy.bits .bf16 < FTy.bits .f32) :
    transpose t perm (truncf .bf16 v h : FVec Ideal s .bf16) ht = (truncf .bf16 (transpose t perm v ht : FVec Ideal t .f32) h : FVec Ideal t .bf16) := rfl

/-- A matrix product of narrowed operands into the zero accumulator is the host's product of the operands. -/
theorem matmul_truncf {sl sr so : Shape} (d : DotDims sl sr so) (a : FVec Ideal sl .f32) (b : FVec Ideal sr .f32)
    (h h' : FTy.bits .bf16 < FTy.bits .f32) :
    matmul (F := Ideal) d none (truncf .bf16 a h : FVec Ideal sl .bf16) (truncf .bf16 b h' : FVec Ideal sr .bf16) (constant so .f32 0x00000000#32)
      = Host.dotGeneral (F := Ideal) d none a b := by
  funext j
  show FloatOps.matmul d none (truncf .bf16 a h : FVec Ideal sl .bf16) (truncf .bf16 b h' : FVec Ideal sr .bf16) (constant so .f32 0x00000000#32) j
    = FloatOps.dotGeneral d none _ a b j
  rw [Ideal.matmul_constant_zero_apply, Ideal.dotGeneral_apply]
  rfl

section Records
variable [Cert.KernelIdeal.Facts₀] [Cert.ReferenceIdeal.Facts₀]
theorem dot1 : Cert.KernelIdeal.dot_S32x8192_S8192x64_S32x64_1_0_0_1_n_n = Cert.ReferenceIdeal.dot_S32x8192_S8192x64_S32x64_1_0_0_1_n_n := rfl
theorem dot2 : Cert.KernelIdeal.dot_S32x64_S64x32_S32x32_1_0_0_1_n_n = Cert.ReferenceIdeal.dot_S32x64_S64x32_S32x32_1_0_0_1_n_n := rfl
theorem dot3 : Cert.KernelIdeal.dot_S32x32_S32x64_S32x64_1_0_0_1_n_n = Cert.ReferenceIdeal.dot_S32x32_S32x64_S32x64_1_0_0_1_n_n := rfl
theorem dot4 : Cert.KernelIdeal.dot_S32x64_S64x8192_S32x8192_1_0_0_1_n_n = Cert.ReferenceIdeal.dot_S32x64_S64x8192_S32x8192_1_0_0_1_n_n := rfl
end Records

/-! ## Bit patterns as extended reals -/

theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul]; norm_num
theorem ofBits_1e5 : Ideal.ofBits .f32 0x47C35000#32 = ((100000 : ℝ) : EReal) := by
  simp [Ideal.ofBits, Ideal.ieee, -EReal.coe_mul]; norm_num
theorem ofBits_neg_1e5 : Ideal.ofBits .f32 0xC7C35000#32 = ((-100000 : ℝ) : EReal) := by
  simp [Ideal.ofBits, Ideal.ieee, -EReal.coe_mul, -EReal.coe_neg]; norm_num
theorem ofBits_8192 : Ideal.ofBits .f32 0x46000000#32 = ((8192 : ℝ) : EReal) := by
  simp [Ideal.ofBits, Ideal.ieee, -EReal.coe_mul]; norm_num

section Mask
variable [Cert.ReferenceIdeal.Facts]

theorem addi_zero32 (x : BitVec 32) : IntOp.addi x 0#32 = x := by simp [IntOp.addi]

/-- The kernel's causal mask (+100000 on and below the diagonal, −100000 above it, chosen by comparing the row and
    column numbers) is the reference's ((2 or 0) − 1) · 100000. -/
theorem mask_eq (h0 : S32x32.Iotas .tc 32 [0]) (h1 : S32x32.Iotas .tc 32 [1]) :
    select (cmpi .sge (iota .tc S32x32 32 [0] h0) (iota .tc S32x32 32 [1] h1))
      (broadcast S32x32 (Scalar.ofBits (F := Ideal) .f32 0x47C35000#32))
      (broadcast S32x32 (Scalar.ofBits (F := Ideal) .f32 0xC7C35000#32))
    = Spec.mask (F := Ideal) := by
  funext i
  have e0 : iota .tc S32x32 32 [0] h0 i = BitVec.ofNat 32 (i 0).val := iota_single_apply _ _ _ _ h0 i
  have e1 : iota .tc S32x32 32 [1] h1 i = BitVec.ofNat 32 (i 1).val := iota_single_apply _ _ _ _ h1 i
  show Scalar.select (IntOp.cmpi .sge (iota .tc S32x32 32 [0] h0 i) (iota .tc S32x32 32 [1] h1 i))
        (Ideal.ofBits .f32 0x47C35000#32) (Ideal.ofBits .f32 0xC7C35000#32)
     = (Scalar.select (IntOp.cmpi .sge (IntOp.addi (BitVec.ofNat 32 (i 0).val) 0#32) (BitVec.ofNat 32 (i 1).val))
          (Ideal.ofBits .f32 0x40000000#32) (Ideal.ofBits .f32 0x00000000#32) - Ideal.ofBits .f32 0x3F800000#32)
        * Ideal.ofBits .f32 0x47C35000#32
  rw [e0, e1, addi_zero32]
  rcases BitVec.eq_zero_or_eq_one (IntOp.cmpi .sge (BitVec.ofNat 32 (i 0).val) (BitVec.ofNat 32 (i 1).val)) with hc | hc
  · rw [hc, select_zero, select_zero, Ideal.ofBits_zero_f32, ofBits_one, ofBits_1e5, ofBits_neg_1e5, zero_sub,
      ← EReal.coe_neg, ← EReal.coe_mul]
    norm_num
  · rw [hc, select_one, select_one, ofBits_two, ofBits_one, ofBits_1e5, ← EReal.coe_sub, ← EReal.coe_mul]
    norm_num

end Mask

/-! ## Layout: the kernel's shape casts and broadcasts are the host's broadcasts in dimensions -/

section Layout
variable {α : Type} [Cert.ReferenceIdeal.Facts]

/-- A vector [32] as a column [32,1]: the shape cast is the broadcast along axis 0. -/
theorem shapeCast_col (v : S32.Idx → α) (h : S32.ShapeCasts S32x1) :
    shapeCast S32x1 v h = broadcastInDim S32x1 ![0] Facts₀.bcast_S32_S32x1_0 v := by
  funext j
  obtain ⟨p, q, rfl⟩ : ∃ (p : Fin 32) (q : Fin 1), j = ix2 p q := ⟨j 0, j 1, eq_ix2 j⟩
  have e1 := shapeCast_apply v h (ix2 p q) (ix1 p) (by
    rw [Shape.rowMajor_val_two, Shape.rowMajor_val_one]; show p.val = p.val * 1 + q.val; omega)
  have e2 := broadcastInDim_apply ![0] Facts₀.bcast_S32_S32x1_0 v (ix2 p q) (ix1 p) (by
    intro a; match a with | ⟨0, _⟩ => rfl)
  exact e1.trans e2.symm

/-- A vector [8192] as a row [1,8192]: the shape cast is the broadcast along axis 1. -/
theorem shapeCast_row (v : S8192.Idx → α) (h : S8192.ShapeCasts S1x8192) :
    shapeCast S1x8192 v h = broadcastInDim S1x8192 ![1] Facts₀.bcast_S8192_S1x8192_1 v := by
  funext j
  obtain ⟨p, q, rfl⟩ : ∃ (p : Fin 1) (q : Fin 8192), j = ix2 p q := ⟨j 0, j 1, eq_ix2 j⟩
  have e1 := shapeCast_apply v h (ix2 p q) (ix1 q) (by
    rw [Shape.rowMajor_val_two, Shape.rowMajor_val_one]; show q.val = p.val * 8192 + q.val; omega)
  have e2 := broadcastInDim_apply ![1] Facts₀.bcast_S8192_S1x8192_1 v (ix2 p q) (ix1 q) (by
    intro a; match a with | ⟨0, _⟩ => rfl)
  exact e1.trans e2.symm

/-- A column [32,1] spread along the rows of a 32×32 tile: the kernel's broadcast is the host's in dimensions (0, 1). -/
theorem broadcastTo_col32 (c : S32x1.Idx → α) (h : S32x1.Broadcasts S32x32) :
    broadcastTo S32x32 c h = broadcastInDim S32x32 ![0, 1] Facts₀.bcast_S32x1_S32x32_0_1 c := by
  funext j
  obtain ⟨p, q, rfl⟩ : ∃ (p : Fin 32) (q : Fin 32), j = ix2 p q := ⟨j 0, j 1, eq_ix2 j⟩
  have e1 := broadcastTo_apply c h (ix2 p q) (ix2 p (0 : Fin 1)) (by
    intro a; match a with | ⟨0, _⟩ => rfl | ⟨1, _⟩ => rfl)
  have e2 := broadcastInDim_apply ![0, 1] Facts₀.bcast_S32x1_S32x32_0_1 c (ix2 p q) (ix2 p (0 : Fin 1)) (by
    intro a; match a with | ⟨0, _⟩ => rfl | ⟨1, _⟩ => rfl)
  exact e1.trans e2.symm

/-- A column [32,1] spread along the rows of a 32×8192 array. -/
theorem broadcastTo_col8192 (c : S32x1.Idx → α) (h : S32x1.Broadcasts S32x8192) :
    broadcastTo S32x8192 c h = broadcastInDim S32x8192 ![0, 1] Facts₀.bcast_S32x1_S32x8192_0_1 c := by
  funext j
  obtain ⟨p, q, rfl⟩ : ∃ (p : Fin 32) (q : Fin 8192), j = ix2 p q := ⟨j 0, j 1, eq_ix2 j⟩
  have e1 := broadcastTo_apply c h (ix2 p q) (ix2 p (0 : Fin 1)) (by
    intro a; match a with | ⟨0, _⟩ => rfl | ⟨1, _⟩ => rfl)
  have e2 := broadcastInDim_apply ![0, 1] Facts₀.bcast_S32x1_S32x8192_0_1 c (ix2 p q) (ix2 p (0 : Fin 1)) (by
    intro a; match a with | ⟨0, _⟩ => rfl | ⟨1, _⟩ => rfl)
  exact e1.trans e2.symm

/-- A row [1,8192] spread over the 32 rows. -/
theorem broadcastTo_row8192 (r : S1x8192.Idx → α) (h : S1x8192.Broadcasts S32x8192) :
    broadcastTo S32x8192 r h = broadcastInDim S32x8192 ![0, 1] Facts₀.bcast_S1x8192_S32x8192_0_1 r := by
  funext j
  obtain ⟨p, q, rfl⟩ : ∃ (p : Fin 32) (q : Fin 8192), j = ix2 p q := ⟨j 0, j 1, eq_ix2 j⟩
  have e1 := broadcastTo_apply r h (ix2 p q) (ix2 (0 : Fin 1) q) (by
    intro a; match a with | ⟨0, _⟩ => rfl | ⟨1, _⟩ => rfl)
  have e2 := broadcastInDim_apply ![0, 1] Facts₀.bcast_S1x8192_S32x8192_0_1 r (ix2 p q) (ix2 (0 : Fin 1) q) (by
    intro a; match a with | ⟨0, _⟩ => rfl | ⟨1, _⟩ => rfl)
  exact e1.trans e2.symm

end Layout

/-! ## Reductions and pointwise operations: the kernel's are the host's -/

section Reductions
variable [Cert.ReferenceIdeal.Facts]

/-- A kernel's row sums of a 32×32 tile (accumulator the neutral zero) are the host's from the initial value zero. -/
theorem rowSum32 (v : FVec Ideal S32x32 .f32) (h : S32x32.Reduces [1] S32) (hφ : FKind.Formats .f32)
    (hacc : (0x00000000#32 : BitVec 32) = 0x00000000#32) :
    multiReduction .add [1] S32 v 0x00000000#32 h hφ hacc
      = Host.reduceAdd (F := Ideal) v (constant S_ .f32 0x00000000#32) Facts₀.reducesTo_S32x32_S32_d1 Facts₀.h_S_ :=
  multiReduction_add_eq_hostReduceAdd v _ h hφ hacc _ _ _ Ideal.ofBits_zero_f32

/-- The same of a 32×8192 array. -/
theorem rowSum8192 (v : FVec Ideal S32x8192 .f32) (h : S32x8192.Reduces [1] S32) (hφ : FKind.Formats .f32)
    (hacc : (0x00000000#32 : BitVec 32) = 0x00000000#32) :
    multiReduction .add [1] S32 v 0x00000000#32 h hφ hacc
      = Host.reduceAdd (F := Ideal) v (constant S_ .f32 0x00000000#32) Facts₀.reducesTo_S32x8192_S32_d1 Facts₀.h_S_ :=
  multiReduction_add_eq_hostReduceAdd v _ h hφ hacc _ _ _ Ideal.ofBits_zero_f32

/-- The kernel's guarded row maxima of a 32×32 tile are the reference's: both are the left fold of the maximum from −∞
    over each row in row-major order, then the maximum with −∞. -/
theorem rowMax_eq (s : FVec Ideal S32x32 .f32) (h : S32x32.Reduces [1] S32) (hφ : FKind.Formats .f32)
    (hacc : (0xFF800000#32 : BitVec 32) = 0xFF800000#32) :
    maximumf (broadcast S32 (Scalar.ofBits (F := Ideal) .f32 0xFF800000#32))
        (multiReduction .maximumf [1] S32 s 0xFF800000#32 h hφ hacc)
      = Spec.rowMax (F := Ideal) s := rfl

theorem exp_host {s : Shape} (v : FVec Ideal s .f32) : exp v = Host.exp v := rfl
theorem divf_host {s : Shape} (a b : FVec Ideal s .f32) : divf a b = Host.divf a b := rfl
theorem rsqrt_host {s : Shape} (v : FVec Ideal s .f32) : rsqrt v = Host.rsqrt v := rfl

/-- A kernel's splat of a scalar constant over a column is the host's broadcast of the rank-0 constant. -/
theorem broadcast_col (w : BitVec 32) :
    broadcast S32x1 (Scalar.ofBits (F := Ideal) .f32 w) = Spec.col (F := Ideal) (constant (F := Ideal) S_ .f32 w) := rfl

end Reductions

/-! ## The variance's guard -/

section Variance
variable [Cert.ReferenceIdeal.Facts]

/-- The normaliser 8192 − (the integer 0 converted) is 8192. -/
theorem normaliser_eq : Spec.normaliser (F := Ideal) = constant (F := Ideal) S_ .f32 0x46000000#32 := by
  funext i
  show Ideal.ofBits .f32 0x46000000#32 - ((((0#32 : BitVec 32).toInt : ℤ) : ℝ) : EReal) = Ideal.ofBits .f32 0x46000000#32
  simp

/-- 8192 is above zero, so the guard's comparison answers the true bit. -/
theorem guard_true :
    cmpf .ogt (Spec.normaliser (F := Ideal)) (constant (F := Ideal) S_ .f32 0x00000000#32) = fun _ => 1#1 := by
  rw [normaliser_eq]
  funext i
  show Ideal.cmp .ogt (Ideal.ofBits .f32 0x46000000#32) (Ideal.ofBits .f32 0x00000000#32) = 1#1
  rw [ofBits_8192, Ideal.ofBits_zero_f32]
  have h : (0 : EReal) < ((8192 : ℝ) : EReal) := by exact_mod_cast (by norm_num : (0 : ℝ) < 8192)
  simp [Ideal.cmp, h]

/-- So the reference's variance is the plain quotient: the sum of squared deviations over 8192. -/
theorem variance_eq (u : FVec Ideal S32x8192 .f32) :
    Spec.variance (F := Ideal) u
      = Host.divf (F := Ideal) (s := S32x1) (φ := .f32) (Spec.rowSum (F := Ideal) (Spec.sqDev (F := Ideal) u)) (Spec.col (F := Ideal) (constant (F := Ideal) S_ .f32 0x46000000#32)) := by
  unfold Spec.variance
  rw [guard_true, normaliser_eq]
  funext j
  exact select_one _ _

end Variance

end Cert.Bridge.Stage1Ops

namespace Cert.Bridge
open Idealize.ShloMosaic Idealize.ShloMosaic.ValueIdx
open Cert.ReferenceIdeal Cert.ReferenceIdeal.Spec
open Cert.Bridge.Stage1Ops

section Composite
variable [Cert.KernelIdeal.Facts] [Cert.ReferenceIdeal.Facts]

/-- The attention head's output before the projection: (softmax scores) · (x · wv). -/
def attnOut (x : FVec Ideal S32x8192 .f32) (wk wq wv : FVec Ideal S8192x64 .f32) : FVec Ideal S32x64 .f32 :=
  Host.dotGeneral (F := Ideal) dot_S32x32_S32x64_S32x64_1_0_0_1_n_n none (φ₁ := .f32) (φ₂ := .f32) (Spec.softmax (F := Ideal) (Spec.scores (F := Ideal) x wk wq))
    (Host.dotGeneral (F := Ideal) dot_S32x8192_S8192x64_S32x64_1_0_0_1_n_n none x wv)

/-- The second payload — the three projections, the masked scores, the row-wise softmax and the product with the
    values, every product on narrowed operands — is the head's output, narrowed. -/
theorem pay2_eq (x : FVec Ideal S32x8192 .f32) (wk wq wv : FVec Ideal S8192x64 .f32) :
    Cert.KernelIdeal.Gen.k0_pay2 (F := Ideal) x wk wq wv
      = (truncf .bf16 (attnOut x wk wq wv) Cert.KernelIdeal.Facts₀.bitsLt_bf16_f32 : FVec Ideal S32x64 .bf16) := by
  unfold Cert.KernelIdeal.Gen.k0_pay2
  simp only [transpose_truncf, matmul_truncf, dot1, dot2, dot3, mask_eq, rowMax_eq, shapeCast_col, broadcastTo_col32,
    rowSum32, exp_host, divf_host]
  rw [mask_eq, rowMax_eq, rowSum32]
  unfold attnOut Spec.softmax Spec.expShift Spec.scores
  rfl

/-- The first payload over a narrowed head output `a` and a narrowed projection weight `w` — the projection with its
    bias, the residual, the row mean and variance over 8192 entries, the reciprocal square root of the variance plus ε,
    the product — is the reference's LayerNorm of x + (a · w + b1). -/
theorem pay1_eq (x : FVec Ideal S32x8192 .f32) (a : FVec Ideal S32x64 .f32) (w : FVec Ideal S64x8192 .f32)
    (b1 : FVec Ideal S8192 .f32) (h h' : FTy.bits .bf16 < FTy.bits .f32) :
    Cert.KernelIdeal.Gen.k0_pay1 (F := Ideal) x (truncf .bf16 a h : FVec Ideal S32x64 .bf16) (truncf .bf16 w h' : FVec Ideal S64x8192 .bf16) b1
      = Spec.layerNorm (F := Ideal) (addf x (addf (Host.dotGeneral (F := Ideal) (φ₁ := .f32) (φ₂ := .f32)
          dot_S32x64_S64x8192_S32x8192_1_0_0_1_n_n none a w) (Spec.overRows (F := Ideal) b1))) := by
  unfold Cert.KernelIdeal.Gen.k0_pay1
  simp only [matmul_truncf, dot4, shapeCast_row, broadcastTo_row8192, shapeCast_col, broadcastTo_col8192, divf_host,
    rsqrt_host, broadcast_col]
  rw [rowSum8192, rowSum8192]
  unfold Spec.layerNorm
  rw [variance_eq]
  unfold Spec.sqDev Spec.mean
  rfl

end Composite

/-- At the ideal values the attention kernel's payload composite is the reference's stage 1, as whole arrays: the
    head's output is (softmax scores) · (x · wv), narrowed (the identity); the projection's weight is narrowed (the
    identity); and the last payload is the LayerNorm of the residual stream over them. -/
theorem stage1_eq [Cert.KernelIdeal.Facts] [Cert.ReferenceIdeal.Facts]
    (x : FVec Ideal Cert.KernelIdeal.S32x8192 .f32) (wk wq wv : FVec Ideal Cert.KernelIdeal.S8192x64 .f32)
    (w1 : FVec Ideal Cert.KernelIdeal.S64x8192 .f32) (b1 : FVec Ideal Cert.KernelIdeal.S8192 .f32) :
    Cert.KernelIdeal.Gen.k0_pay1 (F := Ideal) x (Cert.KernelIdeal.Gen.k0_pay2 x wk wq wv) (Cert.KernelIdeal.Gen.k0_pay3 w1) b1
      = Cert.ReferenceIdeal.Spec.stage1 (F := Ideal) x wk wq wv w1 b1 := by
  rw [pay2_eq]
  unfold Cert.KernelIdeal.Gen.k0_pay3
  rw [pay1_eq]
  rfl

end Cert.Bridge
end
-- ==== Proof.BlockSum.lean ====
/-
  The K-blocked accumulation of a dense layer is the whole contraction, at the ideal values (floats are extended
  reals and every operation is exact).

  A column block of y · w + b is computed in eight steps: a tile of zeros, then for each of the eight 1024-long
  pieces of the 8192-long contraction one step that adds the product of a 32×1024 piece of y with a 1024×1024
  piece of w; at the end the bias row is added (and, in the first layer, the result cut off below at zero).
  Read at one element (r, j) each step adds ∑ i < 1024, Y kb (r, i) · W kb (i, j), so after the eight steps the
  tile holds ∑ kb < 8, ∑ i < 1024 of those products. Addition of extended reals is a commutative monoid, so the
  double sum is the single sum over k = kb · 1024 + i < 8192 — the reference's one `dot_general` at (r, nb · 1024 + j) —
  with no finiteness needed. The narrowing of the operands before the product is the identity on extended reals.
-/
import proofs.«129914_j85323820303106_1_alg».proof.Proof.Gen.KernelIdeal.Skeleton
import proofs.«129914_j85323820303106_1_alg».proof.Proof.Spec
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value
import Mathlib.Algebra.BigOperators.Fin
import Mathlib.Logic.Equiv.Fin.Basic

noncomputable section

open Idealize.ShloMosaic Idealize.ShloMosaic.ValueIdx
open scoped BigOperators

namespace Cert.Bridge

open Cert.KernelIdeal (S32x1024 S1024x1024 S1024 S1x1024)

/-! ## A sum over a range cut into equal blocks -/

/-- Position `b` of block `a`, of `m` blocks of `n`, lies below `m * n`. -/
theorem blk_lt {m n : ℕ} (a : Fin m) (b : Fin n) : a.val * n + b.val < m * n := by
  have ha := a.isLt
  have hb := b.isLt
  calc a.val * n + b.val < a.val * n + n := by omega
    _ = (a.val + 1) * n := by ring
    _ ≤ m * n := Nat.mul_le_mul_right n ha

/-- Summing block by block, and inside each block position by position, is summing over the whole range: in a
    commutative monoid a finite sum may be regrouped freely. -/
theorem sum_blocks {M : Type*} [AddCommMonoid M] (m n : ℕ) (f : Fin (m * n) → M) :
    ∑ a : Fin m, ∑ b : Fin n, f ⟨a.val * n + b.val, blk_lt a b⟩ = ∑ k : Fin (m * n), f k := by
  rw [← Equiv.sum_comp finProdFinEquiv f, Fintype.sum_prod_type]
  refine Finset.sum_congr rfl fun a _ => Finset.sum_congr rfl fun b _ => congrArg f (Fin.ext ?_)
  show a.val * n + b.val = b.val + n * a.val
  ring

/-- Eight blocks of 1024 make up the 8192-long contraction. -/
theorem sum_8_1024 {M : Type*} [AddCommMonoid M] (f : Fin 8192 → M) :
    ∑ kb : Fin 8, ∑ i : Fin 1024, f ⟨kb.val * 1024 + i.val, by omega⟩ = ∑ k : Fin 8192, f k :=
  sum_blocks 8 1024 f

/-! ## The block product's and the whole product's index maps

Both contract the left operand's axis 1 against the right operand's axis 0: at output index (r, c) and contraction
position k the operands are read at (r, k) and (k, c). -/

theorem lhsK_0 (j : S32x1024.Idx) (k : Cert.KernelIdeal.dot_S32x1024_S1024x1024_S32x1024_1_0_0_1_n_n.contr.Idx) :
    (Cert.KernelIdeal.dot_S32x1024_S1024x1024_S32x1024_1_0_0_1_n_n.lhsIdx j k 0 : ℕ) = j 0 := by
  simp [DotDims.lhsIdx, Cert.KernelIdeal.dot_S32x1024_S1024x1024_S32x1024_1_0_0_1_n_n]; rfl
theorem lhsK_1 (j : S32x1024.Idx) (k : Cert.KernelIdeal.dot_S32x1024_S1024x1024_S32x1024_1_0_0_1_n_n.contr.Idx) :
    (Cert.KernelIdeal.dot_S32x1024_S1024x1024_S32x1024_1_0_0_1_n_n.lhsIdx j k 1 : ℕ) = k ⟨0, by decide⟩ :=
  DotDims.lhsIdx_val_of_single (d := Cert.KernelIdeal.dot_S32x1024_S1024x1024_S32x1024_1_0_0_1_n_n) (cl := 1) rfl j k
theorem rhsK_0 (j : S32x1024.Idx) (k : Cert.KernelIdeal.dot_S32x1024_S1024x1024_S32x1024_1_0_0_1_n_n.contr.Idx) :
    (Cert.KernelIdeal.dot_S32x1024_S1024x1024_S32x1024_1_0_0_1_n_n.rhsIdx j k 0 : ℕ) = k ⟨0, by decide⟩ :=
  DotDims.rhsIdx_val_of_single (d := Cert.KernelIdeal.dot_S32x1024_S1024x1024_S32x1024_1_0_0_1_n_n) (cr := 0) rfl j k
theorem rhsK_1 (j : S32x1024.Idx) (k : Cert.KernelIdeal.dot_S32x1024_S1024x1024_S32x1024_1_0_0_1_n_n.contr.Idx) :
    (Cert.KernelIdeal.dot_S32x1024_S1024x1024_S32x1024_1_0_0_1_n_n.rhsIdx j k 1 : ℕ) = j 1 := by
  simp [DotDims.rhsIdx, Cert.KernelIdeal.dot_S32x1024_S1024x1024_S32x1024_1_0_0_1_n_n]; rfl

/-- The block product `tpu.matmul` into the zero tile, read at (r, j): the sum over the block's 1024 positions. -/
theorem matmulK_apply {φ₁ φ₂ : FTy} (y : FVec Ideal S32x1024 φ₁) (w : FVec Ideal S1024x1024 φ₂) (r : Fin 32) (j : Fin 1024) :
    matmul Cert.KernelIdeal.dot_S32x1024_S1024x1024_S32x1024_1_0_0_1_n_n none y w (constant S32x1024 .f32 0x00000000#32) (ix2 r j)
      = ∑ i : Fin 1024, y (ix2 r i) * w (ix2 i j) := by
  simp only [matmul]
  rw [Ideal.matmul_constant_zero_apply,
    ← Equiv.sum_comp (contrEquiv1 Cert.KernelIdeal.dot_S32x1024_S1024x1024_S32x1024_1_0_0_1_n_n 1024 rfl rfl).symm]
  refine Finset.sum_congr rfl fun i _ => ?_
  congr 2
  · funext a
    refine Fin.ext ?_
    match a with
    | ⟨0, _⟩ => exact lhsK_0 _ _
    | ⟨1, _⟩ => exact (lhsK_1 _ _).trans (contrEquiv1_symm_val _ 1024 rfl rfl i)
  · funext a
    refine Fin.ext ?_
    match a with
    | ⟨0, _⟩ => exact (rhsK_0 _ _).trans (contrEquiv1_symm_val _ 1024 rfl rfl i)
    | ⟨1, _⟩ => exact rhsK_1 _ _

/-! ## The payloads read at an index -/

/-- The reset tile is zero everywhere. -/
theorem k1_pay1_apply (r : Fin 32) (j : Fin 1024) : Cert.KernelIdeal.Gen.k1_pay1 (F := Ideal) (ix2 r j) = 0 := by
  unfold Cert.KernelIdeal.Gen.k1_pay1
  simp only [shapeCast_self, broadcast_apply]
  exact Ideal.ofBits_zero_f32

/-- One accumulation step adds, at (r, j), the block's partial product: the narrowing of the operands is the identity
    on extended reals, and the casts between equal shapes do nothing. -/
theorem k1_pay2_apply (y : FVec Ideal S32x1024 .f32) (w : FVec Ideal S1024x1024 .f32) (a : FVec Ideal S32x1024 .f32)
    (r : Fin 32) (j : Fin 1024) :
    Cert.KernelIdeal.Gen.k1_pay2 (F := Ideal) y w a (ix2 r j) = a (ix2 r j) + ∑ i : Fin 1024, y (ix2 r i) * w (ix2 i j) := by
  unfold Cert.KernelIdeal.Gen.k1_pay2
  simp only [shapeCast_self]
  rw [addf_apply, matmulK_apply]
  rfl

/-- The finished tile: the accumulator plus the bias row (the same on each of the 32 rows), cut off below at zero. -/
theorem k1_pay3_apply (a : FVec Ideal S32x1024 .f32) (B : FVec Ideal S1024 .f32) (r : Fin 32) (j : Fin 1024) :
    Cert.KernelIdeal.Gen.k1_pay3 (F := Ideal) a B (ix2 r j) = max (a (ix2 r j) + B (ix1 j)) 0 := by
  unfold Cert.KernelIdeal.Gen.k1_pay3
  rw [maximumf_apply, addf_apply, broadcast_apply, broadcastTo_1b_ab_apply, shapeCast_a_1a_apply]
  congr 1
  exact Ideal.ofBits_zero_f32

/-- The second layer's reset tile and accumulation step are the first layer's, operation for operation. -/
theorem k2_pay1_eq : Cert.KernelIdeal.Gen.k2_pay1 (F := Ideal) = Cert.KernelIdeal.Gen.k1_pay1 := rfl
theorem k2_pay2_eq (y : FVec Ideal S32x1024 .f32) (w : FVec Ideal S1024x1024 .f32) (a : FVec Ideal S32x1024 .f32) :
    Cert.KernelIdeal.Gen.k2_pay2 (F := Ideal) y w a = Cert.KernelIdeal.Gen.k1_pay2 y w a := rfl

/-- The second layer's finished tile: the accumulator plus the bias row, with no cut-off. -/
theorem k2_pay3_apply (a : FVec Ideal S32x1024 .f32) (B : FVec Ideal S1024 .f32) (r : Fin 32) (j : Fin 1024) :
    Cert.KernelIdeal.Gen.k2_pay3 (F := Ideal) a B (ix2 r j) = a (ix2 r j) + B (ix1 j) := by
  unfold Cert.KernelIdeal.Gen.k2_pay3
  rw [addf_apply, broadcastTo_1b_ab_apply, shapeCast_a_1a_apply]

/-! ## The scratch after the k-blocks -/

/-- The scratch after k-blocks 0..n of one column block: the reset tile, then one accumulation step per block. -/
def accFold1 (Y : Fin 8 → FVec Ideal Cert.KernelIdeal.S32x1024 .f32) (W : Fin 8 → FVec Ideal Cert.KernelIdeal.S1024x1024 .f32) :
    ℕ → FVec Ideal Cert.KernelIdeal.S32x1024 .f32
  | 0 => Cert.KernelIdeal.Gen.k1_pay2 (Y 0) (W 0) (Cert.KernelIdeal.Gen.k1_pay1 (F := Ideal))
  | n + 1 => if h : n + 1 < 8 then Cert.KernelIdeal.Gen.k1_pay2 (Y ⟨n + 1, h⟩) (W ⟨n + 1, h⟩) (accFold1 Y W n) else accFold1 Y W n

/-- The same for the second layer. -/
def accFold2 (Y : Fin 8 → FVec Ideal Cert.KernelIdeal.S32x1024 .f32) (W : Fin 8 → FVec Ideal Cert.KernelIdeal.S1024x1024 .f32) :
    ℕ → FVec Ideal Cert.KernelIdeal.S32x1024 .f32
  | 0 => Cert.KernelIdeal.Gen.k2_pay2 (Y 0) (W 0) (Cert.KernelIdeal.Gen.k2_pay1 (F := Ideal))
  | n + 1 => if h : n + 1 < 8 then Cert.KernelIdeal.Gen.k2_pay2 (Y ⟨n + 1, h⟩) (W ⟨n + 1, h⟩) (accFold2 Y W n) else accFold2 Y W n

/-- Both layers accumulate alike. -/
theorem accFold2_eq (Y : Fin 8 → FVec Ideal S32x1024 .f32) (W : Fin 8 → FVec Ideal S1024x1024 .f32) (n : ℕ) :
    accFold2 Y W n = accFold1 Y W n := by
  induction n with
  | zero => rw [accFold2, accFold1, k2_pay2_eq, k2_pay1_eq]
  | succ n ih => rw [accFold2, accFold1, ih]; simp only [k2_pay2_eq]

/-- Block `kb`'s partial product at (r, j); nothing for a block number past the last. -/
def blockTerm (Y : Fin 8 → FVec Ideal S32x1024 .f32) (W : Fin 8 → FVec Ideal S1024x1024 .f32) (r : Fin 32) (j : Fin 1024) (kb : ℕ) :
    Ideal .f32 :=
  if h : kb < 8 then ∑ i : Fin 1024, Y ⟨kb, h⟩ (ix2 r i) * W ⟨kb, h⟩ (ix2 i j) else 0

/-- After blocks 0..n the scratch holds, at (r, j), the sum of those blocks' partial products: the reset tile
    contributes zero and each step adds one block. -/
theorem accFold1_apply (Y : Fin 8 → FVec Ideal S32x1024 .f32) (W : Fin 8 → FVec Ideal S1024x1024 .f32) (r : Fin 32) (j : Fin 1024)
    (n : ℕ) : accFold1 Y W n (ix2 r j) = ∑ kb ∈ Finset.range (n + 1), blockTerm Y W r j kb := by
  induction n with
  | zero =>
    rw [accFold1, k1_pay2_apply, k1_pay1_apply, zero_add, Finset.sum_range_one]
    unfold blockTerm
    rw [dif_pos (by omega)]
    rfl
  | succ n ih =>
    rw [Finset.sum_range_succ, ← ih, accFold1]
    unfold blockTerm
    by_cases h : n + 1 < 8
    · rw [dif_pos h, dif_pos h, k1_pay2_apply]
    · rw [dif_neg h, dif_neg h, add_zero]

/-- After all eight blocks: the double sum over blocks and positions inside a block. -/
theorem accFold1_seven (Y : Fin 8 → FVec Ideal S32x1024 .f32) (W : Fin 8 → FVec Ideal S1024x1024 .f32) (r : Fin 32) (j : Fin 1024) :
    accFold1 Y W 7 (ix2 r j) = ∑ kb : Fin 8, ∑ i : Fin 1024, Y kb (ix2 r i) * W kb (ix2 i j) := by
  rw [accFold1_apply]
  show ∑ kb ∈ Finset.range 8, blockTerm Y W r j kb = _
  rw [← Fin.sum_univ_eq_sum_range (fun kb => blockTerm Y W r j kb) 8]
  refine Finset.sum_congr rfl fun kb _ => ?_
  unfold blockTerm
  rw [dif_pos kb.isLt]

/-! ## The reference's dense layer read at an index -/

open Cert.ReferenceIdeal (S32x8192 S8192x8192 S8192 S1x8192 S_)

section Reference
variable [Cert.ReferenceIdeal.Facts]

theorem lhsR_0 (j : S32x8192.Idx) (k : Cert.ReferenceIdeal.dot_S32x8192_S8192x8192_S32x8192_1_0_0_1_n_n.contr.Idx) :
    (Cert.ReferenceIdeal.dot_S32x8192_S8192x8192_S32x8192_1_0_0_1_n_n.lhsIdx j k 0 : ℕ) = j 0 := by
  simp [DotDims.lhsIdx, Cert.ReferenceIdeal.dot_S32x8192_S8192x8192_S32x8192_1_0_0_1_n_n]; rfl
theorem lhsR_1 (j : S32x8192.Idx) (k : Cert.ReferenceIdeal.dot_S32x8192_S8192x8192_S32x8192_1_0_0_1_n_n.contr.Idx) :
    (Cert.ReferenceIdeal.dot_S32x8192_S8192x8192_S32x8192_1_0_0_1_n_n.lhsIdx j k 1 : ℕ) = k ⟨0, Nat.one_pos⟩ :=
  DotDims.lhsIdx_val_of_single (d := Cert.ReferenceIdeal.dot_S32x8192_S8192x8192_S32x8192_1_0_0_1_n_n) (cl := 1) rfl j k
theorem rhsR_0 (j : S32x8192.Idx) (k : Cert.ReferenceIdeal.dot_S32x8192_S8192x8192_S32x8192_1_0_0_1_n_n.contr.Idx) :
    (Cert.ReferenceIdeal.dot_S32x8192_S8192x8192_S32x8192_1_0_0_1_n_n.rhsIdx j k 0 : ℕ) = k ⟨0, Nat.one_pos⟩ :=
  DotDims.rhsIdx_val_of_single (d := Cert.ReferenceIdeal.dot_S32x8192_S8192x8192_S32x8192_1_0_0_1_n_n) (cr := 0) rfl j k
theorem rhsR_1 (j : S32x8192.Idx) (k : Cert.ReferenceIdeal.dot_S32x8192_S8192x8192_S32x8192_1_0_0_1_n_n.contr.Idx) :
    (Cert.ReferenceIdeal.dot_S32x8192_S8192x8192_S32x8192_1_0_0_1_n_n.rhsIdx j k 1 : ℕ) = j 1 := by
  simp [DotDims.rhsIdx, Cert.ReferenceIdeal.dot_S32x8192_S8192x8192_S32x8192_1_0_0_1_n_n]; rfl

/-- The whole product `dot_general` read at (r, c): the sum over the 8192 contraction positions. -/
theorem dotR_apply (y : FVec Ideal S32x8192 .f32) (w : FVec Ideal S8192x8192 .f32) (r : Fin 32) (c : Fin 8192) :
    Host.dotGeneral (F := Ideal) Cert.ReferenceIdeal.dot_S32x8192_S8192x8192_S32x8192_1_0_0_1_n_n none y w (ix2 r c)
      = ∑ k : Fin 8192, y (ix2 r k) * w (ix2 k c) := by
  simp only [Host.dotGeneral]
  rw [Ideal.dotGeneral_apply,
    ← Equiv.sum_comp (contrEquiv1 Cert.ReferenceIdeal.dot_S32x8192_S8192x8192_S32x8192_1_0_0_1_n_n 8192 rfl rfl).symm]
  refine Finset.sum_congr rfl fun i _ => ?_
  congr 2
  · funext a
    refine Fin.ext ?_
    match a with
    | ⟨0, _⟩ => exact lhsR_0 _ _
    | ⟨1, _⟩ => exact (lhsR_1 _ _).trans (contrEquiv1_symm_val _ 8192 rfl rfl i)
  · funext a
    refine Fin.ext ?_
    match a with
    | ⟨0, _⟩ => exact (rhsR_0 _ _).trans (contrEquiv1_symm_val _ 8192 rfl rfl i)
    | ⟨1, _⟩ => exact rhsR_1 _ _

/-- The bias spread over the rows reads, at (r, c), the bias at c. -/
theorem overRows_apply (b : FVec Ideal S8192 .f32) (r : Fin 32) (c : Fin 8192) :
    Cert.ReferenceIdeal.Spec.overRows (F := Ideal) b (ix2 r c) = b (ix1 c) := by
  unfold Cert.ReferenceIdeal.Spec.overRows
  rw [broadcastInDim_apply _ _ _ (ix2 r c) (ix2 (0 : Fin 1) c) (fun a => by
      match a with
      | ⟨0, _⟩ => rfl
      | ⟨1, _⟩ => rfl),
    broadcastInDim_apply _ _ _ (ix2 (0 : Fin 1) c) (ix1 c) (fun a => by
      match a with
      | ⟨0, _⟩ => rfl)]

/-- The dense layer at (r, c): the whole contraction plus the bias. -/
theorem dense_apply (y : FVec Ideal S32x8192 .f32) (w : FVec Ideal S8192x8192 .f32) (b : FVec Ideal S8192 .f32) (r : Fin 32) (c : Fin 8192) :
    Cert.ReferenceIdeal.Spec.dense (F := Ideal) y w b (ix2 r c) = (∑ k : Fin 8192, y (ix2 r k) * w (ix2 k c)) + b (ix1 c) := by
  unfold Cert.ReferenceIdeal.Spec.dense
  rw [addf_apply, dotR_apply, overRows_apply]

/-- The first feed-forward layer at (r, c): the dense layer cut off below at zero. -/
theorem ffn1_apply (y : FVec Ideal S32x8192 .f32) (w : FVec Ideal S8192x8192 .f32) (b : FVec Ideal S8192 .f32) (r : Fin 32) (c : Fin 8192) :
    Cert.ReferenceIdeal.Spec.ffn1 (F := Ideal) y w b (ix2 r c) = max ((∑ k : Fin 8192, y (ix2 r k) * w (ix2 k c)) + b (ix1 c)) 0 := by
  unfold Cert.ReferenceIdeal.Spec.ffn1
  rw [maximumf_apply, dense_apply, broadcastInDim_scalar_apply, constant_apply, Ideal.ofBits_zero_f32]

/-- The second feed-forward layer at (r, c): the dense layer. -/
theorem ffn2_apply (y : FVec Ideal S32x8192 .f32) (w : FVec Ideal S8192x8192 .f32) (b : FVec Ideal S8192 .f32) (r : Fin 32) (c : Fin 8192) :
    Cert.ReferenceIdeal.Spec.ffn2 (F := Ideal) y w b (ix2 r c) = (∑ k : Fin 8192, y (ix2 r k) * w (ix2 k c)) + b (ix1 c) := by
  unfold Cert.ReferenceIdeal.Spec.ffn2
  exact dense_apply y w b r c

end Reference

/-! ## The blocked accumulation is the whole contraction -/

/-- The eight blocks' partial products, of operand blocks cut from y's columns and w's rows, add up to the whole
    contraction at the block's column. -/
theorem blocks_eq_whole (y : FVec Ideal Cert.KernelIdeal.S32x8192 .f32) (w : FVec Ideal Cert.KernelIdeal.S8192x8192 .f32) (nb : Fin 8)
    (Y : Fin 8 → FVec Ideal Cert.KernelIdeal.S32x1024 .f32) (W : Fin 8 → FVec Ideal Cert.KernelIdeal.S1024x1024 .f32)
    (hY : ∀ (kb : Fin 8) (r : Fin 32) (i : Fin 1024), Y kb (ValueIdx.ix2 r i) = y (ValueIdx.ix2 r ⟨kb.val * 1024 + i.val, by omega⟩))
    (hW : ∀ (kb : Fin 8) (i j : Fin 1024), W kb (ValueIdx.ix2 i j) = w (ValueIdx.ix2 ⟨kb.val * 1024 + i.val, by omega⟩ ⟨nb.val * 1024 + j.val, by omega⟩))
    (r : Fin 32) (j : Fin 1024) :
    (∑ kb : Fin 8, ∑ i : Fin 1024, Y kb (ix2 r i) * W kb (ix2 i j))
      = ∑ k : Fin 8192, y (ix2 r k) * w (ix2 k ⟨nb.val * 1024 + j.val, by omega⟩) := by
  rw [← sum_8_1024]
  exact Finset.sum_congr rfl fun kb _ => Finset.sum_congr rfl fun i _ => by rw [hY, hW]

/-- THE FIRST LAYER: what the last k-step stores of a column block is the reference's first feed-forward layer there. -/
theorem ffn1_block [Cert.KernelIdeal.Facts] [Cert.ReferenceIdeal.Facts]
    (y : FVec Ideal Cert.KernelIdeal.S32x8192 .f32) (w : FVec Ideal Cert.KernelIdeal.S8192x8192 .f32) (b : FVec Ideal Cert.KernelIdeal.S8192 .f32) (nb : Fin 8)
    (Y : Fin 8 → FVec Ideal Cert.KernelIdeal.S32x1024 .f32) (W : Fin 8 → FVec Ideal Cert.KernelIdeal.S1024x1024 .f32) (B : FVec Ideal Cert.KernelIdeal.S1024 .f32)
    (hY : ∀ (kb : Fin 8) (r : Fin 32) (i : Fin 1024), Y kb (ValueIdx.ix2 r i) = y (ValueIdx.ix2 r ⟨kb.val * 1024 + i.val, by omega⟩))
    (hW : ∀ (kb : Fin 8) (i j : Fin 1024), W kb (ValueIdx.ix2 i j) = w (ValueIdx.ix2 ⟨kb.val * 1024 + i.val, by omega⟩ ⟨nb.val * 1024 + j.val, by omega⟩))
    (hB : ∀ j : Fin 1024, B (ValueIdx.ix1 j) = b (ValueIdx.ix1 ⟨nb.val * 1024 + j.val, by omega⟩))
    (r : Fin 32) (j : Fin 1024) :
    Cert.KernelIdeal.Gen.k1_pay3 (F := Ideal) (accFold1 Y W 7) B (ValueIdx.ix2 r j)
      = Cert.ReferenceIdeal.Spec.ffn1 (F := Ideal) y w b (ValueIdx.ix2 r ⟨nb.val * 1024 + j.val, by omega⟩) := by
  rw [k1_pay3_apply, accFold1_seven, blocks_eq_whole y w nb Y W hY hW r j, hB j]
  exact (ffn1_apply y w b r _).symm

/-- THE SECOND LAYER: likewise, with no cut-off. -/
theorem ffn2_block [Cert.KernelIdeal.Facts] [Cert.ReferenceIdeal.Facts]
    (y : FVec Ideal Cert.KernelIdeal.S32x8192 .f32) (w : FVec Ideal Cert.KernelIdeal.S8192x8192 .f32) (b : FVec Ideal Cert.KernelIdeal.S8192 .f32) (nb : Fin 8)
    (Y : Fin 8 → FVec Ideal Cert.KernelIdeal.S32x1024 .f32) (W : Fin 8 → FVec Ideal Cert.KernelIdeal.S1024x1024 .f32) (B : FVec Ideal Cert.KernelIdeal.S1024 .f32)
    (hY : ∀ (kb : Fin 8) (r : Fin 32) (i : Fin 1024), Y kb (ValueIdx.ix2 r i) = y (ValueIdx.ix2 r ⟨kb.val * 1024 + i.val, by omega⟩))
    (hW : ∀ (kb : Fin 8) (i j : Fin 1024), W kb (ValueIdx.ix2 i j) = w (ValueIdx.ix2 ⟨kb.val * 1024 + i.val, by omega⟩ ⟨nb.val * 1024 + j.val, by omega⟩))
    (hB : ∀ j : Fin 1024, B (ValueIdx.ix1 j) = b (ValueIdx.ix1 ⟨nb.val * 1024 + j.val, by omega⟩))
    (r : Fin 32) (j : Fin 1024) :
    Cert.KernelIdeal.Gen.k2_pay3 (F := Ideal) (accFold2 Y W 7) B (ValueIdx.ix2 r j)
      = Cert.ReferenceIdeal.Spec.ffn2 (F := Ideal) y w b (ValueIdx.ix2 r ⟨nb.val * 1024 + j.val, by omega⟩) := by
  rw [k2_pay3_apply, accFold2_eq, accFold1_seven, blocks_eq_whole y w nb Y W hY hW r j, hB j]
  exact (ffn2_apply y w b r _).symm

end Cert.Bridge

end
-- ==== Proof.FfnValue.lean ====
/-
  The two K-blocked dense layers, read as whole arrays (at the ideal instance).

  Each layer runs on an 8 × 8 grid: point t has column block n = t / 8 and contraction block k = t % 8. At a point
  the staged blocks are y[:, k·1024 …], w[k·1024 …, n·1024 …] and b[n·1024 …]; a scratch accumulator is reset at
  k = 0, takes one block product per step, and at k = 7 the bias is added (and, in the first layer, the maximum with
  zero is taken) and the block (0, n) of the output is written back. So along one column block the accumulator is
  the fold of the eight block products; the block-sum law turns that fold plus the bias into the reference's dense
  layer at column n·1024 + j; and since the eight written blocks tile the 32 × 8192 output, the array the region
  leaves is the reference's whole-array function of the region's three argument arrays.
-/
import proofs.«129914_j85323820303106_1_alg».proof.Proof.KI.Ffn1
import proofs.«129914_j85323820303106_1_alg».proof.Proof.KI.Ffn2
import proofs.«129914_j85323820303106_1_alg».proof.Proof.Spec
import proofs.«129914_j85323820303106_1_alg».proof.Proof.BlockSum
import Idealize.ShloMosaic.Lib.Pipeline.Value
import Idealize.ShloMosaic.Lib.ValueIdx

set_option maxRecDepth 16384

noncomputable section

namespace Cert.Bridge

open Idealize.ShloMosaic Idealize.ShloMosaic.TcCoe
open Idealize.ShloMosaic.Pipeline (Dat)
open Cert.KernelIdeal Cert.KernelIdeal.Gen Cert.KernelIdeal.Hand

/-! ## Region 1: y · w2 + b2, then max with 0 -/

section Region1

/-- The printed index maps of region 1, decided once over the grid: with n = t / 8 the column block and
    k = t % 8 the contraction block, y is staged at block (0, k), the weight at block (k, n), the bias at block n and
    the output at block (0, n). -/
theorem idx_facts1 : ∀ t : Fin cfg1.N,
    win1_0.index t (0 : Fin 2) = 0 ∧ win1_0.index t (1 : Fin 2) = t.val % 8
    ∧ win1_1.index t (0 : Fin 2) = t.val % 8 ∧ win1_1.index t (1 : Fin 2) = t.val / 8
    ∧ win1_2.index t (0 : Fin 1) = t.val / 8
    ∧ win1_3.index t (0 : Fin 2) = 0 ∧ win1_3.index t (1 : Fin 2) = t.val / 8 :=
  (by decide +kernel : ∀ t : Fin grid1.N, _)

/-- The grid point of column block n and contraction block k. -/
def pt1 (n k : Fin 8) : Fin cfg1.N := ⟨n.val * 8 + k.val, by show n.val * 8 + k.val < 64; omega⟩

theorem pt1_val (n k : Fin 8) : (pt1 n k).val = n.val * 8 + k.val := rfl

variable [Cert.KernelIdeal.Facts] [Cert.ReferenceIdeal.Facts]
variable (V : (c : Dev nD) → (b : Ref sig .tc) → Buf (Elt Ideal) ((c : Thread nD τ).loc b))

/-- The staged block of y at a point: columns k·1024 … k·1024 + 1023. -/
theorem iblk1_0_apply (c : Dev nD) (t : Fin cfg1.N) (r : Fin 32) (i : Fin 1024) :
    (iblk1 (F := Ideal) V c 0 t : Vec Ideal S32x1024 .f32) (ValueIdx.ix2 r i)
      = (V c main_v0 : S32x8192.Idx → Elt Ideal .f32) (ValueIdx.ix2 r ⟨t.val % 8 * 1024 + i.val, by omega⟩) := by
  obtain ⟨e0, e1, -⟩ := idx_facts1 t
  unfold iblk1
  rw [View.read_apply]
  show V c main_v0 _ = V c main_v0 _
  congr 1
  funext a; apply Fin.ext
  match a with
  | ⟨0, _⟩ => show win1_0.index t (0 : Fin 2) * 32 + 1 * r.val = r.val; rw [e0]; omega
  | ⟨1, _⟩ => show win1_0.index t (1 : Fin 2) * 1024 + 1 * i.val = t.val % 8 * 1024 + i.val; rw [e1]; omega

/-- The staged block of the weight at a point: rows k·1024 …, columns n·1024 …. -/
theorem iblk1_1_apply (c : Dev nD) (t : Fin cfg1.N) (i j : Fin 1024) :
    (iblk1 (F := Ideal) V c 1 t : Vec Ideal S1024x1024 .f32) (ValueIdx.ix2 i j)
      = (V c main_arg6 : S8192x8192.Idx → Elt Ideal .f32)
          (ValueIdx.ix2 ⟨t.val % 8 * 1024 + i.val, by omega⟩ ⟨t.val / 8 * 1024 + j.val, by have := t.isLt; have : t.val < 64 := this; omega⟩) := by
  obtain ⟨-, -, e0, e1, -⟩ := idx_facts1 t
  unfold iblk1
  rw [View.read_apply]
  show V c main_arg6 _ = V c main_arg6 _
  congr 1
  funext a; apply Fin.ext
  match a with
  | ⟨0, _⟩ => show win1_1.index t (0 : Fin 2) * 1024 + 1 * i.val = t.val % 8 * 1024 + i.val; rw [e0]; omega
  | ⟨1, _⟩ => show win1_1.index t (1 : Fin 2) * 1024 + 1 * j.val = t.val / 8 * 1024 + j.val; rw [e1]; omega

/-- The staged block of the bias at a point: entries n·1024 …. -/
theorem iblk1_2_apply (c : Dev nD) (t : Fin cfg1.N) (j : Fin 1024) :
    (iblk1 (F := Ideal) V c 2 t : Vec Ideal S1024 .f32) (ValueIdx.ix1 j)
      = (V c main_arg7 : S8192.Idx → Elt Ideal .f32)
          (ValueIdx.ix1 ⟨t.val / 8 * 1024 + j.val, by have := t.isLt; have : t.val < 64 := this; omega⟩) := by
  obtain ⟨-, -, -, -, e0, -⟩ := idx_facts1 t
  unfold iblk1
  rw [View.read_apply]
  show V c main_arg7 _ = V c main_arg7 _
  congr 1
  funext a; apply Fin.ext
  match a with
  | ⟨0, _⟩ => show win1_2.index t (0 : Fin 1) * 1024 + 1 * j.val = t.val / 8 * 1024 + j.val; rw [e0]; omega

/-- The eight staged blocks of y met along column block n, -/
def yBlocks1 (c : Dev nD) (n : Fin 8) : Fin 8 → FVec Ideal S32x1024 .f32 := fun kb => iblk1 (F := Ideal) V c 0 (pt1 n kb)
/-- and the eight staged blocks of the weight. -/
def wBlocks1 (c : Dev nD) (n : Fin 8) : Fin 8 → FVec Ideal S1024x1024 .f32 := fun kb => iblk1 (F := Ideal) V c 1 (pt1 n kb)

theorem accAt1_congr (c : Dev nD) {a b : ℕ} (h : a = b) (ha : a < cfg1.N) (hb : b < cfg1.N) :
    accAt1 (F := Ideal) V c a ha = accAt1 (F := Ideal) V c b hb := by subst h; rfl

/-- Along column block n the carried accumulator after contraction block k is the fold of the first k + 1 staged
    pairs: reset at k = 0, one matmul-and-add per step after. -/
theorem accAt1_eq_fold (c : Dev nD) (n : Fin 8) : ∀ (k : ℕ) (hk : k < 8),
    accAt1 (F := Ideal) V c (n.val * 8 + k) (by show n.val * 8 + k < 64; omega)
      = accFold1 (yBlocks1 V c n) (wBlocks1 V c n) k
  | 0, _ => by
    have h := accAt1_first (F := Ideal) V c (pt1 n 0) (by rw [pt1_val]; show (n.val * 8 + 0) % 8 = 0; omega)
    rw [accFold1]
    exact h
  | k + 1, hk => by
    have h := accAt1_next (F := Ideal) V c (pt1 n ⟨k + 1, hk⟩) (by rw [pt1_val]; show (n.val * 8 + (k + 1)) % 8 ≠ 0; omega)
    rw [accFold1, dif_pos hk, ← accAt1_eq_fold c n k (by omega)]
    refine h.trans ?_
    congr 1

/-- What the last contraction step of column block n stores into the output's staging buffer, entry by entry: the
    first feed-forward layer of the whole arrays at row r, column n·1024 + j. -/
theorem out1_apply (c : Dev nD) (n : Fin 8) (r : Fin 32) (j : Fin 1024) :
    Gen.k1_pay3 (F := Ideal) (accAt1 (F := Ideal) V c (pt1 n 7).val (pt1 n 7).isLt) (iblk1 (F := Ideal) V c 2 (pt1 n 7)) (ValueIdx.ix2 r j)
      = Cert.ReferenceIdeal.Spec.ffn1 (F := Ideal) (V c main_v0) (V c main_arg6) (V c main_arg7)
          (ValueIdx.ix2 r ⟨n.val * 1024 + j.val, by omega⟩) := by
  rw [accAt1_congr V c (show (pt1 n 7).val = n.val * 8 + 7 from rfl) _ (by show n.val * 8 + 7 < 64; omega), accAt1_eq_fold V c n 7 (by omega)]
  refine ffn1_block (V c main_v0) (V c main_arg6) (V c main_arg7) n (yBlocks1 V c n) (wBlocks1 V c n) _ ?_ ?_ ?_ r j
  · intro kb r i
    show (iblk1 (F := Ideal) V c 0 (pt1 n kb) : Vec Ideal S32x1024 .f32) (ValueIdx.ix2 r i) = _
    rw [iblk1_0_apply]
    congr 2
    apply Fin.ext
    show (n.val * 8 + kb.val) % 8 * 1024 + i.val = kb.val * 1024 + i.val
    omega
  · intro kb i j
    show (iblk1 (F := Ideal) V c 1 (pt1 n kb) : Vec Ideal S1024x1024 .f32) (ValueIdx.ix2 i j) = _
    rw [iblk1_1_apply]
    congr 2
    · apply Fin.ext
      show (n.val * 8 + kb.val) % 8 * 1024 + i.val = kb.val * 1024 + i.val
      omega
    · apply Fin.ext
      show (n.val * 8 + kb.val) / 8 * 1024 + j.val = n.val * 1024 + j.val
      omega
  · intro j
    rw [iblk1_2_apply]
    congr 2
    apply Fin.ext
    show (n.val * 8 + 7) / 8 * 1024 + j.val = n.val * 1024 + j.val
    omega

/-- A flushing point is the last contraction step of its column block. -/
theorem eq_pt1_of_last (t : Fin cfg1.N) (h : t.val % 8 = 7) : t = pt1 ⟨t.val / 8, by have : t.val < 64 := t.isLt; omega⟩ 7 := by
  apply Fin.ext
  show t.val = t.val / 8 * 8 + 7
  omega

/-- An entry of what the last contraction step of column block n stores, against the whole-array function at the
    place the output's block puts it. -/
theorem out1_at_emb (c : Dev nD) (n : Fin 8) (x : S32x1024.Idx) :
    Gen.k1_pay3 (F := Ideal) (accAt1 (F := Ideal) V c (pt1 n 7).val (pt1 n 7).isLt) (iblk1 (F := Ideal) V c 2 (pt1 n 7)) x
      = Cert.ReferenceIdeal.Spec.ffn1 (F := Ideal) (V c main_v0) (V c main_arg6) (V c main_arg7)
          (((cfg1.win 3).blk (pt1 n 7)).view.emb x) := by
  obtain ⟨-, -, -, -, -, e0, e1⟩ := idx_facts1 (pt1 n 7)
  obtain ⟨r, j, rfl⟩ : ∃ (r : Fin 32) (j : Fin 1024), x = ValueIdx.ix2 r j := ⟨x 0, x 1, ValueIdx.eq_ix2 x⟩
  rw [out1_apply]
  congr 1
  funext a; apply Fin.ext
  match a with
  | ⟨0, _⟩ => show r.val = win1_3.index (pt1 n 7) (0 : Fin 2) * 32 + 1 * r.val; rw [e0]; omega
  | ⟨1, _⟩ => show n.val * 1024 + j.val = win1_3.index (pt1 n 7) (1 : Fin 2) * 1024 + 1 * j.val; rw [e1]; show _ = (n.val * 8 + 7) / 8 * 1024 + 1 * j.val; omega

/-- What a flushing point writes back is its block of the first feed-forward layer of the whole arrays. -/
theorem flushed1_eq (c : Dev nD) (t : Fin cfg1.N) (hf : (cfg1.win 3).flush t = true) :
    (dat1 (F := Ideal) V c).flushed 3 t
      = ((cfg1.win 3).blk t).view.read (Elt Ideal)
          (Cert.ReferenceIdeal.Spec.ffn1 (F := Ideal) (V c main_v0) (V c main_arg6) (V c main_arg7)) := by
  have h7 : t.val % 8 = 7 := (flush1_3 t).mp hf
  show (cfg1.win 3).cut (grid1.coords t) ((dat1 (F := Ideal) V c).after 3 t) = _
  rw [after1_3_last V c t h7, eq_pt1_of_last t h7]
  funext x
  exact out1_at_emb V c _ x

/-- An index of the output array is in a point's block iff each coordinate is in the block's range. -/
theorem mem_blk1_3 (t : Fin cfg1.N) (i : S32x8192.Idx) :
    i ∈ ((cfg1.win 3).blk t).view.set ↔ ∀ a : Fin 2, win1_3.index t a * S32x1024.size a ≤ (i a).val ∧ (i a).val < win1_3.index t a * S32x1024.size a + S32x1024.size a := by
  show i ∈ ((View.whole main_v1).slice (win1_3.rect t)).set ↔ _
  rw [View.set_slice_whole, Rect.mem_set_unit]
  exact Iff.rfl

/-- Every index of the output array is in the block of a flushing point: column j is written by the last
    contraction step of column block j / 1024. -/
theorem cover1 (i : S32x8192.Idx) : ∃ t : Fin cfg1.N, (cfg1.win 3).flush t = true ∧ i ∈ ((cfg1.win 3).blk t).view.set := by
  have h0 : (i 0).val < 32 := (i 0).isLt
  have h1 : (i 1).val < 8192 := (i 1).isLt
  refine ⟨pt1 ⟨(i 1).val / 1024, by omega⟩ 7, (flush1_3 _).mpr (by show ((i 1).val / 1024 * 8 + 7) % 8 = 7; omega), ?_⟩
  obtain ⟨-, -, -, -, -, e0, e1⟩ := idx_facts1 (pt1 ⟨(i 1).val / 1024, by omega⟩ 7)
  rw [mem_blk1_3]
  intro a
  match a with
  | ⟨0, _⟩ => show win1_3.index _ (0 : Fin 2) * 32 ≤ (i 0).val ∧ (i 0).val < win1_3.index _ (0 : Fin 2) * 32 + 32; rw [e0]; omega
  | ⟨1, _⟩ => show win1_3.index _ (1 : Fin 2) * 1024 ≤ (i 1).val ∧ (i 1).val < win1_3.index _ (1 : Fin 2) * 1024 + 1024; rw [e1]; show ((i 1).val / 1024 * 8 + 7) / 8 * 1024 ≤ (i 1).val ∧ (i 1).val < ((i 1).val / 1024 * 8 + 7) / 8 * 1024 + 1024; omega

/-- THE ARRAY region 1 leaves: the first feed-forward layer of its three argument arrays. -/
theorem ffn1_arr (c : Dev nD) :
    (dat1 (F := Ideal) V c).arrAt 3 cfg1.N
      = Cert.ReferenceIdeal.Spec.ffn1 (F := Ideal) (V c main_v0) (V c main_arg6) (V c main_arg7) :=
  (dat1 (F := Ideal) V c).arrAt_eq_of_cover 3 _ (flushed1_eq V c) fun i => cover1 i

end Region1

/-! ## Region 2: z · w3 + b3 -/

section Region2

/-- The printed index maps of region 2, decided once over the grid: with n = t / 8 the column block and
    k = t % 8 the contraction block, y is staged at block (0, k), the weight at block (k, n), the bias at block n and
    the output at block (0, n). -/
theorem idx_facts2 : ∀ t : Fin cfg2.N,
    win2_0.index t (0 : Fin 2) = 0 ∧ win2_0.index t (1 : Fin 2) = t.val % 8
    ∧ win2_1.index t (0 : Fin 2) = t.val % 8 ∧ win2_1.index t (1 : Fin 2) = t.val / 8
    ∧ win2_2.index t (0 : Fin 1) = t.val / 8
    ∧ win2_3.index t (0 : Fin 2) = 0 ∧ win2_3.index t (1 : Fin 2) = t.val / 8 :=
  (by decide +kernel : ∀ t : Fin grid2.N, _)

/-- The grid point of column block n and contraction block k. -/
def pt2 (n k : Fin 8) : Fin cfg2.N := ⟨n.val * 8 + k.val, by show n.val * 8 + k.val < 64; omega⟩

theorem pt2_val (n k : Fin 8) : (pt2 n k).val = n.val * 8 + k.val := rfl

variable [Cert.KernelIdeal.Facts] [Cert.ReferenceIdeal.Facts]
variable (V : (c : Dev nD) → (b : Ref sig .tc) → Buf (Elt Ideal) ((c : Thread nD τ).loc b))

/-- The staged block of y at a point: columns k·1024 … k·1024 + 1023. -/
theorem iblk2_0_apply (c : Dev nD) (t : Fin cfg2.N) (r : Fin 32) (i : Fin 1024) :
    (iblk2 (F := Ideal) V c 0 t : Vec Ideal S32x1024 .f32) (ValueIdx.ix2 r i)
      = (V c main_v1 : S32x8192.Idx → Elt Ideal .f32) (ValueIdx.ix2 r ⟨t.val % 8 * 1024 + i.val, by omega⟩) := by
  obtain ⟨e0, e1, -⟩ := idx_facts2 t
  unfold iblk2
  rw [View.read_apply]
  show V c main_v1 _ = V c main_v1 _
  congr 1
  funext a; apply Fin.ext
  match a with
  | ⟨0, _⟩ => show win2_0.index t (0 : Fin 2) * 32 + 1 * r.val = r.val; rw [e0]; omega
  | ⟨1, _⟩ => show win2_0.index t (1 : Fin 2) * 1024 + 1 * i.val = t.val % 8 * 1024 + i.val; rw [e1]; omega

/-- The staged block of the weight at a point: rows k·1024 …, columns n·1024 …. -/
theorem iblk2_1_apply (c : Dev nD) (t : Fin cfg2.N) (i j : Fin 1024) :
    (iblk2 (F := Ideal) V c 1 t : Vec Ideal S1024x1024 .f32) (ValueIdx.ix2 i j)
      = (V c main_arg8 : S8192x8192.Idx → Elt Ideal .f32)
          (ValueIdx.ix2 ⟨t.val % 8 * 1024 + i.val, by omega⟩ ⟨t.val / 8 * 1024 + j.val, by have := t.isLt; have : t.val < 64 := this; omega⟩) := by
  obtain ⟨-, -, e0, e1, -⟩ := idx_facts2 t
  unfold iblk2
  rw [View.read_apply]
  show V c main_arg8 _ = V c main_arg8 _
  congr 1
  funext a; apply Fin.ext
  match a with
  | ⟨0, _⟩ => show win2_1.index t (0 : Fin 2) * 1024 + 1 * i.val = t.val % 8 * 1024 + i.val; rw [e0]; omega
  | ⟨1, _⟩ => show win2_1.index t (1 : Fin 2) * 1024 + 1 * j.val = t.val / 8 * 1024 + j.val; rw [e1]; omega

/-- The staged block of the bias at a point: entries n·1024 …. -/
theorem iblk2_2_apply (c : Dev nD) (t : Fin cfg2.N) (j : Fin 1024) :
    (iblk2 (F := Ideal) V c 2 t : Vec Ideal S1024 .f32) (ValueIdx.ix1 j)
      = (V c main_arg9 : S8192.Idx → Elt Ideal .f32)
          (ValueIdx.ix1 ⟨t.val / 8 * 1024 + j.val, by have := t.isLt; have : t.val < 64 := this; omega⟩) := by
  obtain ⟨-, -, -, -, e0, -⟩ := idx_facts2 t
  unfold iblk2
  rw [View.read_apply]
  show V c main_arg9 _ = V c main_arg9 _
  congr 1
  funext a; apply Fin.ext
  match a with
  | ⟨0, _⟩ => show win2_2.index t (0 : Fin 1) * 1024 + 1 * j.val = t.val / 8 * 1024 + j.val; rw [e0]; omega

/-- The eight staged blocks of y met along column block n, -/
def yBlocks2 (c : Dev nD) (n : Fin 8) : Fin 8 → FVec Ideal S32x1024 .f32 := fun kb => iblk2 (F := Ideal) V c 0 (pt2 n kb)
/-- and the eight staged blocks of the weight. -/
def wBlocks2 (c : Dev nD) (n : Fin 8) : Fin 8 → FVec Ideal S1024x1024 .f32 := fun kb => iblk2 (F := Ideal) V c 1 (pt2 n kb)

theorem accAt2_congr (c : Dev nD) {a b : ℕ} (h : a = b) (ha : a < cfg2.N) (hb : b < cfg2.N) :
    accAt2 (F := Ideal) V c a ha = accAt2 (F := Ideal) V c b hb := by subst h; rfl

/-- Along column block n the carried accumulator after contraction block k is the fold of the first k + 1 staged
    pairs: reset at k = 0, one matmul-and-add per step after. -/
theorem accAt2_eq_fold (c : Dev nD) (n : Fin 8) : ∀ (k : ℕ) (hk : k < 8),
    accAt2 (F := Ideal) V c (n.val * 8 + k) (by show n.val * 8 + k < 64; omega)
      = accFold2 (yBlocks2 V c n) (wBlocks2 V c n) k
  | 0, _ => by
    have h := accAt2_first (F := Ideal) V c (pt2 n 0) (by rw [pt2_val]; show (n.val * 8 + 0) % 8 = 0; omega)
    rw [accFold2]
    exact h
  | k + 1, hk => by
    have h := accAt2_next (F := Ideal) V c (pt2 n ⟨k + 1, hk⟩) (by rw [pt2_val]; show (n.val * 8 + (k + 1)) % 8 ≠ 0; omega)
    rw [accFold2, dif_pos hk, ← accAt2_eq_fold c n k (by omega)]
    refine h.trans ?_
    congr 1

/-- What the last contraction step of column block n stores into the output's staging buffer, entry by entry: the
    second feed-forward layer of the whole arrays at row r, column n·1024 + j. -/
theorem out2_apply (c : Dev nD) (n : Fin 8) (r : Fin 32) (j : Fin 1024) :
    Gen.k2_pay3 (F := Ideal) (accAt2 (F := Ideal) V c (pt2 n 7).val (pt2 n 7).isLt) (iblk2 (F := Ideal) V c 2 (pt2 n 7)) (ValueIdx.ix2 r j)
      = Cert.ReferenceIdeal.Spec.ffn2 (F := Ideal) (V c main_v1) (V c main_arg8) (V c main_arg9)
          (ValueIdx.ix2 r ⟨n.val * 1024 + j.val, by omega⟩) := by
  rw [accAt2_congr V c (show (pt2 n 7).val = n.val * 8 + 7 from rfl) _ (by show n.val * 8 + 7 < 64; omega), accAt2_eq_fold V c n 7 (by omega)]
  refine ffn2_block (V c main_v1) (V c main_arg8) (V c main_arg9) n (yBlocks2 V c n) (wBlocks2 V c n) _ ?_ ?_ ?_ r j
  · intro kb r i
    show (iblk2 (F := Ideal) V c 0 (pt2 n kb) : Vec Ideal S32x1024 .f32) (ValueIdx.ix2 r i) = _
    rw [iblk2_0_apply]
    congr 2
    apply Fin.ext
    show (n.val * 8 + kb.val) % 8 * 1024 + i.val = kb.val * 1024 + i.val
    omega
  · intro kb i j
    show (iblk2 (F := Ideal) V c 1 (pt2 n kb) : Vec Ideal S1024x1024 .f32) (ValueIdx.ix2 i j) = _
    rw [iblk2_1_apply]
    congr 2
    · apply Fin.ext
      show (n.val * 8 + kb.val) % 8 * 1024 + i.val = kb.val * 1024 + i.val
      omega
    · apply Fin.ext
      show (n.val * 8 + kb.val) / 8 * 1024 + j.val = n.val * 1024 + j.val
      omega
  · intro j
    rw [iblk2_2_apply]
    congr 2
    apply Fin.ext
    show (n.val * 8 + 7) / 8 * 1024 + j.val = n.val * 1024 + j.val
    omega

/-- A flushing point is the last contraction step of its column block. -/
theorem eq_pt2_of_last (t : Fin cfg2.N) (h : t.val % 8 = 7) : t = pt2 ⟨t.val / 8, by have : t.val < 64 := t.isLt; omega⟩ 7 := by
  apply Fin.ext
  show t.val = t.val / 8 * 8 + 7
  omega

/-- An entry of what the last contraction step of column block n stores, against the whole-array function at the
    place the output's block puts it. -/
theorem out2_at_emb (c : Dev nD) (n : Fin 8) (x : S32x1024.Idx) :
    Gen.k2_pay3 (F := Ideal) (accAt2 (F := Ideal) V c (pt2 n 7).val (pt2 n 7).isLt) (iblk2 (F := Ideal) V c 2 (pt2 n 7)) x
      = Cert.ReferenceIdeal.Spec.ffn2 (F := Ideal) (V c main_v1) (V c main_arg8) (V c main_arg9)
          (((cfg2.win 3).blk (pt2 n 7)).view.emb x) := by
  obtain ⟨-, -, -, -, -, e0, e1⟩ := idx_facts2 (pt2 n 7)
  obtain ⟨r, j, rfl⟩ : ∃ (r : Fin 32) (j : Fin 1024), x = ValueIdx.ix2 r j := ⟨x 0, x 1, ValueIdx.eq_ix2 x⟩
  rw [out2_apply]
  congr 1
  funext a; apply Fin.ext
  match a with
  | ⟨0, _⟩ => show r.val = win2_3.index (pt2 n 7) (0 : Fin 2) * 32 + 1 * r.val; rw [e0]; omega
  | ⟨1, _⟩ => show n.val * 1024 + j.val = win2_3.index (pt2 n 7) (1 : Fin 2) * 1024 + 1 * j.val; rw [e1]; show _ = (n.val * 8 + 7) / 8 * 1024 + 1 * j.val; omega

/-- What a flushing point writes back is its block of the second feed-forward layer of the whole arrays. -/
theorem flushed2_eq (c : Dev nD) (t : Fin cfg2.N) (hf : (cfg2.win 3).flush t = true) :
    (dat2 (F := Ideal) V c).flushed 3 t
      = ((cfg2.win 3).blk t).view.read (Elt Ideal)
          (Cert.ReferenceIdeal.Spec.ffn2 (F := Ideal) (V c main_v1) (V c main_arg8) (V c main_arg9)) := by
  have h7 : t.val % 8 = 7 := (flush2_3 t).mp hf
  show (cfg2.win 3).cut (grid2.coords t) ((dat2 (F := Ideal) V c).after 3 t) = _
  rw [after2_3_last V c t h7, eq_pt2_of_last t h7]
  funext x
  exact out2_at_emb V c _ x

/-- An index of the output array is in a point's block iff each coordinate is in the block's range. -/
theorem mem_blk2_3 (t : Fin cfg2.N) (i : S32x8192.Idx) :
    i ∈ ((cfg2.win 3).blk t).view.set ↔ ∀ a : Fin 2, win2_3.index t a * S32x1024.size a ≤ (i a).val ∧ (i a).val < win2_3.index t a * S32x1024.size a + S32x1024.size a := by
  show i ∈ ((View.whole main_v2).slice (win2_3.rect t)).set ↔ _
  rw [View.set_slice_whole, Rect.mem_set_unit]
  exact Iff.rfl

/-- Every index of the output array is in the block of a flushing point: column j is written by the last
    contraction step of column block j / 1024. -/
theorem cover2 (i : S32x8192.Idx) : ∃ t : Fin cfg2.N, (cfg2.win 3).flush t = true ∧ i ∈ ((cfg2.win 3).blk t).view.set := by
  have h0 : (i 0).val < 32 := (i 0).isLt
  have h1 : (i 1).val < 8192 := (i 1).isLt
  refine ⟨pt2 ⟨(i 1).val / 1024, by omega⟩ 7, (flush2_3 _).mpr (by show ((i 1).val / 1024 * 8 + 7) % 8 = 7; omega), ?_⟩
  obtain ⟨-, -, -, -, -, e0, e1⟩ := idx_facts2 (pt2 ⟨(i 1).val / 1024, by omega⟩ 7)
  rw [mem_blk2_3]
  intro a
  match a with
  | ⟨0, _⟩ => show win2_3.index _ (0 : Fin 2) * 32 ≤ (i 0).val ∧ (i 0).val < win2_3.index _ (0 : Fin 2) * 32 + 32; rw [e0]; omega
  | ⟨1, _⟩ => show win2_3.index _ (1 : Fin 2) * 1024 ≤ (i 1).val ∧ (i 1).val < win2_3.index _ (1 : Fin 2) * 1024 + 1024; rw [e1]; show ((i 1).val / 1024 * 8 + 7) / 8 * 1024 ≤ (i 1).val ∧ (i 1).val < ((i 1).val / 1024 * 8 + 7) / 8 * 1024 + 1024; omega

/-- THE ARRAY region 2 leaves: the second feed-forward layer of its three argument arrays. -/
theorem ffn2_arr (c : Dev nD) :
    (dat2 (F := Ideal) V c).arrAt 3 cfg2.N
      = Cert.ReferenceIdeal.Spec.ffn2 (F := Ideal) (V c main_v1) (V c main_arg8) (V c main_arg9) :=
  (dat2 (F := Ideal) V c).arrAt_eq_of_cover 3 _ (flushed2_eq V c) fun i => cover2 i

end Region2

end Cert.Bridge

end
-- ==== Proof.Tail.lean ====
/-
  The kernel program's host tail, read as a value: after the three kernel regions, @main adds the first and third regions'
  results, and applies a LayerNorm over the last axis — the row mean, the variance through the outlined variance function
  (its normaliser and "normaliser positive" guard), the reciprocal square root of variance plus ε, the product. Each of the
  three host stretches is read at a generic valuation of the buffers; composed, the program's result buffer holds the
  reference's closing function `finish` of the two regions' results.
-/
import proofs.«129914_j85323820303106_1_alg».proof.Proof.Gen.KernelIdeal.Regions
import proofs.«129914_j85323820303106_1_alg».proof.Proof.Spec
import Idealize.ShloMosaic.Lib.StableHlo.Run

noncomputable section

namespace Cert.Bridge

open Idealize.ShloMosaic Idealize.ShloMosaic.TcCoe Idealize.SL.Sem
open Cert.KernelIdeal
open Cert.KernelIdeal.Facts₀ Cert.KernelIdeal.Facts
open Cert.ReferenceIdeal.Spec (T)

variable {F : FTy → Type} [FloatOps F] [Cert.KernelIdeal.Facts] [Cert.ReferenceIdeal.Facts]

variable (W : Valuation τ sig (Elt F))

/-- The first stretch: the residual sum. -/
theorem sum_read : (StableHlo.after Gen.hostOps3 W (Proc.devRef .tc main_v3) : T F S32x8192)
    = addf (W (Proc.devRef .tc main_v0)) (W (Proc.devRef .tc main_v2)) := by
  after_results

/-- The first stretch: the row means of the residual sum. -/
theorem mean_read : (StableHlo.after Gen.hostOps3 W (Proc.devRef .tc main_v7) : T F S32x1)
    = Host.divf (broadcastInDim S32x1 ![0] bcast_S32_S32x1_0
        (Host.reduceAdd (addf (W (Proc.devRef .tc main_v0)) (W (Proc.devRef .tc main_v2))) (constant S_ .f32 0x00000000#32) reducesTo_S32x8192_S32_d1 h_S_))
      (broadcastInDim S32x1 ![] bcast_S_S32x1 (constant S_ .f32 0x46000000#32)) := by
  after_results

/-- The first stretch: the variance's integer correction is the zero word. -/
theorem ddof_read : (StableHlo.after Gen.hostOps3 W (Proc.devRef .tc main_c) : (⟨S_, .i32⟩ : BufTy).Contents (Elt F))
    = constantI S_ 32 0#32 := by
  after_results

/-- The second stretch (the outlined variance): from the array `u` it is handed and its integer correction `d`. -/
theorem variance_read : (StableHlo.after Gen.hostOps3_1 W (Proc.devRef .tc main_v8) : T F S32x1)
    = select (broadcastInDim S32x1 ![] bcast_S_S32x1
          (cmpf .ogt (subf (constant (F := F) S_ .f32 0x46000000#32) (sitofp (F := F) .f32 (W (Proc.devRef .tc main_c) : (⟨S_, .i32⟩ : BufTy).Contents (Elt F)))) (constant (F := F) S_ .f32 0x00000000#32)))
        (Host.divf
          (broadcastInDim S32x1 ![0] bcast_S32_S32x1_0
            (Host.reduceAdd
              (mulf
                (subf (W (Proc.devRef .tc main_v3)) (broadcastInDim S32x8192 ![0, 1] bcast_S32x1_S32x8192_0_1
                  (Host.divf (broadcastInDim S32x1 ![0] bcast_S32_S32x1_0 (Host.reduceAdd (W (Proc.devRef .tc main_v3)) (constant (F := F) S_ .f32 0x00000000#32) reducesTo_S32x8192_S32_d1 h_S_))
                    (broadcastInDim S32x1 ![] bcast_S_S32x1 (constant (F := F) S_ .f32 0x46000000#32)))))
                (subf (W (Proc.devRef .tc main_v3)) (broadcastInDim S32x8192 ![0, 1] bcast_S32x1_S32x8192_0_1
                  (Host.divf (broadcastInDim S32x1 ![0] bcast_S32_S32x1_0 (Host.reduceAdd (W (Proc.devRef .tc main_v3)) (constant (F := F) S_ .f32 0x00000000#32) reducesTo_S32x8192_S32_d1 h_S_))
                    (broadcastInDim S32x1 ![] bcast_S_S32x1 (constant (F := F) S_ .f32 0x46000000#32))))))
              (constant (F := F) S_ .f32 0x00000000#32) reducesTo_S32x8192_S32_d1 h_S_))
          (broadcastInDim S32x1 ![] bcast_S_S32x1 (subf (constant (F := F) S_ .f32 0x46000000#32) (sitofp (F := F) .f32 (W (Proc.devRef .tc main_c) : (⟨S_, .i32⟩ : BufTy).Contents (Elt F))))))
        (broadcastInDim S32x1 ![] bcast_S_S32x1 (id (constant (F := F) S_ .f32 0x7FC00000#32))) := by
  after_results
  rfl

/-- The third stretch: centre, scale by the reciprocal square root of variance plus ε. -/
theorem norm_read : (StableHlo.after Gen.hostOps3_2 W (Proc.devRef .tc main_v15) : T F S32x8192)
    = mulf (subf (W (Proc.devRef .tc main_v3)) (broadcastInDim S32x8192 ![0, 1] bcast_S32x1_S32x8192_0_1 (W (Proc.devRef .tc main_v7))))
        (broadcastInDim S32x8192 ![0, 1] bcast_S32x1_S32x8192_0_1
          (Host.rsqrt (addf (W (Proc.devRef .tc main_v8)) (broadcastInDim S32x1 ![] bcast_S_S32x1 (constant S_ .f32 0x3727C5AC#32))))) := by
  after_results

variable (m : (ℓ : Loc nD τ sig) → Buf (Elt F) ℓ) (outs : Gen.Outs (F := F))

/-- The program's result buffer after the whole host tail is the closing LayerNorm of the sum of the first and third
    regions' results: the three stretches composed, the buffers a later stretch does not write read through it. -/
theorem tail_eq (c : Dev nD) :
    (Gen.V6 m outs c (Proc.devRef .tc main_v15) : T F S32x8192)
      = Cert.ReferenceIdeal.Spec.finish (F := F) (Gen.V3 m outs c (Proc.devRef .tc main_v0)) (Gen.V3 m outs c (Proc.devRef .tc main_v2)) := by
  have h3 : (Gen.V5 m outs c (Proc.devRef .tc main_v3) : T F S32x8192) = addf (Gen.V3 m outs c (Proc.devRef .tc main_v0)) (Gen.V3 m outs c (Proc.devRef .tc main_v2)) :=
    (Gen.V5_of m outs c main_v3 (by decide)).trans (sum_read (Gen.V3 m outs c))
  have h7 := (Gen.V5_of m outs c main_v7 (by decide)).trans (mean_read (Gen.V3 m outs c))
  have hc := ddof_read (Gen.V3 m outs c)
  have h3' : (Gen.V4 m outs c (Proc.devRef .tc main_v3) : T F S32x8192) = addf (Gen.V3 m outs c (Proc.devRef .tc main_v0)) (Gen.V3 m outs c (Proc.devRef .tc main_v2)) :=
    sum_read (Gen.V3 m outs c)
  have h8 := variance_read (Gen.V4 m outs c)
  show StableHlo.after Gen.hostOps3_2 (Gen.V5 m outs c) (Proc.devRef .tc main_v15) = _
  rw [norm_read, h3, h7]
  show _ = Cert.ReferenceIdeal.Spec.layerNorm _
  rw [show Gen.V5 m outs c (Proc.devRef .tc main_v8) = StableHlo.after Gen.hostOps3_1 (Gen.V4 m outs c) (Proc.devRef .tc main_v8) from rfl, h8, h3']
  rw [show (Gen.V4 m outs c (Proc.devRef .tc main_c) : (⟨S_, .i32⟩ : BufTy).Contents (Elt F)) = constantI S_ 32 0#32 from hc]
  rfl

end Cert.Bridge

end
-- ==== Proof.Chain.lean ====
/-
  The kernel program's result as the reference's function of the ten arguments, at the ideal instance: the three regions'
  output arrays read off their proof data (the attention region's one whole-array block; each dense layer's eight column
  blocks, every one the fold of eight contraction blocks), chained through the buffers' contents between @main's items, and
  closed by the host tail's LayerNorm.
-/
import proofs.«129914_j85323820303106_1_alg».proof.Proof.KI.Run
import proofs.«129914_j85323820303106_1_alg».proof.Proof.KI.AttnValue
import proofs.«129914_j85323820303106_1_alg».proof.Proof.Stage1
import proofs.«129914_j85323820303106_1_alg».proof.Proof.FfnValue
import proofs.«129914_j85323820303106_1_alg».proof.Proof.Tail

noncomputable section

namespace Cert.Bridge

open Idealize.ShloMosaic Idealize.ShloMosaic.TcCoe Idealize.SL.Sem
open Cert.KernelIdeal
open Cert.ReferenceIdeal.Spec (T)

variable [Cert.KernelIdeal.Facts] [Cert.ReferenceIdeal.Facts]
variable (m : (ℓ : Loc nD τ sig) → Buf (Elt Ideal) ℓ)

/-- The buffers at launch, read at the TensorCore's references. -/
abbrev R0 : (c : Dev nD) → (b : Ref sig .tc) → Buf (Elt Ideal) ((c : Thread nD τ).loc b) := fun c b => Gen.V0 m c b
/-- … after the attention region. -/
abbrev R1 : (c : Dev nD) → (b : Ref sig .tc) → Buf (Elt Ideal) ((c : Thread nD τ).loc b) := fun c b => Gen.V1 m (Hand.outs m) c b
/-- … after the first dense layer. -/
abbrev R2 : (c : Dev nD) → (b : Ref sig .tc) → Buf (Elt Ideal) ((c : Thread nD τ).loc b) := fun c b => Gen.V2 m (Hand.outs m) c b

/-- The attention region's result: stage 1 of the reference, of the launch arguments. -/
theorem v0_eq (c : Dev nD) :
    (Gen.V1 m (Hand.outs m) c (Proc.devRef .tc main_v0) : T Ideal S32x8192)
      = Cert.ReferenceIdeal.Spec.stage1 (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) := by
  have h : Gen.V1 m (Hand.outs m) c (Proc.devRef .tc main_v0) = Hand.outs m 1 main_v0 c := Function.update_self ..
  rw [h, Hand.outs_v0, Hand.attn_arr]
  exact stage1_eq _ _ _ _ _ _

/-- The first dense layer's result: max (y · w2 + b2, 0) of the attention region's result. -/
theorem v1_eq (c : Dev nD) :
    (Gen.V2 m (Hand.outs m) c (Proc.devRef .tc main_v1) : T Ideal S32x8192)
      = Cert.ReferenceIdeal.Spec.ffn1 (F := Ideal) (Gen.V1 m (Hand.outs m) c (Proc.devRef .tc main_v0))
          (m ((c.tc : Thread nD τ).loc main_arg6)) (m ((c.tc : Thread nD τ).loc main_arg7)) := by
  have h : Gen.V2 m (Hand.outs m) c (Proc.devRef .tc main_v1) = Hand.outs m 2 main_v1 c := Function.update_self ..
  rw [h, Hand.outs_v1, ffn1_arr]
  have h6 : Gen.V1 m (Hand.outs m) c (Proc.devRef .tc main_arg6) = m ((c.tc : Thread nD τ).loc main_arg6) := Gen.V1_of m (Hand.outs m) c main_arg6 (by decide)
  have h7 : Gen.V1 m (Hand.outs m) c (Proc.devRef .tc main_arg7) = m ((c.tc : Thread nD τ).loc main_arg7) := Gen.V1_of m (Hand.outs m) c main_arg7 (by decide)
  rw [h6, h7]

/-- The second dense layer's result: z · w3 + b3 of the first layer's result. -/
theorem v2_eq (c : Dev nD) :
    (Gen.V3 m (Hand.outs m) c (Proc.devRef .tc main_v2) : T Ideal S32x8192)
      = Cert.ReferenceIdeal.Spec.ffn2 (F := Ideal) (Gen.V2 m (Hand.outs m) c (Proc.devRef .tc main_v1))
          (m ((c.tc : Thread nD τ).loc main_arg8)) (m ((c.tc : Thread nD τ).loc main_arg9)) := by
  have h : Gen.V3 m (Hand.outs m) c (Proc.devRef .tc main_v2) = Hand.outs m 3 main_v2 c := Function.update_self ..
  rw [h, Hand.outs_v2, ffn2_arr]
  have h8 : Gen.V2 m (Hand.outs m) c (Proc.devRef .tc main_arg8) = m ((c.tc : Thread nD τ).loc main_arg8) :=
    (Gen.V2_of m (Hand.outs m) c main_arg8 (by decide)).trans (Gen.V1_of m (Hand.outs m) c main_arg8 (by decide))
  have h9 : Gen.V2 m (Hand.outs m) c (Proc.devRef .tc main_arg9) = m ((c.tc : Thread nD τ).loc main_arg9) :=
    (Gen.V2_of m (Hand.outs m) c main_arg9 (by decide)).trans (Gen.V1_of m (Hand.outs m) c main_arg9 (by decide))
  rw [h8, h9]

/-- The program's result buffer at the end of @main is the reference's function of the launch arguments. -/
theorem result_eq (c : Dev nD) :
    (Gen.V6 m (Hand.outs m) c (Proc.devRef .tc main_v15) : T Ideal S32x8192)
      = Cert.ReferenceIdeal.Spec.whole (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) := by
  have h0 : Gen.V3 m (Hand.outs m) c (Proc.devRef .tc main_v0) = Gen.V1 m (Hand.outs m) c (Proc.devRef .tc main_v0) :=
    (Gen.V3_of m (Hand.outs m) c main_v0 (by decide)).trans (Gen.V2_of m (Hand.outs m) c main_v0 (by decide))
  rw [tail_eq, h0, v2_eq, v1_eq, v0_eq]
  rfl

end Cert.Bridge

end
-- ==== Proof.lean ====
/-
  The certificate's claims, assembled.

  The kernel program runs three kernel regions and a host tail. Region 0 computes, at its single grid point, single-head
  causal attention (the three projections of x, the logits q·kᵀ cut from above by a ±100000 mask, a row softmax, the value
  product), its output projection with bias, the residual, and a LayerNorm over the last axis. Regions 1 and 2 are the two
  dense layers y·W + b over a grid of 8 column blocks by 8 contraction blocks: an accumulator tile is reset at the first
  contraction block, gains one block product per point, and at the last contraction block is written out with the bias
  (and, in the first layer, the maximum with zero). The host tail adds the residual and applies the second LayerNorm.

  The frames: each region's proof data and body obligation (the accumulator's contents carried from point to point in the
  regions' invariant), assembled over the program's list of segments. The values, at the ideal instance: region 0's one
  block is the whole array, so its output is the body's function of the arguments, which is the reference's first stage
  operation by operation (a matrix product into a zero accumulator is the host's contraction; a lane reduction is the
  host's; a change of float format is the identity; the mask's two literals are (2 − 1)·100000 and (0 − 1)·100000; the
  variance's "normaliser positive" guard holds since 8192 − 0 > 0); a dense layer's column block is the eightfold fold of
  block products, and a sum over 8 blocks of 1024 is the sum over 8192; the host tail is the reference's closing LayerNorm
  term for term. The reference's run is its operations composed, its outlined functions opened at their calls.
-/
import proofs.«129914_j85323820303106_1_alg».proof.Defs
import proofs.«129914_j85323820303106_1_alg».proof.Proof.Gen.Kernel
import proofs.«129914_j85323820303106_1_alg».proof.Proof.Gen.KernelIdeal
import proofs.«129914_j85323820303106_1_alg».proof.Proof.Gen.ReferenceIdeal
import proofs.«129914_j85323820303106_1_alg».proof.Proof.Gen.Pre_finite_inputs
import proofs.«129914_j85323820303106_1_alg».proof.Proof.K.Run
import proofs.«129914_j85323820303106_1_alg».proof.Proof.KI.Run
import proofs.«129914_j85323820303106_1_alg».proof.Proof.RefRun
import proofs.«129914_j85323820303106_1_alg».proof.Proof.Chain
import Idealize.ShloMosaic.Adequacy
import Idealize.ShloMosaic.Init

noncomputable section

namespace Cert.Proof

open Idealize.ShloMosaic Idealize.ShloMosaic.TcCoe Idealize.SL.Sem

/-- The word-level program terminates, faults nowhere and leaves its arguments as launched. -/
theorem frame_k : Cert.frame_Kernel := fun m ρ _ => Cert.Kernel.Hand.frame (F := Bits) m ρ

/-- The same of the idealized program, read at the extended reals. -/
theorem frame_ki : Cert.frame_KernelIdeal := fun m ρ _ => Cert.KernelIdeal.Hand.frame (F := Ideal) m ρ

/-- The reference's frame is its run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- An unscoped TensorCore reference is among those the last thread state holds. -/
theorem mem_uc (b : Ref Cert.KernelIdeal.sig .tc) (h : ¬ (Proc.devRef .tc b : DevRef Cert.KernelIdeal.τ Cert.KernelIdeal.sig).isScoped) :
    Proc.devRef .tc b ∈ Pipeline.ucRefs Cert.KernelIdeal.τ Cert.KernelIdeal.sig :=
  Finset.mem_filter.mpr ⟨StableHlo.devRef_mem_tcRefs b, h⟩

/-- Both idealized programs end, from memories agreeing on the arguments, with the same result: the reference's function
    `Spec.whole` of the arguments. -/
theorem algebraic : Cert.algebraic_KernelIdeal_ReferenceIdeal := by
  intro m ρ m' ρ' _ hagree
  refine ⟨fun c => Cert.ReferenceIdeal.Spec.whole (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
    (m ((c.tc : Thread Cert.KernelIdeal.nD Cert.KernelIdeal.τ).loc Cert.KernelIdeal.main_arg6))
    (m ((c.tc : Thread Cert.KernelIdeal.nD Cert.KernelIdeal.τ).loc Cert.KernelIdeal.main_arg7))
    (m ((c.tc : Thread Cert.KernelIdeal.nD Cert.KernelIdeal.τ).loc Cert.KernelIdeal.main_arg8))
    (m ((c.tc : Thread Cert.KernelIdeal.nD Cert.KernelIdeal.τ).loc Cert.KernelIdeal.main_arg9)), ?_, ?_⟩
  · refine (θ_run Cert.KernelIdeal.defs _ _).mono (fun r h c => ?_) (Cert.KernelIdeal.Hand.run_all (F := Ideal) m ρ)
    exact ⟨(h c _ (mem_uc Cert.KernelIdeal.main_v15 (by decide))).trans (Cert.Bridge.result_eq m c),
      (h c _ (mem_uc Cert.KernelIdeal.main_arg0 (by decide))).trans (Cert.KernelIdeal.Gen.V6_main_arg0 m _ c),
      (h c _ (mem_uc Cert.KernelIdeal.main_arg1 (by decide))).trans (Cert.KernelIdeal.Gen.V6_main_arg1 m _ c),
      (h c _ (mem_uc Cert.KernelIdeal.main_arg2 (by decide))).trans (Cert.KernelIdeal.Gen.V6_main_arg2 m _ c),
      (h c _ (mem_uc Cert.KernelIdeal.main_arg3 (by decide))).trans (Cert.KernelIdeal.Gen.V6_main_arg3 m _ c),
      (h c _ (mem_uc Cert.KernelIdeal.main_arg4 (by decide))).trans (Cert.KernelIdeal.Gen.V6_main_arg4 m _ c),
      (h c _ (mem_uc Cert.KernelIdeal.main_arg5 (by decide))).trans (Cert.KernelIdeal.Gen.V6_main_arg5 m _ c),
      (h c _ (mem_uc Cert.KernelIdeal.main_arg6 (by decide))).trans (Cert.KernelIdeal.Gen.V6_main_arg6 m _ c),
      (h c _ (mem_uc Cert.KernelIdeal.main_arg7 (by decide))).trans (Cert.KernelIdeal.Gen.V6_main_arg7 m _ c),
      (h c _ (mem_uc Cert.KernelIdeal.main_arg8 (by decide))).trans (Cert.KernelIdeal.Gen.V6_main_arg8 m _ c),
      (h c _ (mem_uc Cert.KernelIdeal.main_arg9 (by decide))).trans (Cert.KernelIdeal.Gen.V6_main_arg9 m _ c)⟩
  · refine (θ_run Cert.ReferenceIdeal.defs _ _).mono (fun r h c => ⟨(h c).1.trans ?_, (h c).2⟩)
      (Cert.ReferenceIdeal.Hand.run (F := Ideal) m' ρ')
    obtain ⟨e0, e1, e2, e3, e4, e5, e6, e7, e8, e9⟩ := hagree c
    rw [e0, e1, e2, e3, e4, e5, e6, e7, e8, e9]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
